-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S_ : Shape := ⟨0, ![]⟩

class Facts : Prop where
  bcast_S_S2048x128 : S_.BroadcastsInDim S2048x128 (![] : Fin 0 → Fin S2048x128.rank)
  reducesTo_S2048x128_S_d0_1 : S2048x128.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2048x4096 : S_.BroadcastsInDim S2048x4096 (![] : Fin 0 → Fin S2048x4096.rank)
  reducesTo_S2048x4096_S_d0_1 : S2048x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S128x128 : S_.BroadcastsInDim S128x128 (![] : Fin 0 → Fin S128x128.rank)
  reducesTo_S128x128_S_d0_1 : S128x128.ReducesTo [0, 1] S_
  bcast_S_S16x16 : S_.BroadcastsInDim S16x16 (![] : Fin 0 → Fin S16x16.rank)
  reducesTo_S16x16_S_d0_1 : S16x16.ReducesTo [0, 1] S_
  bcast_S_S16x1 : S_.BroadcastsInDim S16x1 (![] : Fin 0 → Fin S16x1.rank)
  reducesTo_S16x1_S_d0_1 : S16x1.ReducesTo [0, 1] S_
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S16x1 .f32) (main_arg8 : FVec F S128x1 .f32) (main_arg9 : FVec F S128 .f32) (main_arg10 : FVec F S16 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S4096x16 .f32) (main_arg5 : FVec F S128x128 .f32) (main_arg6 : FVec F S16x16 .f32) (main_arg7 : FVec F S16x1 .f32) (main_arg8 : FVec F S128x1 .f32) (main_arg9 : FVec F S128 .f32) (main_arg10 : FVec F S16 .f32) (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S16x16 .f32 := Host.absf main_arg6
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S2048x128 .f32) (main_arg1 : FVec F S2048x2048 .f32) (main_arg2 : FVec F S4096x4096 .f32) (main_arg3 : FVec F S2048x4096 .f32) (main_arg4 : FVec F S4096x16 .f32) (main_arg5 : FVec F S128x128 .f32) (main_arg6 : FVec F S16x16 .f32) (main_arg7 : FVec F S16x1 .f32) (main_arg8 : FVec F S128x1 .f32) (main_arg9 : FVec F S128 .f32) (main_arg10 : FVec F S16 .f32) : IVec S_ 1 :=
  let main_v0 : FVec F S2048x128 .f32 := Host.absf main_arg0
  let main_cst : FVec F S_ .f32 := constant S_ .f32 0x7F800000#32
  let main_v1 : FVec F S2048x128 .f32 := broadcastInDim S2048x128 ![] bcast_S_S2048x128 main_cst
  let main_v2 : IVec S2048x128 1 := cmpf .olt main_v0 main_v1
  let main_c : IVec S_ 1 := constantI S_ 1 1#1
  let main_v3 : IVec S_ 1 := (fun x v => Host.reduce IntOp.andi x v reducesTo_S2048x128_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_arg4 main_arg5 main_arg6 main_arg7 main_arg8 main_arg9 main_arg10 main_v13 main_v16
-- ==== Kernel.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S1x128 : Shape := ⟨2, ![1, 128]⟩
abbrev S1x16 : Shape := ⟨2, ![1, 16]⟩
abbrev S1x4096 : Shape := ⟨2, ![1, 4096]⟩
abbrev S2048x1 : Shape := ⟨2, ![2048, 1]⟩
abbrev S256x4096 : Shape := ⟨2, ![256, 4096]⟩
abbrev S256x256 : Shape := ⟨2, ![256, 256]⟩
abbrev S256x128 : Shape := ⟨2, ![256, 128]⟩
abbrev S2048x512 : Shape := ⟨2, ![2048, 512]⟩
abbrev S512x512 : Shape := ⟨2, ![512, 512]⟩
abbrev S512x16 : Shape := ⟨2, ![512, 16]⟩

abbrev nBuf : Space → Nat
  | .hbm => 19
  | .vmem => 38
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S4096x4096, .f32⟩
  | .hbm, ⟨3, _⟩ => ⟨S2048x4096, .f32⟩
  | .hbm, ⟨4, _⟩ => ⟨S4096x16, .f32⟩
  | .hbm, ⟨5, _⟩ => ⟨S128x128, .f32⟩
  | .hbm, ⟨6, _⟩ => ⟨S16x16, .f32⟩
  | .hbm, ⟨7, _⟩ => ⟨S16x1, .f32⟩
  | .hbm, ⟨8, _⟩ => ⟨S128x1, .f32⟩
  | .hbm, ⟨9, _⟩ => ⟨S128, .f32⟩
  | .hbm, ⟨10, _⟩ => ⟨S16, .f32⟩
  | .hbm, ⟨11, _⟩ => ⟨S1x128, .f32⟩
  | .hbm, ⟨12, _⟩ => ⟨S1x16, .f32⟩
  | .hbm, ⟨13, _⟩ => ⟨S1x4096, .f32⟩
  | .hbm, ⟨14, _⟩ => ⟨S2048x1, .f32⟩
  | .hbm, ⟨15, _⟩ => ⟨S2048x128, .f32⟩
  | .hbm, ⟨16, _⟩ => ⟨S4096x16, .f32⟩
  | .hbm, ⟨17, _⟩ => ⟨S2048x128, .f32⟩
  | .hbm, ⟨18, _⟩ => ⟨S4096x16, .f32⟩
  | .local _ .vmem, ⟨0, _⟩ => ⟨S2048x128, .f32⟩
  | .local _ .vmem, ⟨1, _⟩ => ⟨S4096x16, .f32⟩
  | .local _ .vmem, ⟨2, _⟩ => ⟨S128x128, .f32⟩
  | .local _ .vmem, ⟨3, _⟩ => ⟨S16x16, .f32⟩
  | .local _ .vmem, ⟨4, _⟩ => ⟨S16x1, .f32⟩
  | .local _ .vmem, ⟨5, _⟩ => ⟨S128x1, .f32⟩
  | .local _ .vmem, ⟨6, _⟩ => ⟨S1x4096, .f32⟩
  | .local _ .vmem, ⟨7, _⟩ => ⟨S2048x1, .f32⟩
  | .local _ .vmem, ⟨8, _⟩ => ⟨S2048x128, .f32⟩
  | .local _ .vmem, ⟨9, _⟩ => ⟨S4096x16, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S256x4096, .f32⟩
  | .local _ .vmem, ⟨14, _⟩ => ⟨S256x256, .f32⟩
  | .local _ .vmem, ⟨15, _⟩ => ⟨S256x256, .f32⟩
  | .local _ .vmem, ⟨16, _⟩ => ⟨S256x128, .f32⟩
  | .local _ .vmem, ⟨17, _⟩ => ⟨S256x128, .f32⟩
  | .local _ .vmem, ⟨18, _⟩ => ⟨S1x4096, .f32⟩
  | .local _ .vmem, ⟨19, _⟩ => ⟨S256x128, .f32⟩
  | .local _ .vmem, ⟨20, _⟩ => ⟨S256x128, .f32⟩
  | .local _ .vmem, ⟨21, _⟩ => ⟨S1x128, .f32⟩
  | .local _ .vmem, ⟨22, _⟩ => ⟨S256x128, .f32⟩
  | .local _ .vmem, ⟨23, _⟩ => ⟨S256x128, .f32⟩
  | .local _ .vmem, ⟨24, _⟩ => ⟨S2048x512, .f32⟩
  | .local _ .vmem, ⟨25, _⟩ => ⟨S2048x512, .f32⟩
  | .local _ .vmem, ⟨26, _⟩ => ⟨S2048x512, .f32⟩
  | .local _ .vmem, ⟨27, _⟩ => ⟨S2048x512, .f32⟩
  | .local _ .vmem, ⟨28, _⟩ => ⟨S512x512, .f32⟩
  | .local _ .vmem, ⟨29, _⟩ => ⟨S512x512, .f32⟩
  | .local _ .vmem, ⟨30, _⟩ => ⟨S512x16, .f32⟩
  | .local _ .vmem, ⟨31, _⟩ => ⟨S512x16, .f32⟩
  | .local _ .vmem, ⟨32, _⟩ => ⟨S2048x1, .f32⟩
  | .local _ .vmem, ⟨33, _⟩ => ⟨S512x16, .f32⟩
  | .local _ .vmem, ⟨34, _⟩ => ⟨S512x16, .f32⟩
  | .local _ .vmem, ⟨35, _⟩ => ⟨S1x16, .f32⟩
  | .local _ .vmem, ⟨36, _⟩ => ⟨S512x16, .f32⟩
  | .local _ .vmem, ⟨37, _⟩ => ⟨S512x16, .f32⟩
  | _, _ => ⟨S2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev main_v2_2 : Ref sig .tc := ⟨.hbm, 15, rfl⟩
abbrev main_v2_3 : Ref sig .tc := ⟨.hbm, 16, rfl⟩
abbrev main_v3 : Ref sig .tc := ⟨.hbm, 17, rfl⟩
abbrev main_v4 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg3_1 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg7_1 : Ref sig .tc := ⟨.vmem, 37, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem5_1 : DmaSem sig := 34
abbrev cc2_sem6_0 : DmaSem sig := 35
abbrev cc2_sem7_0 : DmaSem sig := 36
abbrev cc2_sem7_1 : DmaSem sig := 37

abbrev nD : Nat := 1
abbrev τ : Topo := Topo.v7x

variable {F : FTy → Type} [FloatOps F]

abbrev grid0 : Pipeline.Grid := .none

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4096x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨2, ![8, 8], ![false, false]⟩

def k1_cond1 (i : grid1.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

def k1_cond2 (i : grid1.Coords) : BitVec 1 :=
  let arg1 : BitVec 32 := BitVec.ofNat 32 (i 1).val
  let c0_i32_11 : BitVec 32 := 0#32
  let v15 : BitVec 1 := Scalar.cmpi .ne arg1 c0_i32_11
  let v16 : BitVec 32 := Scalar.extui v15
  let c0_i32_12 : BitVec 32 := 0#32
  let v17 : BitVec 1 := Scalar.cmpi .ne v16 c0_i32_12
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![8, 8], ![false, false]⟩

def k2_cond1 (i : grid2.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

def k2_cond2 (i : grid2.Coords) : BitVec 1 :=
  let arg1 : BitVec 32 := BitVec.ofNat 32 (i 1).val
  let c0_i32_11 : BitVec 32 := 0#32
  let v15 : BitVec 1 := Scalar.cmpi .ne arg1 c0_i32_11
  let v16 : BitVec 32 := Scalar.extui v15
  let c0_i32_12 : BitVec 32 := 0#32
  let v17 : BitVec 1 := Scalar.cmpi .ne v16 c0_i32_12
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 1 → Memref sig .tc .vmem S2048x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S512x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 1 → Memref sig .tc .vmem S1x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S512x16 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

class Facts₀ : Prop where
  shapeCasts_S128_S1x128 : S128.ShapeCasts S1x128
  shapeCasts_S16_S1x16 : S16.ShapeCasts S1x16
  inb_S16x1_S16x1_0_0 : ∀ a, (![0, 0] : Fin 2 → Nat) a + S16x1.size a ≤ S16x1.size a
  h_S16x1 : 0 < S16x1.numel
  inb_S4096x16_S4096x16_0_0 : ∀ a, (![0, 0] : Fin 2 → Nat) a + S4096x16.size a ≤ S4096x16.size a
  h_S4096x16 : 0 < S4096x16.numel
  inb_S1x4096_S1x4096_0_0 : ∀ a, (![0, 0] : Fin 2 → Nat) a + S1x4096.size a ≤ S1x4096.size a
  h_S1x4096 : 0 < S1x4096.numel
  inb_S2048x128_S2048x128_0_0 : ∀ a, (![0, 0] : Fin 2 → Nat) a + S2048x128.size a ≤ S2048x128.size a
  h_S2048x128 : 0 < S2048x128.numel
  inb_S128x1_S128x1_0_0 : ∀ a, (![0, 0] : Fin 2 → Nat) a + S128x1.size a ≤ S128x1.size a
  h_S128x1 : 0 < S128x1.numel
  inb_S2048x1_S2048x1_0_0 : ∀ a, (![0, 0] : Fin 2 → Nat) a + S2048x1.size a ≤ S2048x1.size a
  h_S2048x1 : 0 < S2048x1.numel
  inb_S128x128_S128x128_0_0 : ∀ a, (![0, 0] : Fin 2 → Nat) a + S128x128.size a ≤ S128x128.size a
  h_S128x128 : 0 < S128x128.numel
  inb_S16x16_S16x16_0_0 : ∀ a, (![0, 0] : Fin 2 → Nat) a + S16x16.size a ≤ S16x16.size a
  h_S16x16 : 0 < S16x16.numel
  inb_S256x4096_S256x4096_0_0 : ∀ a, (![0, 0] : Fin 2 → Nat) a + S256x4096.size a ≤ S256x4096.size a
  h_S256x4096 : 0 < S256x4096.numel
  shapeCasts_S1x4096_S1x4096 : S1x4096.ShapeCasts S1x4096
  broadcasts_S1x4096_S256x4096 : S1x4096.Broadcasts S256x4096
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S2048x512_S2048x512_0_0 : ∀ a, (![0, 0] : Fin 2 → Nat) a + S2048x512.size a ≤ S2048x512.size a
  h_S2048x512 : 0 < S2048x512.numel
  shapeCasts_S2048x1_S2048x1 : S2048x1.ShapeCasts S2048x1
  broadcasts_S2048x1_S2048x512 : S2048x1.Broadcasts S2048x512
  inb_S512x512_S512x512_0_0 : ∀ a, (![0, 0] : Fin 2 → Nat) a + S512x512.size a ≤ S512x512.size a
  h_S512x512 : 0 < S512x512.numel
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  dot_S16x1_S4096x16_S1x4096_0_1_1_0_n_n_wf : DotDims.WF S16x1 S4096x16 S1x4096 [0] [1] [1] [0] [] []
  dot_S2048x128_S128x1_S2048x1_1_0_0_1_n_n_wf : DotDims.WF S2048x128 S128x1 S2048x1 [1] [0] [0] [1] [] []
  dot_S2048x128_S128x128_S2048x128_1_0_0_1_n_n_wf : DotDims.WF S2048x128 S128x128 S2048x128 [1] [0] [0] [1] [] []
  dot_S4096x16_S16x16_S4096x16_1_0_0_1_n_n_wf : DotDims.WF S4096x16 S16x16 S4096x16 [1] [0] [0] [1] [] []
  dot_S256x4096_S256x4096_S256x256_1_1_0_0_n_n_wf : DotDims.WF S256x4096 S256x4096 S256x256 [1] [1] [0] [0] [] []
  dot_S256x256_S256x128_S256x128_1_0_0_1_n_n_wf : DotDims.WF S256x256 S256x128 S256x128 [1] [0] [0] [1] [] []
  dot_S2048x512_S2048x512_S512x512_0_0_1_1_n_n_wf : DotDims.WF S2048x512 S2048x512 S512x512 [0] [0] [1] [1] [] []
  dot_S512x512_S512x16_S512x16_1_0_0_1_n_n_wf : DotDims.WF S512x512 S512x16 S512x16 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S2048x4096.size a
  hwx1_0 : ∀ i : grid1.Coords, EltTy.bits .f32 = 32 ∨ (Rect.block (s := S2048x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S2048x4096.size a
  hwx1_1 : ∀ i : grid1.Coords, EltTy.bits .f32 = 32 ∨ (Rect.block (s := S2048x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S2048x2048.size a
  hwx1_2 : ∀ i : grid1.Coords, EltTy.bits .f32 = 32 ∨ (Rect.block (s := S2048x2048) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S2048x128.size a
  hwx1_3 : ∀ i : grid1.Coords, EltTy.bits .f32 = 32 ∨ (Rect.block (s := S2048x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S2048x128.size a
  hwx1_5 : ∀ i : grid1.Coords, EltTy.bits .f32 = 32 ∨ (Rect.block (s := S2048x128) S256x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S256x128.size a ≤ S2048x128.size a
  hwx1_7 : ∀ i : grid1.Coords, EltTy.bits .f32 = 32 ∨ (Rect.block (s := S2048x128) S256x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x512.size a ≤ S2048x4096.size a
  hwx2_0 : ∀ i : grid2.Coords, EltTy.bits .f32 = 32 ∨ (Rect.block (s := S2048x4096) S2048x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S2048x4096.size a
  hwx2_1 : ∀ i : grid2.Coords, EltTy.bits .f32 = 32 ∨ (Rect.block (s := S2048x4096) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x512.size a ≤ S4096x4096.size a
  hwx2_2 : ∀ i : grid2.Coords, EltTy.bits .f32 = 32 ∨ (Rect.block (s := S4096x4096) S512x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x16.size a ≤ S4096x16.size a
  hwx2_3 : ∀ i : grid2.Coords, EltTy.bits .f32 = 32 ∨ (Rect.block (s := S4096x16) S512x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2048x1.size a ≤ S2048x1.size a
  hwx2_4 : ∀ i : grid2.Coords, EltTy.bits .f32 = 32 ∨ (Rect.block (s := S2048x1) S2048x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x16.size a ≤ S4096x16.size a
  hwx2_5 : ∀ i : grid2.Coords, EltTy.bits .f32 = 32 ∨ (Rect.block (s := S4096x16) S512x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x16.size a ≤ S1x16.size a
  hwx2_6 : ∀ i : grid2.Coords, EltTy.bits .f32 = 32 ∨ (Rect.block (s := S1x16) S1x16.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x16.size a ≤ S4096x16.size a
  hwx2_7 : ∀ i : grid2.Coords, EltTy.bits .f32 = 32 ∨ (Rect.block (s := S4096x16) S512x16.size (cc2_transform_7 i) (hinb2_7 i)).WholeWords (EltTy.packing .f32)

variable [Facts₀]

def dot_S16x1_S4096x16_S1x4096_0_1_1_0_n_n : DotDims S16x1 S4096x16 S1x4096 where
  lhsContracting := [0]
  rhsContracting := [1]
  lhsNonContracting := [1]
  rhsNonContracting := [0]
  lhsBatch := []
  rhsBatch := []
  wf := dot_S16x1_S4096x16_S1x4096_0_1_1_0_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S2048x512_S2048x512_S512x512_0_0_1_1_n_n : DotDims S2048x512 S2048x512 S512x512 where
  lhsContracting := [0]
  rhsContracting := [0]
  lhsNonContracting := [1]
  rhsNonContracting := [1]
  lhsBatch := []
  rhsBatch := []
  wf := dot_S2048x512_S2048x512_S512x512_0_0_1_1_n_n_wf
def dot_S512x512_S512x16_S512x16_1_0_0_1_n_n : DotDims S512x512 S512x16 S512x16 where
  lhsContracting := [1]
  rhsContracting := [0]
  lhsNonContracting := [0]
  rhsNonContracting := [1]
  lhsBatch := []
  rhsBatch := []
  wf := dot_S512x512_S512x16_S512x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg4) false false (stage0_1 0) (sem0_1 0) (Memref.isWhole_whole _) (hstage0_1 0)

abbrev win0_2 : Pipeline.Window sig grid0 :=
  Pipeline.Window.whole (Memref.whole main_arg5) false false (stage0_2 0) (sem0_2 0) (Memref.isWhole_whole _) (hstage0_2 0)

abbrev win0_3 : Pipeline.Window sig grid0 :=
  Pipeline.Window.whole (Memref.whole main_arg6) false false (stage0_3 0) (sem0_3 0) (Memref.isWhole_whole _) (hstage0_3 0)

abbrev win0_4 : Pipeline.Window sig grid0 :=
  Pipeline.Window.whole (Memref.whole main_arg7) false false (stage0_4 0) (sem0_4 0) (Memref.isWhole_whole _) (hstage0_4 0)

abbrev win0_5 : Pipeline.Window sig grid0 :=
  Pipeline.Window.whole (Memref.whole main_arg8) false false (stage0_5 0) (sem0_5 0) (Memref.isWhole_whole _) (hstage0_5 0)

abbrev win0_6 : Pipeline.Window sig grid0 :=
  Pipeline.Window.whole (Memref.whole main_v2_0) true false (stage0_6 0) (sem0_6 0) (Memref.isWhole_whole _) (hstage0_6 0)

abbrev win0_7 : Pipeline.Window sig grid0 :=
  Pipeline.Window.whole (Memref.whole main_v2_1) true false (stage0_7 0) (sem0_7 0) (Memref.isWhole_whole _) (hstage0_7 0)

abbrev win0_8 : Pipeline.Window sig grid0 :=
  Pipeline.Window.whole (Memref.whole main_v2_2) true false (stage0_8 0) (sem0_8 0) (Memref.isWhole_whole _) (hstage0_8 0)

abbrev win0_9 : Pipeline.Window sig grid0 :=
  Pipeline.Window.whole (Memref.whole main_v2_3) true false (stage0_9 0) (sem0_9 0) (Memref.isWhole_whole _) (hstage0_9 0)

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg3) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_2) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S256x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v0) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S256x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond1 i == 1#1) && !(k1_cond2 i == 1#1) | ⟨_ + 8, h⟩ => absurd h (Nat.not_lt.2 (Nat.le_add_left _ _))

abbrev win2_0 : Pipeline.Window sig grid2 :=
  Pipeline.Window.ofSpec (Memref.whole main_arg3) S2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S512x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_3) S512x16.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v2_1) S2048x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S512x16.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v1) S1x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S512x16.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond1 i == 1#1) && !(k2_cond2 i == 1#1) | ⟨_ + 8, h⟩ => absurd h (Nat.not_lt.2 (Nat.le_add_left _ _))

class Facts : Prop extends Facts₀ where

variable [Facts]
-- ==== ReferenceIdeal.lean ====
abbrev S2048x128 : Shape := ⟨2, ![2048, 128]⟩
abbrev S2048x2048 : Shape := ⟨2, ![2048, 2048]⟩
abbrev S4096x4096 : Shape := ⟨2, ![4096, 4096]⟩
abbrev S2048x4096 : Shape := ⟨2, ![2048, 4096]⟩
abbrev S4096x16 : Shape := ⟨2, ![4096, 16]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S16 : Shape := ⟨1, ![16]⟩
abbrev S4096x1 : Shape := ⟨2, ![4096, 1]⟩
abbrev S4096 : Shape := ⟨1, ![4096]⟩
abbrev S1x4096 : Shape := ⟨2, ![1, 4096]⟩
abbrev S4096x2048 : Shape := ⟨2, ![4096, 2048]⟩
abbrev S1x128 : Shape := ⟨2, ![1, 128]⟩
abbrev S2048x1 : Shape := ⟨2, ![2048, 1]⟩
abbrev S2048 : Shape := ⟨1, ![2048]⟩
abbrev S1x2048 : Shape := ⟨2, ![1, 2048]⟩
abbrev S1x16 : Shape := ⟨2, ![1, 16]⟩

abbrev nBuf : Space → Nat
  | .hbm => 39
  | .vmem => 0
  | .smem => 0
  | _ => 0

abbrev bufTy : (tb : Table) → Fin (tcTables nBuf tb) → BufTy
  | .hbm, ⟨0, _⟩ => ⟨S2048x128, .f32⟩
  | .hbm, ⟨1, _⟩ => ⟨S2048x2048, .f32⟩
  | .hbm, ⟨2, _⟩ => ⟨S4096x4096, .f32⟩
  | .hbm, ⟨3, _⟩ => ⟨S2048x4096, .f32⟩
  | .hbm, ⟨4, _⟩ => ⟨S4096x16, .f32⟩
  | .hbm, ⟨5, _⟩ => ⟨S128x128, .f32⟩
  | .hbm, ⟨6, _⟩ => ⟨S16x16, .f32⟩
  | .hbm, ⟨7, _⟩ => ⟨S16x1, .f32⟩
  | .hbm, ⟨8, _⟩ => ⟨S128x1, .f32⟩
  | .hbm, ⟨9, _⟩ => ⟨S128, .f32⟩
  | .hbm, ⟨10, _⟩ => ⟨S16, .f32⟩
  | .hbm, ⟨11, _⟩ => ⟨S4096x1, .f32⟩
  | .hbm, ⟨12, _⟩ => ⟨S4096, .f32⟩
  | .hbm, ⟨13, _⟩ => ⟨S1x4096, .f32⟩
  | .hbm, ⟨14, _⟩ => ⟨S2048x4096, .f32⟩
  | .hbm, ⟨15, _⟩ => ⟨S2048x4096, .f32⟩
  | .hbm, ⟨16, _⟩ => ⟨S4096x2048, .f32⟩
  | .hbm, ⟨17, _⟩ => ⟨S2048x2048, .f32⟩
  | .hbm, ⟨18, _⟩ => ⟨S2048x2048, .f32⟩
  | .hbm, ⟨19, _⟩ => ⟨S2048x128, .f32⟩
  | .hbm, ⟨20, _⟩ => ⟨S2048x128, .f32⟩
  | .hbm, ⟨21, _⟩ => ⟨S1x128, .f32⟩
  | .hbm, ⟨22, _⟩ => ⟨S2048x128, .f32⟩
  | .hbm, ⟨23, _⟩ => ⟨S2048x128, .f32⟩
  | .hbm, ⟨24, _⟩ => ⟨S2048x1, .f32⟩
  | .hbm, ⟨25, _⟩ => ⟨S2048, .f32⟩
  | .hbm, ⟨26, _⟩ => ⟨S4096x2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S4096x4096, .f32⟩
  | .hbm, ⟨31, _⟩ => ⟨S4096x4096, .f32⟩
  | .hbm, ⟨32, _⟩ => ⟨S4096x16, .f32⟩
  | .hbm, ⟨33, _⟩ => ⟨S4096x16, .f32⟩
  | .hbm, ⟨34, _⟩ => ⟨S1x16, .f32⟩
  | .hbm, ⟨35, _⟩ => ⟨S4096x16, .f32⟩
  | .hbm, ⟨36, _⟩ => ⟨S4096x16, .f32⟩
  | .hbm, ⟨37, _⟩ => ⟨S2048x128, .f32⟩
  | .hbm, ⟨38, _⟩ => ⟨S4096x16, .f32⟩
  | _, _ => ⟨S2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  shapeCasts_S4096x1_S4096 : S4096x1.ShapeCasts S4096
  bcast_S4096_S1x4096_1 : S4096.BroadcastsInDim S1x4096 (![1] : Fin 1 → Fin S1x4096.rank)
  bcast_S1x4096_S2048x4096_0_1 : S1x4096.BroadcastsInDim S2048x4096 (![0, 1] : Fin 2 → Fin S2048x4096.rank)
  transposes_S2048x4096_S4096x2048_1_0 : S2048x4096.Transposes [1, 0] S4096x2048
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  shapeCasts_S2048x1_S2048 : S2048x1.ShapeCasts S2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  dot_S4096x16_S16x1_S4096x1_1_0_0_1_n_n_wf : DotDims.WF S4096x16 S16x1 S4096x1 [1] [0] [0] [1] [] []
  dot_S2048x4096_S4096x2048_S2048x2048_1_0_0_1_n_n_wf : DotDims.WF S2048x4096 S4096x2048 S2048x2048 [1] [0] [0] [1] [] []
  dot_S2048x128_S128x128_S2048x128_1_0_0_1_n_n_wf : DotDims.WF S2048x128 S128x128 S2048x128 [1] [0] [0] [1] [] []
  dot_S2048x2048_S2048x128_S2048x128_1_0_0_1_n_n_wf : DotDims.WF S2048x2048 S2048x128 S2048x128 [1] [0] [0] [1] [] []
  dot_S2048x128_S128x1_S2048x1_1_0_0_1_n_n_wf : DotDims.WF S2048x128 S128x1 S2048x1 [1] [0] [0] [1] [] []
  dot_S4096x2048_S2048x4096_S4096x4096_1_0_0_1_n_n_wf : DotDims.WF S4096x2048 S2048x4096 S4096x4096 [1] [0] [0] [1] [] []
  dot_S4096x16_S16x16_S4096x16_1_0_0_1_n_n_wf : DotDims.WF S4096x16 S16x16 S4096x16 [1] [0] [0] [1] [] []
  dot_S4096x4096_S4096x16_S4096x16_1_0_0_1_n_n_wf : DotDims.WF S4096x4096 S4096x16 S4096x16 [1] [0] [0] [1] [] []

variable [Facts₀]

def dot_S4096x16_S16x1_S4096x1_1_0_0_1_n_n : DotDims S4096x16 S16x1 S4096x1 where
  lhsContracting := [1]
  rhsContracting := [0]
  lhsNonContracting := [0]
  rhsNonContracting := [1]
  lhsBatch := []
  rhsBatch := []
  wf := dot_S4096x16_S16x1_S4096x1_1_0_0_1_n_n_wf
def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x4096_S4096x16_S4096x16_1_0_0_1_n_n : DotDims S4096x4096 S4096x16 S4096x16 where
  lhsContracting := [1]
  rhsContracting := [0]
  lhsNonContracting := [0]
  rhsNonContracting := [1]
  lhsBatch := []
  rhsBatch := []
  wf := dot_S4096x4096_S4096x16_S4096x16_1_0_0_1_n_n_wf

class Facts : Prop extends Facts₀ where

variable [Facts]
-- ==== Proof.K.D0.lean ====
/-
  The first kernel region (one grid point; six whole-array inputs, four whole-array outputs): what each of its
  windows holds, as definitions over the contents `V` the region is entered with.

  The body reads p_node (16×1), e (4096×16), x (2048×128), p_edge (128×1), W_n (128×128), W_e (16×16) whole and
  stores four matrix products whole: p_nodeᵀ·eᵀ (1×4096), x·p_edge (2048×1), x·W_n (2048×128), e·W_e (4096×16).
  Each output buffer after the body is therefore ONE store covering the buffer, its payload the product of the
  loaded inputs.
-/
import proofs.«109357_g24051816857981_cont_8to1_1327_2_alg».proof.Proof.Gen.Kernel.Launch
import proofs.«109357_g24051816857981_cont_8to1_1327_2_alg».proof.Proof.Gen.Kernel.Skeleton
import proofs.«109357_g24051816857981_cont_8to1_1327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the (only) point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through, one per shape. -/
abbrev rc0_S16x1 : Rect S16x1 := Rect.unit (s := S16x1) ![0, 0] S16x1.size inb_S16x1_S16x1_0_0
abbrev rc0_S4096x16 : Rect S4096x16 := Rect.unit (s := S4096x16) ![0, 0] S4096x16.size inb_S4096x16_S4096x16_0_0
abbrev rc0_S2048x128 : Rect S2048x128 := Rect.unit (s := S2048x128) ![0, 0] S2048x128.size inb_S2048x128_S2048x128_0_0
abbrev rc0_S128x1 : Rect S128x1 := Rect.unit (s := S128x1) ![0, 0] S128x1.size inb_S128x1_S128x1_0_0
abbrev rc0_S128x128 : Rect S128x128 := Rect.unit (s := S128x128) ![0, 0] S128x128.size inb_S128x128_S128x128_0_0
abbrev rc0_S16x16 : Rect S16x16 := Rect.unit (s := S16x16) ![0, 0] S16x16.size inb_S16x16_S16x16_0_0
abbrev rc0_S1x4096 : Rect S1x4096 := Rect.unit (s := S1x4096) ![0, 0] S1x4096.size inb_S1x4096_S1x4096_0_0
abbrev rc0_S2048x1 : Rect S2048x1 := Rect.unit (s := S2048x1) ![0, 0] S2048x1.size inb_S2048x1_S2048x1_0_0

/-- Output window 6 (1×4096) after the body: one covering store of p_nodeᵀ·eᵀ. -/
def out0_6 (x4 : Vec F S16x1 .f32) (x1 : Vec F S4096x16 .f32) : Vec F S1x4096 .f32 :=
  View.canon [⟨rc0_S1x4096, k0_pay1 (View.ld x4 rc0_S16x1) (View.ld x1 rc0_S4096x16)⟩]
/-- Output window 7 (2048×1) after the body: one covering store of x·p_edge. -/
def out0_7 (x0 : Vec F S2048x128 .f32) (x5 : Vec F S128x1 .f32) : Vec F S2048x1 .f32 :=
  View.canon [⟨rc0_S2048x1, k0_pay2 (View.ld x0 rc0_S2048x128) (View.ld x5 rc0_S128x1)⟩]
/-- Output window 8 (2048×128) after the body: one covering store of x·W_n. -/
def out0_8 (x0 : Vec F S2048x128 .f32) (x2 : Vec F S128x128 .f32) : Vec F S2048x128 .f32 :=
  View.canon [⟨rc0_S2048x128, k0_pay3 (View.ld x0 rc0_S2048x128) (View.ld x2 rc0_S128x128)⟩]
/-- Output window 9 (4096×16) after the body: one covering store of e·W_e. -/
def out0_9 (x1 : Vec F S4096x16 .f32) (x3 : Vec F S16x16 .f32) : Vec F S4096x16 .f32 :=
  View.canon [⟨rc0_S4096x16, k0_pay4 (View.ld x1 rc0_S4096x16) (View.ld x3 rc0_S16x16)⟩]

/-- The offset vector of every rectangle above is zero. -/
theorem off2_zero : (![0, 0] : Fin 2 → Nat) = fun _ => 0 := funext fun a => by fin_cases a <;> rfl

/-- A covering store leaves its payload, and a whole load reads its buffer: each output is the product itself. -/
theorem out0_6_eq (x4 : Vec F S16x1 .f32) (x1 : Vec F S4096x16 .f32) : out0_6 x4 x1 = k0_pay1 x4 x1 := by
  unfold out0_6; rw [View.canon_unit_zero off2_zero]
  simp only [View.ld_unit_zero (S := S16x1) off2_zero, View.ld_unit_zero (S := S4096x16) off2_zero]
theorem out0_7_eq (x0 : Vec F S2048x128 .f32) (x5 : Vec F S128x1 .f32) : out0_7 x0 x5 = k0_pay2 x0 x5 := by
  unfold out0_7; rw [View.canon_unit_zero off2_zero]
  simp only [View.ld_unit_zero (S := S2048x128) off2_zero, View.ld_unit_zero (S := S128x1) off2_zero]
theorem out0_8_eq (x0 : Vec F S2048x128 .f32) (x2 : Vec F S128x128 .f32) : out0_8 x0 x2 = k0_pay3 x0 x2 := by
  unfold out0_8; rw [View.canon_unit_zero off2_zero]
  simp only [View.ld_unit_zero (S := S2048x128) off2_zero, View.ld_unit_zero (S := S128x128) off2_zero]
theorem out0_9_eq (x1 : Vec F S4096x16 .f32) (x3 : Vec F S16x16 .f32) : out0_9 x1 x3 = k0_pay4 x1 x3 := by
  unfold out0_9; rw [View.canon_unit_zero off2_zero]
  simp only [View.ld_unit_zero (S := S4096x16) off2_zero, View.ld_unit_zero (S := S16x16) off2_zero]

/-- The proof data of pipeline 0 on core `c`: the arrays as the region finds them; after the body each input's
    buffer at its block and each output's at its product; the invariant is the scoped rest and the generator
    register, untouched; nothing owed; full shares (the six input arrays are pairwise distinct). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 4 t) (iblk0 V c 1 t)
    | ⟨7, _⟩ => out0_7 (iblk0 V c 0 t) (iblk0 V c 5 t)
    | ⟨8, _⟩ => out0_8 (iblk0 V c 0 t) (iblk0 V c 2 t)
    | ⟨9, _⟩ => out0_9 (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 4 t) (iblk0 V c 1 t) := by dsimp only [dat0]
theorem after0_7 (c : Dev nD) (t : Fin cfg0.N) : (dat0 V c).after 7 t = out0_7 (iblk0 V c 0 t) (iblk0 V c 5 t) := by dsimp only [dat0]
theorem after0_8 (c : Dev nD) (t : Fin cfg0.N) : (dat0 V c).after 8 t = out0_8 (iblk0 V c 0 t) (iblk0 V c 2 t) := by dsimp only [dat0]
theorem after0_9 (c : Dev nD) (t : Fin cfg0.N) : (dat0 V c).after 9 t = out0_9 (iblk0 V c 1 t) (iblk0 V c 3 t) := by dsimp only [dat0]

end Cert.Kernel.Fr

end
-- ==== Proof.K.R0.lean ====
/-
  Region 0: the body obligation.
-/
import proofs.«109357_g24051816857981_cont_8to1_1327_2_alg».proof.Proof.K.D0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0 is uncut and never idle and the body leaves its block in place, so its current staging
    buffer holds the array's block at the point, whatever the buffer held before the fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 is uncut and never idle and the body leaves its block in place, so its current staging
    buffer holds the array's block at the point, whatever the buffer held before the fetch. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 is uncut and never idle and the body leaves its block in place, so its current staging
    buffer holds the array's block at the point, whatever the buffer held before the fetch. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 is uncut and never idle and the body leaves its block in place, so its current staging
    buffer holds the array's block at the point, whatever the buffer held before the fetch. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 is uncut and never idle and the body leaves its block in place, so its current staging
    buffer holds the array's block at the point, whatever the buffer held before the fetch. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5 is uncut and never idle and the body leaves its block in place, so its current staging
    buffer holds the array's block at the point, whatever the buffer held before the fetch. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## One whole-buffer store covers its buffer -/

/-- The rectangle of output window 6's store is the whole shape at offset zero: every index lies in it. -/
theorem cover0_6 (p : Vec F S1x4096 .f32) (y : S1x4096.Idx) :
    ∃ pc ∈ ([⟨rc0_S1x4096, p⟩] : List (View.Piece (Elt F) S1x4096 .f32)), y ∈ pc.1.set :=
  ⟨_, List.mem_singleton_self _, View.mem_set_unit_zero off2_zero inb_S1x4096_S1x4096_0_0 y⟩

/-- The rectangle of output window 7's store is the whole shape at offset zero: every index lies in it. -/
theorem cover0_7 (p : Vec F S2048x1 .f32) (y : S2048x1.Idx) :
    ∃ pc ∈ ([⟨rc0_S2048x1, p⟩] : List (View.Piece (Elt F) S2048x1 .f32)), y ∈ pc.1.set :=
  ⟨_, List.mem_singleton_self _, View.mem_set_unit_zero off2_zero inb_S2048x1_S2048x1_0_0 y⟩

/-- The rectangle of output window 8's store is the whole shape at offset zero: every index lies in it. -/
theorem cover0_8 (p : Vec F S2048x128 .f32) (y : S2048x128.Idx) :
    ∃ pc ∈ ([⟨rc0_S2048x128, p⟩] : List (View.Piece (Elt F) S2048x128 .f32)), y ∈ pc.1.set :=
  ⟨_, List.mem_singleton_self _, View.mem_set_unit_zero off2_zero inb_S2048x128_S2048x128_0_0 y⟩

/-- The rectangle of output window 9's store is the whole shape at offset zero: every index lies in it. -/
theorem cover0_9 (p : Vec F S4096x16 .f32) (y : S4096x16.Idx) :
    ∃ pc ∈ ([⟨rc0_S4096x16, p⟩] : List (View.Piece (Elt F) S4096x16 .f32)), y ∈ pc.1.set :=
  ⟨_, List.mem_singleton_self _, View.mem_set_unit_zero off2_zero inb_S4096x16_S4096x16_0_0 y⟩

/-! ## The body's triple -/

set_option maxHeartbeats 1000000 in
/-- The kernel body on whole staging memrefs — the six inputs' at read contents `x0 … x5`, the four outputs' at
    anything — runs to the continuation holding the inputs' as they were and each output's at its one covering
    store of the product of the loaded inputs. Each output buffer is loaded once before its store; the value
    loaded is read by nothing, so the buffer's earlier contents do not appear in what is left. -/
theorem sound_kernel0 (c : Dev nD) (E : Set ℕ)
    (arg0 : Memref sig .tc .vmem S2048x128 .f32) (harg0 : arg0.IsWhole)
    (arg1 : Memref sig .tc .vmem S4096x16 .f32) (harg1 : arg1.IsWhole)
    (arg2 : Memref sig .tc .vmem S128x128 .f32) (harg2 : arg2.IsWhole)
    (arg3 : Memref sig .tc .vmem S16x16 .f32) (harg3 : arg3.IsWhole)
    (arg4 : Memref sig .tc .vmem S16x1 .f32) (harg4 : arg4.IsWhole)
    (arg5 : Memref sig .tc .vmem S128x1 .f32) (harg5 : arg5.IsWhole)
    (arg6 : Memref sig .tc .vmem S1x4096 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S4096x16 .f32) (harg9 : arg9.IsWhole)
    (x0 : Vec F S2048x128 .f32) (x1 : Vec F S4096x16 .f32) (x2 : Vec F S128x128 .f32) (x3 : Vec F S16x16 .f32) (x4 : Vec F S16x1 .f32) (x5 : Vec F S128x1 .f32)
    (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (out0_6 x4 x1)
            ∗ owns (c : Thread nD τ) arg7 fullShare (out0_7 x0 x5)
            ∗ owns (c : Thread nD τ) arg8 fullShare (out0_8 x0 x2)
            ∗ owns (c : Thread nD τ) arg9 fullShare (out0_9 x1 x3)) -∗ K ⟨⟩))
      ⊢ wp frame (wpE (defs₀ (F := F)) Variants.none c none) E
          (cc0__prologue_kernel arg0 harg0 arg1 harg1 arg2 harg2 arg3 harg3 arg4 harg4 arg5 harg5 arg6 harg6 arg7 harg7 arg8 harg8 arg9 harg9) K := by
  simp only [cc0__prologue_kernel_eq_skeleton]; unfold cc0__prologue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The body obligation at the point -/

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the invariant and the debt at the next point, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at the point: the inputs' staging buffers hold their blocks, so the kernel's triple applies; the
    invariant and the core's debt are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for pipeline 0, at every grid point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.D1.lean ====
/-
  The node region (grid 8×8, point (i, j), j the fast axis): what each window holds, as definitions over the contents
  `V` the region is entered with. Windows: 0 the incidence rows of block i (256×4096), 1 the incidence rows of block j,
  2 the node Laplacian's tile (i, j) (256×256), 3 rows j of x·W_n (256×128), 4 the edge weights (1×4096), 5 rows i of x,
  6 the bias (1×128), 7 the output rows i (256×128), accumulated over j.
-/
import proofs.«109357_g24051816857981_cont_8to1_1327_2_alg».proof.Proof.Gen.Kernel.Launch
import proofs.«109357_g24051816857981_cont_8to1_1327_2_alg».proof.Proof.Gen.Kernel.Skeleton
import proofs.«109357_g24051816857981_cont_8to1_1327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through, one per shape. -/
abbrev rc1_S256x4096 : Rect S256x4096 := Rect.unit (s := S256x4096) ![0, 0] S256x4096.size inb_S256x4096_S256x4096_0_0
abbrev rc1_S256x256 : Rect S256x256 := Rect.unit (s := S256x256) ![0, 0] S256x256.size inb_S256x256_S256x256_0_0
abbrev rc1_S256x128 : Rect S256x128 := Rect.unit (s := S256x128) ![0, 0] S256x128.size inb_S256x128_S256x128_0_0
abbrev rc1_S1x4096 : Rect S1x4096 := Rect.unit (s := S1x4096) ![0, 0] S1x4096.size inb_S1x4096_S1x4096_0_0
abbrev rc1_S1x128 : Rect S1x128 := Rect.unit (s := S1x128) ![0, 0] S1x128.size inb_S1x128_S1x128_0_0

/-- The output buffer after the body at a point with j = 0: one covering store of (residual + bias) + contribution,
    from the blocks of windows 0–6. -/
def out1_A (x0 : Vec F S256x4096 .f32) (x1 : Vec F S256x4096 .f32) (x2 : Vec F S256x256 .f32) (x3 : Vec F S256x128 .f32) (x4 : Vec F S1x4096 .f32)
    (x5 : Vec F S256x128 .f32) (x6 : Vec F S1x128 .f32) : Vec F S256x128 .f32 :=
  View.canon [⟨rc1_S256x128, k1_pay2 (View.ld x0 rc1_S256x4096) (View.ld x4 rc1_S1x4096) (View.ld x1 rc1_S256x4096) (View.ld x2 rc1_S256x256) (View.ld x3 rc1_S256x128) (View.ld x5 rc1_S256x128) (View.ld x6 rc1_S1x128)⟩]
/-- The output buffer after the body at a point with j ≠ 0: one covering store of (what the buffer held) + contribution. -/
def out1_B (x0 : Vec F S256x4096 .f32) (x1 : Vec F S256x4096 .f32) (x2 : Vec F S256x256 .f32) (x3 : Vec F S256x128 .f32) (x4 : Vec F S1x4096 .f32)
    (xo : Vec F S256x128 .f32) : Vec F S256x128 .f32 :=
  View.canon [⟨rc1_S256x128, k1_pay3 (View.ld x0 rc1_S256x4096) (View.ld x4 rc1_S1x4096) (View.ld x1 rc1_S256x4096) (View.ld x2 rc1_S256x256) (View.ld x3 rc1_S256x128) (View.ld xo rc1_S256x128)⟩]

/-- The offset vector of every rectangle above is zero. -/
theorem off2_zero1 : (![0, 0] : Fin 2 → Nat) = fun _ => 0 := funext fun a => by fin_cases a <;> rfl

/-- A covering store leaves its payload, and a whole load reads its buffer. -/
theorem out1_A_eq (x0 : Vec F S256x4096 .f32) (x1 : Vec F S256x4096 .f32) (x2 : Vec F S256x256 .f32) (x3 : Vec F S256x128 .f32) (x4 : Vec F S1x4096 .f32)
    (x5 : Vec F S256x128 .f32) (x6 : Vec F S1x128 .f32) : out1_A x0 x1 x2 x3 x4 x5 x6 = k1_pay2 x0 x4 x1 x2 x3 x5 x6 := by
  unfold out1_A; rw [View.canon_unit_zero off2_zero1]
  simp only [View.ld_unit_zero (S := S256x4096) off2_zero1, View.ld_unit_zero (S := S256x256) off2_zero1, View.ld_unit_zero (S := S256x128) off2_zero1,
    View.ld_unit_zero (S := S1x4096) off2_zero1, View.ld_unit_zero (S := S1x128) off2_zero1]
theorem out1_B_eq (x0 : Vec F S256x4096 .f32) (x1 : Vec F S256x4096 .f32) (x2 : Vec F S256x256 .f32) (x3 : Vec F S256x128 .f32) (x4 : Vec F S1x4096 .f32)
    (xo : Vec F S256x128 .f32) : out1_B x0 x1 x2 x3 x4 xo = k1_pay3 x0 x4 x1 x2 x3 xo := by
  unfold out1_B; rw [View.canon_unit_zero off2_zero1]
  simp only [View.ld_unit_zero (S := S256x4096) off2_zero1, View.ld_unit_zero (S := S256x256) off2_zero1, View.ld_unit_zero (S := S256x128) off2_zero1,
    View.ld_unit_zero (S := S1x4096) off2_zero1]

/-- The first branch of the body (reset: residual + bias + contribution) is taken exactly where j = 0, -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- and the second (accumulate) exactly where j ≠ 0. -/
theorem hcond1_2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)

/-- THE ACCUMULATION. What the output's staging buffer holds after the body at position `n` of the grid's
    row-major order (n = 8·i + j): at j = 0 the reset, otherwise the contribution added to what position n − 1 left
    (the buffer is not written back in between: the block index (i, 0) does not move along j). -/
def outsAt1 (c : Dev nD) : (n : ℕ) → n < cfg1.N → Vec F S256x128 .f32
  | 0, hn => out1_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if (n + 1) % 8 = 0 then
      out1_A (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      out1_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- `outsAt1` at a point with j = 0. -/
theorem outsAt1_A (c : Dev nD) (t : Fin cfg1.N) (h0 : t.val % 8 = 0) :
    outsAt1 V c t.val t.isLt = out1_A (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (if_pos h0).trans rfl

/-- `outsAt1` at a point with j ≠ 0: over what the point before left. -/
theorem outsAt1_B (c : Dev nD) (t : Fin cfg1.N) (h0 : ¬t.val % 8 = 0) :
    outsAt1 V c t.val t.isLt = out1_B (iblk1 V c 0 t) (iblk1 V c 1 t) (iblk1 V c 2 t) (iblk1 V c 3 t) (iblk1 V c 4 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 1 on core `c`: the arrays as the region finds them; after the body each input's
    buffer at its block and the output's at `outsAt1`; the invariant is the scoped rest and the generator register;
    nothing owed. Windows 0 and 1 read ONE array (the incidence matrix, at different blocks): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outsAt1 V c t.val t.isLt := by dsimp only [dat1]

end Cert.Kernel.Fr

end
-- ==== Proof.K.R1.lean ====
/-
  Region 1: the body obligation.
-/
import proofs.«109357_g24051816857981_cont_8to1_1327_2_alg».proof.Proof.K.D1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule's facts the body obligation needs -/

/-- The output window is live at every grid point: one of the body's two conditionals holds there, so the body
    stores into it. -/
theorem live1_7 : ∀ t : Fin cfg1.N, cfg1.idle 7 (cfg1.grid.coords t) = false :=
  (by decide +kernel : ∀ t : Fin grid1.N, idle1 7 (grid1.coords t) = false)

/-- The same at every coordinate vector: the two conditions test the second coordinate against zero, one for
    equality and one for inequality. -/
theorem live1_7_all : ∀ i : grid1.Coords, cfg1.idle 7 i = false := by
  intro i
  show (!(k1_cond1 i == 1#1) && !(k1_cond2 i == 1#1)) = false
  unfold k1_cond1 k1_cond2
  generalize i 1 = j
  revert j
  decide

/-! ## What the body finds in each window's buffer -/

/-- Input window 0's current staging buffer holds its block at every point, fetched there or not: where it is not
    fetched its block index has not moved since the point before, and the body only reads it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not: where it is not
    fetched its block index has not moved since the point before, and the body only reads it. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not: where it is not
    fetched its block index has not moved since the point before, and the body only reads it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not: where it is not
    fetched its block index has not moved since the point before, and the body only reads it. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's current staging buffer holds its block at every point, fetched there or not: where it is not
    fetched its block index has not moved since the point before, and the body only reads it. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's current staging buffer holds its block at every point, fetched there or not: where it is not
    fetched its block index has not moved since the point before, and the body only reads it. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
/-- Input window 6's current staging buffer holds its block at every point, fetched there or not: where it is not
    fetched its block index has not moved since the point before, and the body only reads it. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- At a point with j ≠ 0 the output's current staging buffer holds what the body left at the point before: the point
    is not the first, the block was not written back in between (that happens after j = 7 only), the window is live
    and uncut. -/
theorem before1_7_B (c : Dev nD) (t : Fin cfg1.N) (h0 : ¬t.val % 8 = 0) (d) :
    (dat1 V c).before 7 t d = outsAt1 V c (t.val - 1) (Nat.lt_of_le_of_lt (Nat.sub_le _ _) t.isLt) := by
  have hN : t.val < 64 := lt_of_lt_of_eq t.isLt (show cfg1.N = 64 from N_1)
  rw [Dat.before_out_kept _ 7 rfl t (by omega) (Bool.eq_false_iff.mpr fun h => by have := (flush1_7 _).mp h; dsimp only at this; omega)
    live1_7_all (fun _ _ => rfl)]
  dsimp only [dat1]

/-! ## The body's triple, case by case -/

/-- One store through the whole-buffer rectangle covers the output's block. -/
theorem cover1_7 (p0 : Vec F S256x128 .f32) (y : S256x128.Idx) :
    ∃ pc ∈ ([⟨rc1_S256x128, p0⟩] : List (View.Piece (Elt F) S256x128 .f32)), y ∈ pc.1.set :=
  ⟨_, List.mem_singleton_self _, View.mem_set_unit_zero off2_zero1 inb_S256x128_S256x128_0_0 y⟩

set_option maxHeartbeats 1000000 in
/-- THE BODY AT A POINT WITH j = 0. On whole staging memrefs, the inputs' at contents `x0 … x6` and the output's at
    anything, with the first conditional taken and the second not, the body runs to the continuation holding the
    inputs' as they were and the output's at `out1_A` of them: its one store covers the buffer. -/
theorem sound_kernel1_A (c : Dev nD) (E : Set ℕ) (i : grid1.Coords) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S1x4096 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole)
    (hc1 : k1_cond1 i = 1#1) (hc2 : ¬k1_cond2 i = 1#1)
    (x0 : Vec F S256x4096 .f32) (x1 : Vec F S256x4096 .f32) (x2 : Vec F S256x256 .f32) (x3 : Vec F S256x128 .f32) (x4 : Vec F S1x4096 .f32) (x5 : Vec F S256x128 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_A x0 x1 x2 x3 x4 x5 x6)) -∗ K ⟨⟩))
      ⊢ wp frame (wpE (defs₀ (F := F)) Variants.none c none) E (cc1__node_kernel i arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

set_option maxHeartbeats 1000000 in
/-- THE BODY AT A POINT WITH j ≠ 0. On whole staging memrefs, the inputs' at contents `x0 … x6` and the output's at
    `xo` (what the point before left), with the first conditional not taken and the second taken, the body runs to the
    continuation holding the inputs' as they were and the output's at `out1_B` of them and `xo`: it reads the
    buffer, then its one store covers it. -/
theorem sound_kernel1_B (c : Dev nD) (E : Set ℕ) (i : grid1.Coords) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S1x4096 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole)
    (hc1 : ¬k1_cond1 i = 1#1) (hc2 : k1_cond2 i = 1#1)
    (x0 : Vec F S256x4096 .f32) (x1 : Vec F S256x4096 .f32) (x2 : Vec F S256x256 .f32) (x3 : Vec F S256x128 .f32) (x4 : Vec F S1x4096 .f32) (x5 : Vec F S256x128 .f32) (x6 : Vec F S1x128 .f32) (xo : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_B x0 x1 x2 x3 x4 xo)) -∗ K ⟨⟩))
      ⊢ wp frame (wpE (defs₀ (F := F)) Variants.none c none) E (cc1__node_kernel i arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (dat1 V c).leavesExact 7 t)

set_option maxHeartbeats 1000000 in
/-- The body at any point: the inputs' memrefs hold their blocks; at j = 0 the output's buffer holds anything and the
    body resets it, at j ≠ 0 it holds what the point before left and the body adds to it; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).leavesExact 7 t = owns (c : Thread nD τ) (st1_7 t) fullShare ((dat1 V c).after 7 t) from by
    unfold Dat.leavesExact; rw [live1_7 t]]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ ((hcond1_1 t).mpr h0) (fun h => (hcond1_2 t).mp h h0)
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt1_B V c t h0]
    simp only [before1_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ (fun h => h0 ((hcond1_1 t).mp h)) ((hcond1_2 t).mpr h0)
      (iblk1 V c 0 t) (iblk1 V c 1 t) (iblk1 V c 2 t) (iblk1 V c 3 t) (iblk1 V c 4 t) (iblk1 V c 5 t) (iblk1 V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for pipeline 1, at every grid point. -/
theorem body_obligation1 (c : Dev nD) : BodyObligation (dat1 (F := F) V c) (defs₀ (F := F)) Variants.none () Set.univ := fun t => by
  rw [bigSep_W1, bigSep_W1]
  exact sound_body1 V c t

end Cert.Kernel.Fr

end
-- ==== Proof.K.D2.lean ====
/-
  The edge region (grid 8×8, point (i, j), j the fast axis): what each window holds, as definitions over the contents
  `V` the region is entered with. Windows: 0 the incidence columns of block i (2048×512), 1 the incidence columns of block j,
  2 the edge Laplacian's tile (i, j) (512×512), 3 rows j of e·W_e (512×16), 4 the node weights (2048×1), 5 rows i of e,
  6 the bias (1×16), 7 the output rows i (512×16), accumulated over j. The body multiplies window 1's block by the
  weights and contracts window 0's block with it over the node axis.
-/
import proofs.«109357_g24051816857981_cont_8to1_1327_2_alg».proof.Proof.Gen.Kernel.Launch
import proofs.«109357_g24051816857981_cont_8to1_1327_2_alg».proof.Proof.Gen.Kernel.Skeleton
import proofs.«109357_g24051816857981_cont_8to1_1327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through, one per shape. -/
abbrev rc2_S2048x512 : Rect S2048x512 := Rect.unit (s := S2048x512) ![0, 0] S2048x512.size inb_S2048x512_S2048x512_0_0
abbrev rc2_S512x512 : Rect S512x512 := Rect.unit (s := S512x512) ![0, 0] S512x512.size inb_S512x512_S512x512_0_0
abbrev rc2_S512x16 : Rect S512x16 := Rect.unit (s := S512x16) ![0, 0] S512x16.size inb_S512x16_S512x16_0_0
abbrev rc2_S2048x1 : Rect S2048x1 := Rect.unit (s := S2048x1) ![0, 0] S2048x1.size inb_S2048x1_S2048x1_0_0
abbrev rc2_S1x16 : Rect S1x16 := Rect.unit (s := S1x16) ![0, 0] S1x16.size inb_S1x16_S1x16_0_0

/-- The output buffer after the body at a point with j = 0: one covering store of (residual + bias) + contribution,
    from the blocks of windows 0–6. -/
def out2_A (x0 : Vec F S2048x512 .f32) (x1 : Vec F S2048x512 .f32) (x2 : Vec F S512x512 .f32) (x3 : Vec F S512x16 .f32) (x4 : Vec F S2048x1 .f32)
    (x5 : Vec F S512x16 .f32) (x6 : Vec F S1x16 .f32) : Vec F S512x16 .f32 :=
  View.canon [⟨rc2_S512x16, k2_pay2 (View.ld x1 rc2_S2048x512) (View.ld x4 rc2_S2048x1) (View.ld x0 rc2_S2048x512) (View.ld x2 rc2_S512x512) (View.ld x3 rc2_S512x16) (View.ld x5 rc2_S512x16) (View.ld x6 rc2_S1x16)⟩]
/-- The output buffer after the body at a point with j ≠ 0: one covering store of (what the buffer held) + contribution. -/
def out2_B (x0 : Vec F S2048x512 .f32) (x1 : Vec F S2048x512 .f32) (x2 : Vec F S512x512 .f32) (x3 : Vec F S512x16 .f32) (x4 : Vec F S2048x1 .f32)
    (xo : Vec F S512x16 .f32) : Vec F S512x16 .f32 :=
  View.canon [⟨rc2_S512x16, k2_pay3 (View.ld x1 rc2_S2048x512) (View.ld x4 rc2_S2048x1) (View.ld x0 rc2_S2048x512) (View.ld x2 rc2_S512x512) (View.ld x3 rc2_S512x16) (View.ld xo rc2_S512x16)⟩]

/-- The offset vector of every rectangle above is zero. -/
theorem off2_zero2 : (![0, 0] : Fin 2 → Nat) = fun _ => 0 := funext fun a => by fin_cases a <;> rfl

/-- A covering store leaves its payload, and a whole load reads its buffer. -/
theorem out2_A_eq (x0 : Vec F S2048x512 .f32) (x1 : Vec F S2048x512 .f32) (x2 : Vec F S512x512 .f32) (x3 : Vec F S512x16 .f32) (x4 : Vec F S2048x1 .f32)
    (x5 : Vec F S512x16 .f32) (x6 : Vec F S1x16 .f32) : out2_A x0 x1 x2 x3 x4 x5 x6 = k2_pay2 x1 x4 x0 x2 x3 x5 x6 := by
  unfold out2_A; rw [View.canon_unit_zero off2_zero2]
  simp only [View.ld_unit_zero (S := S2048x512) off2_zero2, View.ld_unit_zero (S := S512x512) off2_zero2, View.ld_unit_zero (S := S512x16) off2_zero2,
    View.ld_unit_zero (S := S2048x1) off2_zero2, View.ld_unit_zero (S := S1x16) off2_zero2]
theorem out2_B_eq (x0 : Vec F S2048x512 .f32) (x1 : Vec F S2048x512 .f32) (x2 : Vec F S512x512 .f32) (x3 : Vec F S512x16 .f32) (x4 : Vec F S2048x1 .f32)
    (xo : Vec F S512x16 .f32) : out2_B x0 x1 x2 x3 x4 xo = k2_pay3 x1 x4 x0 x2 x3 xo := by
  unfold out2_B; rw [View.canon_unit_zero off2_zero2]
  simp only [View.ld_unit_zero (S := S2048x512) off2_zero2, View.ld_unit_zero (S := S512x512) off2_zero2, View.ld_unit_zero (S := S512x16) off2_zero2,
    View.ld_unit_zero (S := S2048x1) off2_zero2]

/-- The first branch of the body (reset: residual + bias + contribution) is taken exactly where j = 0, -/
theorem hcond2_1 : ∀ t : Fin cfg2.N, k2_cond1 (grid2.coords t) = 1#1 ↔ t.val % 8 = 0 :=
  (by decide +kernel : ∀ t : Fin grid2.N, k2_cond1 (grid2.coords t) = 1#1 ↔ t.val % 8 = 0)
/-- and the second (accumulate) exactly where j ≠ 0. -/
theorem hcond2_2 : ∀ t : Fin cfg2.N, k2_cond2 (grid2.coords t) = 1#1 ↔ ¬ t.val % 8 = 0 :=
  (by decide +kernel : ∀ t : Fin grid2.N, k2_cond2 (grid2.coords t) = 1#1 ↔ ¬ t.val % 8 = 0)

/-- THE ACCUMULATION. What the output's staging buffer holds after the body at position `n` of the grid's
    row-major order (n = 8·i + j): at j = 0 the reset, otherwise the contribution added to what position n − 1 left
    (the buffer is not written back in between: the block index (i, 0) does not move along j). -/
def outsAt2 (c : Dev nD) : (n : ℕ) → n < cfg2.N → Vec F S512x16 .f32
  | 0, hn => out2_A (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn =>
    if (n + 1) % 8 = 0 then
      out2_A (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
    else
      out2_B (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

/-- `outsAt2` at a point with j = 0. -/
theorem outsAt2_A (c : Dev nD) (t : Fin cfg2.N) (h0 : t.val % 8 = 0) :
    outsAt2 V c t.val t.isLt = out2_A (iblk2 V c 0 t) (iblk2 V c 1 t) (iblk2 V c 2 t) (iblk2 V c 3 t) (iblk2 V c 4 t) (iblk2 V c 5 t) (iblk2 V c 6 t) := by
  obtain ⟨n, hn⟩ := t
  cases n with
  | zero => exact rfl
  | succ n => exact (if_pos h0).trans rfl

/-- `outsAt2` at a point with j ≠ 0: over what the point before left. -/
theorem outsAt2_B (c : Dev nD) (t : Fin cfg2.N) (h0 : ¬t.val % 8 = 0) :
    outsAt2 V c t.val t.isLt = out2_B (iblk2 V c 0 t) (iblk2 V c 1 t) (iblk2 V c 2 t) (iblk2 V c 3 t) (iblk2 V c 4 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 2 on core `c`: the arrays as the region finds them; after the body each input's
    buffer at its block and the output's at `outsAt2`; the invariant is the scoped rest and the generator register;
    nothing owed. Windows 0 and 1 read ONE array (the incidence matrix, at different blocks): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outsAt2 V c t.val t.isLt
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outsAt2 V c t.val t.isLt := by dsimp only [dat2]

end Cert.Kernel.Fr

end
-- ==== Proof.K.R2.lean ====
/-
  Region 2: the body obligation.
-/
import proofs.«109357_g24051816857981_cont_8to1_1327_2_alg».proof.Proof.K.D2

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output window is live at every point

Its idle table is "neither branch taken"; the two branch conditions test the fast coordinate j against zero with
opposite comparisons, so one of them holds whatever j is. -/

theorem live2_7 (i : cfg2.grid.Coords) : cfg2.idle 7 i = false := by
  show (!(k2_cond1 i == 1#1) && !(k2_cond2 i == 1#1)) = false
  unfold k2_cond1 k2_cond2
  generalize i 1 = j
  revert j
  decide

/-! ## What the body finds in the input windows' buffers

An input's current buffer holds the window's block at the point, whether the point fetched it or the block index
stood still since the last fetch: the body only reads these buffers, every window is uncut and none is ever idle. -/

theorem before2_0 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]; try rfl
  · unfold Dat.fetched Dat.blockOf iblk2; rw [A_eq2]; try rfl
theorem before2_1 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]; try rfl
  · unfold Dat.fetched Dat.blockOf iblk2; rw [A_eq2]; try rfl
theorem before2_2 (c : Dev nD) (t : Fin cfg2.N) (d) : (dat2 V c).before 2 t d = iblk2 V c 2 t := by
  refine ((dat2 V c).before_in_eq_fetched 2 rfl (fun _ => rfl) (fun _ _ _ => rfl) (fun s => ?_) t d).trans ?_
  · rw [after2_2]; unfold Dat.blockOf iblk2; rw [A_eq2]; try rfl
  · unfold Dat.fetched Dat.blockOf iblk2; rw [A_eq2]; try rfl
theorem before2_3 (c : Dev nD) (t : Fin cfg2.N) (d) : (dat2 V c).before 3 t d = iblk2 V c 3 t := by
  refine ((dat2 V c).before_in_eq_fetched 3 rfl (fun _ => rfl) (fun _ _ _ => rfl) (fun s => ?_) t d).trans ?_
  · rw [after2_3]; unfold Dat.blockOf iblk2; rw [A_eq2]; try rfl
  · unfold Dat.fetched Dat.blockOf iblk2; rw [A_eq2]; try rfl
theorem before2_4 (c : Dev nD) (t : Fin cfg2.N) (d) : (dat2 V c).before 4 t d = iblk2 V c 4 t := by
  refine ((dat2 V c).before_in_eq_fetched 4 rfl (fun _ => rfl) (fun _ _ _ => rfl) (fun s => ?_) t d).trans ?_
  · rw [after2_4]; unfold Dat.blockOf iblk2; rw [A_eq2]; try rfl
  · unfold Dat.fetched Dat.blockOf iblk2; rw [A_eq2]; try rfl
theorem before2_5 (c : Dev nD) (t : Fin cfg2.N) (d) : (dat2 V c).before 5 t d = iblk2 V c 5 t := by
  refine ((dat2 V c).before_in_eq_fetched 5 rfl (fun _ => rfl) (fun _ _ _ => rfl) (fun s => ?_) t d).trans ?_
  · rw [after2_5]; unfold Dat.blockOf iblk2; rw [A_eq2]; try rfl
  · unfold Dat.fetched Dat.blockOf iblk2; rw [A_eq2]; try rfl
theorem before2_6 (c : Dev nD) (t : Fin cfg2.N) (d) : (dat2 V c).before 6 t d = iblk2 V c 6 t := by
  refine ((dat2 V c).before_in_eq_fetched 6 rfl (fun _ => rfl) (fun _ _ _ => rfl) (fun s => ?_) t d).trans ?_
  · rw [after2_6]; unfold Dat.blockOf iblk2; rw [A_eq2]; try rfl
  · unfold Dat.fetched Dat.blockOf iblk2; rw [A_eq2]; try rfl

/-! ## What the body finds in the output's buffer where j ≠ 0

Such a point is not the first; the point before it has j ≠ 7, so it did not write the block back; hence the buffer
still holds what the body left there. -/

theorem before2_7_B (c : Dev nD) (t : Fin cfg2.N) (h0 : ¬t.val % 8 = 0) (d) :
    (dat2 V c).before 7 t d = outsAt2 V c (t.val - 1) (Nat.lt_of_le_of_lt (Nat.sub_le _ _) t.isLt) := by
  have hfl : (cfg2.win 7).flush ⟨t.val - 1, Nat.lt_of_le_of_lt (Nat.sub_le _ _) t.isLt⟩ = false :=
    Bool.eq_false_iff.mpr fun h => by
      have h7 := (flush2_7 _).mp h
      dsimp only at h7
      omega
  rw [Dat.before_out_kept _ 7 rfl t (by omega) hfl live2_7 (fun _ _ => rfl)]
  exact after2_7 V c _

/-! ## The one store covers the output buffer -/

theorem cover2_out (p : Vec F S512x16 .f32) (y : S512x16.Idx) :
    ∃ pc ∈ ([⟨rc2_S512x16, p⟩] : List (View.Piece (Elt F) S512x16 .f32)), y ∈ pc.1.set :=
  ⟨_, List.mem_singleton_self _, View.mem_set_unit_zero off2_zero2 inb_S512x16_S512x16_0_0 y⟩

/-! ## The body's triple where j = 0

On whole buffers, the seven inputs at given contents and the output at anything, with the first branch taken and
the second not, the body runs to a state where the inputs are as they were and the output holds the reset value. -/

set_option maxHeartbeats 1000000 in
theorem sound_kernel2_A (c : Dev nD) (E : Set ℕ) (i : grid2.Coords) (a0 : Memref sig .tc .vmem S2048x512 .f32) (w0 : a0.IsWhole) (a1 : Memref sig .tc .vmem S2048x512 .f32) (w1 : a1.IsWhole) (a2 : Memref sig .tc .vmem S512x512 .f32) (w2 : a2.IsWhole) (a3 : Memref sig .tc .vmem S512x16 .f32) (w3 : a3.IsWhole) (a4 : Memref sig .tc .vmem S2048x1 .f32) (w4 : a4.IsWhole) (a5 : Memref sig .tc .vmem S512x16 .f32) (w5 : a5.IsWhole) (a6 : Memref sig .tc .vmem S1x16 .f32) (w6 : a6.IsWhole) (a7 : Memref sig .tc .vmem S512x16 .f32) (w7 : a7.IsWhole)
    (hc1 : k2_cond1 i = 1#1) (hc2 : ¬k2_cond2 i = 1#1)
    (x0 : Vec F S2048x512 .f32) (x1 : Vec F S2048x512 .f32) (x2 : Vec F S512x512 .f32) (x3 : Vec F S512x16 .f32) (x4 : Vec F S2048x1 .f32) (x5 : Vec F S512x16 .f32) (x6 : Vec F S1x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2_A x0 x1 x2 x3 x4 x5 x6)) -∗ K ⟨⟩))
      ⊢ wp frame (wpE (defs₀ (F := F)) Variants.none c none) E (cc2__edge_kernel i a0 w0 a1 w1 a2 w2 a3 w3 a4 w4 a5 w5 a6 w6 a7 w7) K := by
  simp only [cc2__edge_kernel_eq_skeleton]; unfold cc2__edge_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold out2_A
  exact View.read_writes_eq_canon _ _ _ (cover2_out _)

/-! ## The body's triple where j ≠ 0

Here the second branch runs: it reads the output's buffer, at given contents `xo`, before it stores; the buffers of
windows 5 and 6 are not touched and stay out of the triple. -/

set_option maxHeartbeats 1000000 in
theorem sound_kernel2_B (c : Dev nD) (E : Set ℕ) (i : grid2.Coords) (a0 : Memref sig .tc .vmem S2048x512 .f32) (w0 : a0.IsWhole) (a1 : Memref sig .tc .vmem S2048x512 .f32) (w1 : a1.IsWhole) (a2 : Memref sig .tc .vmem S512x512 .f32) (w2 : a2.IsWhole) (a3 : Memref sig .tc .vmem S512x16 .f32) (w3 : a3.IsWhole) (a4 : Memref sig .tc .vmem S2048x1 .f32) (w4 : a4.IsWhole) (a5 : Memref sig .tc .vmem S512x16 .f32) (w5 : a5.IsWhole) (a6 : Memref sig .tc .vmem S1x16 .f32) (w6 : a6.IsWhole) (a7 : Memref sig .tc .vmem S512x16 .f32) (w7 : a7.IsWhole)
    (hc1 : ¬k2_cond1 i = 1#1) (hc2 : k2_cond2 i = 1#1)
    (x0 : Vec F S2048x512 .f32) (x1 : Vec F S2048x512 .f32) (x2 : Vec F S512x512 .f32) (x3 : Vec F S512x16 .f32) (x4 : Vec F S2048x1 .f32) (xo : Vec F S512x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a7 fullShare xo
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a7 fullShare (out2_B x0 x1 x2 x3 x4 xo)) -∗ K ⟨⟩))
      ⊢ wp frame (wpE (defs₀ (F := F)) Variants.none c none) E (cc2__edge_kernel i a0 w0 a1 w1 a2 w2 a3 w3 a4 w4 a5 w5 a6 w6 a7 w7) K := by
  simp only [cc2__edge_kernel_eq_skeleton]; unfold cc2__edge_kernel_skel
  unfold owns
  iintro ⟨⟨%f0, %e0, H0⟩, ⟨%f1, %e1, H1⟩, ⟨%f2, %e2, H2⟩, ⟨%f3, %e3, H3⟩, ⟨%f4, %e4, H4⟩, ⟨%f7, %e7, H7⟩, Hk⟩
  subst e0 e1 e2 e3 e4 e7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H7
  ipureintro
  unfold out2_B
  exact View.read_writes_eq_canon _ _ _ (cover2_out _)

/-! ## The body obligation at a point, the windows written out -/

/-- What the body is handed at point `t`: the invariant, the core's debts, each window's current buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back: the same at the next point, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 800000 in
/-- The inputs' buffers hold their blocks; the point's j decides which branch runs; where j ≠ 0 the output's buffer holds
    what the point before left; so the matching triple applies, and the invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val % 8 = 0
  · rw [outsAt2_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) _ _ _ _ _ _ _ _ _ _ _ _ _ _ _ _ ((hcond2_1 t).mpr h0) (fun h => (hcond2_2 t).mp h h0)
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt2_B V c t h0]
    simp only [before2_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_B c Set.univ (grid2.coords t) _ _ _ _ _ _ _ _ _ _ _ _ _ _ _ _ (fun h => h0 ((hcond2_1 t).mp h)) ((hcond2_2 t).mpr h0)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for pipeline 2, at every grid point. -/
theorem body_obligation2 (c : Dev nD) : BodyObligation (dat2 (F := F) V c) (defs₀ (F := F)) Variants.none () Set.univ := fun t => by
  rw [bigSep_W2, bigSep_W2]
  rw [live2_7 (cfg2.grid.coords t)]
  exact sound_body2 V c t

end Cert.Kernel.Fr

end
-- ==== Proof.K.Run.lean ====
/-
  The run of the whole program: host stretch, then the three kernel regions, each entered from what the one before
  left. Between two items every unscoped buffer of a core is held whole at a named valuation:
    launch contents → after the two reshapes of the biases → region 0's four results written
      → region 1's result (the node output) written → region 2's result (the edge output) written.
  Regions 1 and 2 each read the incidence matrix through TWO windows; the array's full share is split in two
  halves at the region's entry and joined again at its exit (both windows end holding the contents they began with).
  The body obligations of the three pipelines are hypotheses here; the run's post names the two result arrays
  and says every argument array ends as launched.
-/
import proofs.«109357_g24051816857981_cont_8to1_1327_2_alg».proof.Proof.Gen.Kernel.Launch
import proofs.«109357_g24051816857981_cont_8to1_1327_2_alg».proof.Proof.Gen.Kernel.Skeleton
import proofs.«109357_g24051816857981_cont_8to1_1327_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«109357_g24051816857981_cont_8to1_1327_2_alg».proof.Proof.Gen.Kernel.Regions
import proofs.«109357_g24051816857981_cont_8to1_1327_2_alg».proof.Proof.K.D0
import proofs.«109357_g24051816857981_cont_8to1_1327_2_alg».proof.Proof.K.D1
import proofs.«109357_g24051816857981_cont_8to1_1327_2_alg».proof.Proof.K.D2
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the host stretch (region 0's entry), read at the TensorCore's references. -/
abbrev E1 (c : Dev nD) (b : Ref sig .tc) : Buf (Elt F) ((c : Thread nD τ).loc b) := V1 m c b

/-- At region 0's exit: its four output arrays at what the pipeline leaves, everything else as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev E2 (c : Dev nD) (b : Ref sig .tc) : Buf (Elt F) ((c : Thread nD τ).loc b) := W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: the node output written, everything else as entered. -/
def W3 (c : Dev nD) : Valuation τ sig (Elt F) :=
  Function.update (W2 m c) (Proc.devRef .tc main_v3) ((dat1 (E2 m) c).arrAt 7 cfg1.N)
abbrev E3 (c : Dev nD) (b : Ref sig .tc) : Buf (Elt F) ((c : Thread nD τ).loc b) := W3 m c b
theorem E3_main_v3 (c : Dev nD) : E3 m c main_v3 = (dat1 (E2 m) c).arrAt 7 cfg1.N := by
  unfold E3 W3; exact Function.update_self _ _ _
theorem E3_of_ne (c : Dev nD) (b : Ref sig .tc) (hb : b ≠ main_v3) : E3 m c b = E2 m c b := by
  unfold E3 W3; exact Function.update_of_ne (StableHlo.devRef_ne_of_ne hb) _ _

/-- At region 2's exit: the edge output written, everything else as entered. -/
def W4 (c : Dev nD) : Valuation τ sig (Elt F) :=
  Function.update (W3 m c) (Proc.devRef .tc main_v4) ((dat2 (E3 m) c).arrAt 7 cfg2.N)
abbrev E4 (c : Dev nD) (b : Ref sig .tc) : Buf (Elt F) ((c : Thread nD τ).loc b) := W4 m c b
theorem E4_main_v4 (c : Dev nD) : E4 m c main_v4 = (dat2 (E3 m) c).arrAt 7 cfg2.N := by
  unfold E4 W4; exact Function.update_self _ _ _
theorem E4_of_ne (c : Dev nD) (b : Ref sig .tc) (hb : b ≠ main_v4) : E4 m c b = E3 m c b := by
  unfold E4 W4; exact Function.update_of_ne (StableHlo.devRef_ne_of_ne hb) _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-- The host stretch (the two bias reshapes) as a segment over every unscoped buffer, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-! ## Region 0 as a segment (its arrays are pairwise distinct: each held whole) -/

section Reg0
variable (hb0 : ∀ c : Dev nD, BodyObligation (dat0 (F := F) (E1 m) c) (defs₀ (F := F)) Variants.none () Set.univ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

/-! ## Region 1: one array behind two windows -/

section Shared1
variable (c : Dev nD) (Vd : (c : Dev nD) → (b : Ref sig .tc) → Buf (Elt F) ((c : Thread nD τ).loc b))

/-- The distinct buffers behind region 1's eight windows, one by one. -/
theorem arrBufs1_eq (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg3) ↦{fullShare} V' main_arg3) ∗ (((c : Thread nD τ).loc main_arg1) ↦{fullShare} V' main_arg1)
          ∗ (((c : Thread nD τ).loc main_v2_2) ↦{fullShare} V' main_v2_2) ∗ (((c : Thread nD τ).loc main_v2_0) ↦{fullShare} V' main_v2_0)
          ∗ (((c : Thread nD τ).loc main_arg0) ↦{fullShare} V' main_arg0) ∗ (((c : Thread nD τ).loc main_v0) ↦{fullShare} V' main_v0)
          ∗ (((c : Thread nD τ).loc main_v3) ↦{fullShare} V' main_v3)) := by
  unfold Pipeline.arrBufs
  exact bigSep_eq_bigSepL_of_eq [main_arg3, main_arg1, main_v2_2, main_v2_0, main_arg0, main_v0, main_v3] (by decide) (by decide) _

/-- The shares the eight windows hold their arrays at: the two windows on the incidence matrix a half each. -/
theorem share1_0 : (dat1 (F := F) Vd c).share 0 = fullShare.left := rfl
theorem share1_1 : (dat1 (F := F) Vd c).share 1 = fullShare.right := rfl
theorem share1_2 : (dat1 (F := F) Vd c).share 2 = fullShare := rfl
theorem share1_3 : (dat1 (F := F) Vd c).share 3 = fullShare := rfl
theorem share1_4 : (dat1 (F := F) Vd c).share 4 = fullShare := rfl
theorem share1_5 : (dat1 (F := F) Vd c).share 5 = fullShare := rfl
theorem share1_6 : (dat1 (F := F) Vd c).share 6 = fullShare := rfl
theorem share1_7 : (dat1 (F := F) Vd c).share 7 = fullShare := rfl

/-- The pipeline's arrays, window by window. -/
theorem arrays1_eq (F' : (w : Fin cfg1.W) → Buf (Elt F) ((cfg1.win w).arr.view.loc (c : Thread nD τ))) :
    ((dat1 (F := F) Vd c).arrays F' : sProp 𝕄)
      = iprop((((c : Thread nD τ).loc main_arg3) ↦{fullShare.left} F' 0) ∗ (((c : Thread nD τ).loc main_arg3) ↦{fullShare.right} F' 1)
          ∗ (((c : Thread nD τ).loc main_arg1) ↦{fullShare} F' 2) ∗ (((c : Thread nD τ).loc main_v2_2) ↦{fullShare} F' 3)
          ∗ (((c : Thread nD τ).loc main_v2_0) ↦{fullShare} F' 4) ∗ (((c : Thread nD τ).loc main_arg0) ↦{fullShare} F' 5)
          ∗ (((c : Thread nD τ).loc main_v0) ↦{fullShare} F' 6) ∗ (((c : Thread nD τ).loc main_v3) ↦{fullShare} F' 7)) := by
  unfold Dat.arrays
  rw [show (bigSep Finset.univ fun w : Fin cfg1.W =>
        ((cfg1.win w).arr.view.loc (c : Thread nD τ) ↦[(cfg1.win w).arr.view.set]{(dat1 (F := F) Vd c).share w} F' w : sProp 𝕄))
      = bigSep Finset.univ fun w : Fin cfg1.W =>
        ((cfg1.win w).arr.view.loc (c : Thread nD τ) ↦{(dat1 (F := F) Vd c).share w} F' w : sProp 𝕄)
    from bigSep_congr fun w _ => by rw [(arr_whole1 w).set_eq_univ]]
  rw [bigSep_W1, share1_0, share1_1, share1_2, share1_3, share1_4, share1_5, share1_6, share1_7]

/-- ENTRY: the buffers held whole make the pipeline's arrays, the incidence matrix's full share split in two halves. -/
theorem arrays1_of_bufs (V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) :
    (Pipeline.arrBufs (Ix := Unit) (Name := ℕ) (U := UR sig nD τ) (Lvl := ℕ) spec1 c V' : sProp 𝕄) ⊢ (dat1 (F := F) Vd c).arrays F' := by
  rw [arrBufs1_eq, arrays1_eq, hF 0, hF 1, hF 2, hF 3, hF 4, hF 5, hF 6, hF 7]
  iintro ⟨H3, H1, H22, H20, H0, Hv0, Hv3⟩
  ihave H := (pointsTo_share (PosShare.mem_left_op_right fullShare)).1 $$ H3
  icases H with ⟨Ha, Hb⟩
  isplitl [Ha]; · iexact Ha
  isplitl [Hb]; · iexact Hb
  isplitl [H1]; · iexact H1
  isplitl [H22]; · iexact H22
  isplitl [H20]; · iexact H20
  isplitl [H0]; · iexact H0
  isplitl [Hv0]; · iexact Hv0
  iexact Hv3

/-- EXIT: the pipeline's arrays make the buffers held whole again, the two halves of the incidence matrix joined. -/
theorem bufs_of_arrays1 (V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) :
    ((dat1 (F := F) Vd c).arrays F' : sProp 𝕄) ⊢ Pipeline.arrBufs (Ix := Unit) (Name := ℕ) (U := UR sig nD τ) (Lvl := ℕ) spec1 c V' := by
  rw [arrBufs1_eq, arrays1_eq, hF 0, hF 1, hF 2, hF 3, hF 4, hF 5, hF 6, hF 7]
  iintro ⟨Ha, Hb, H1, H22, H20, H0, Hv0, Hv3⟩
  isplitl [Ha Hb]
  · iapply (pointsTo_share (PosShare.mem_left_op_right fullShare)).2
    isplitl [Ha]; · iexact Ha
    iexact Hb
  isplitl [H1]; · iexact H1
  isplitl [H22]; · iexact H22
  isplitl [H20]; · iexact H20
  isplitl [H0]; · iexact H0
  isplitl [Hv0]; · iexact Hv0
  iexact Hv3
end Shared1

/-! ## Region 2: one array behind two windows -/

section Shared2
variable (c : Dev nD) (Vd : (c : Dev nD) → (b : Ref sig .tc) → Buf (Elt F) ((c : Thread nD τ).loc b))

/-- The distinct buffers behind region 2's eight windows, one by one. -/
theorem arrBufs2_eq (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg3) ↦{fullShare} V' main_arg3) ∗ (((c : Thread nD τ).loc main_arg2) ↦{fullShare} V' main_arg2)
          ∗ (((c : Thread nD τ).loc main_v2_3) ↦{fullShare} V' main_v2_3) ∗ (((c : Thread nD τ).loc main_v2_1) ↦{fullShare} V' main_v2_1)
          ∗ (((c : Thread nD τ).loc main_arg4) ↦{fullShare} V' main_arg4) ∗ (((c : Thread nD τ).loc main_v1) ↦{fullShare} V' main_v1)
          ∗ (((c : Thread nD τ).loc main_v4) ↦{fullShare} V' main_v4)) := by
  unfold Pipeline.arrBufs
  exact bigSep_eq_bigSepL_of_eq [main_arg3, main_arg2, main_v2_3, main_v2_1, main_arg4, main_v1, main_v4] (by decide) (by decide) _

/-- The shares the eight windows hold their arrays at: the two windows on the incidence matrix a half each. -/
theorem share2_0 : (dat2 (F := F) Vd c).share 0 = fullShare.left := rfl
theorem share2_1 : (dat2 (F := F) Vd c).share 1 = fullShare.right := rfl
theorem share2_2 : (dat2 (F := F) Vd c).share 2 = fullShare := rfl
theorem share2_3 : (dat2 (F := F) Vd c).share 3 = fullShare := rfl
theorem share2_4 : (dat2 (F := F) Vd c).share 4 = fullShare := rfl
theorem share2_5 : (dat2 (F := F) Vd c).share 5 = fullShare := rfl
theorem share2_6 : (dat2 (F := F) Vd c).share 6 = fullShare := rfl
theorem share2_7 : (dat2 (F := F) Vd c).share 7 = fullShare := rfl

/-- The pipeline's arrays, window by window. -/
theorem arrays2_eq (F' : (w : Fin cfg2.W) → Buf (Elt F) ((cfg2.win w).arr.view.loc (c : Thread nD τ))) :
    ((dat2 (F := F) Vd c).arrays F' : sProp 𝕄)
      = iprop((((c : Thread nD τ).loc main_arg3) ↦{fullShare.left} F' 0) ∗ (((c : Thread nD τ).loc main_arg3) ↦{fullShare.right} F' 1)
          ∗ (((c : Thread nD τ).loc main_arg2) ↦{fullShare} F' 2) ∗ (((c : Thread nD τ).loc main_v2_3) ↦{fullShare} F' 3)
          ∗ (((c : Thread nD τ).loc main_v2_1) ↦{fullShare} F' 4) ∗ (((c : Thread nD τ).loc main_arg4) ↦{fullShare} F' 5)
          ∗ (((c : Thread nD τ).loc main_v1) ↦{fullShare} F' 6) ∗ (((c : Thread nD τ).loc main_v4) ↦{fullShare} F' 7)) := by
  unfold Dat.arrays
  rw [show (bigSep Finset.univ fun w : Fin cfg2.W =>
        ((cfg2.win w).arr.view.loc (c : Thread nD τ) ↦[(cfg2.win w).arr.view.set]{(dat2 (F := F) Vd c).share w} F' w : sProp 𝕄))
      = bigSep Finset.univ fun w : Fin cfg2.W =>
        ((cfg2.win w).arr.view.loc (c : Thread nD τ) ↦{(dat2 (F := F) Vd c).share w} F' w : sProp 𝕄)
    from bigSep_congr fun w _ => by rw [(arr_whole2 w).set_eq_univ]]
  rw [bigSep_W2, share2_0, share2_1, share2_2, share2_3, share2_4, share2_5, share2_6, share2_7]

/-- ENTRY: the buffers held whole make the pipeline's arrays, the incidence matrix's full share split in two halves. -/
theorem arrays2_of_bufs (V' : (b : Ref sig .tc) → Buf (Elt F) ((c : Thread nD τ).loc b))
    (F' : (w : Fin cfg2.W) → Buf (Elt F) ((cfg2.win w).arr.view.loc (c : Thread nD τ)))
    (hF : ∀ w, F' w = V' (Pipeline.arrRef spec2 w)) :
    (Pipeline.arrBufs (Ix := Unit) (Name := ℕ) (U := UR sig nD τ) (Lvl := ℕ) spec2 c V' : sProp 𝕄) ⊢ (dat2 (F := F) Vd c).arrays F' := by
  rw [arrBufs2_eq, arrays2_eq, hF 0, hF 1, hF 2, hF 3, hF 4, hF 5, hF 6, hF 7]
  iintro ⟨H3, H1, H22, H20, H0, Hv0, Hv3⟩
  ihave H := (pointsTo_share (PosShare.mem_left_op_right fullShare)).1 $$ H3
  icases H with ⟨Ha, Hb⟩
  isplitl [Ha]; · iexact Ha
  isplitl [Hb]; · iexact Hb
  isplitl [H1]; · iexact H1
  isplitl [H22]; · iexact H22
  isplitl [H20]; · iexact H20
  isplitl [H0]; · iexact H0
  isplitl [Hv0]; · iexact Hv0
  iexact Hv3

/-- EXIT: the pipeline's arrays make the buffers held whole again, the two halves of the incidence matrix joined. -/
theorem bufs_of_arrays2 (V' : (b : Ref sig .tc) → Buf (Elt F) ((c : Thread nD τ).loc b))
    (F' : (w : Fin cfg2.W) → Buf (Elt F) ((cfg2.win w).arr.view.loc (c : Thread nD τ)))
    (hF : ∀ w, F' w = V' (Pipeline.arrRef spec2 w)) :
    ((dat2 (F := F) Vd c).arrays F' : sProp 𝕄) ⊢ Pipeline.arrBufs (Ix := Unit) (Name := ℕ) (U := UR sig nD τ) (Lvl := ℕ) spec2 c V' := by
  rw [arrBufs2_eq, arrays2_eq, hF 0, hF 1, hF 2, hF 3, hF 4, hF 5, hF 6, hF 7]
  iintro ⟨Ha, Hb, H1, H22, H20, H0, Hv0, Hv3⟩
  isplitl [Ha Hb]
  · iapply (pointsTo_share (PosShare.mem_left_op_right fullShare)).2
    isplitl [Ha]; · iexact Ha
    iexact Hb
  isplitl [H1]; · iexact H1
  isplitl [H22]; · iexact H22
  isplitl [H20]; · iexact H20
  isplitl [H0]; · iexact H0
  isplitl [Hv0]; · iexact Hv0
  iexact Hv3
end Shared2

/-! ## Region 1 as a segment -/

/-- At region 1's exit each of its arrays holds what the valuation after it says: the inputs what they held (an input
    array is never written), the output what the write-backs leave. -/
theorem hF1 (c : Dev nD) : ∀ w : Fin cfg1.W, (dat1 (E2 m) c).arrAt w cfg1.N = E3 m c (Pipeline.arrRef spec1 w)
  | ⟨0, _⟩ => ((dat1 (E2 m) c).arrAt_in 0 rfl _).trans ((A_eq1 (E2 m) c 0).trans (E3_of_ne m c _ (by decide)).symm)
  | ⟨1, _⟩ => ((dat1 (E2 m) c).arrAt_in 1 rfl _).trans ((A_eq1 (E2 m) c 1).trans (E3_of_ne m c _ (by decide)).symm)
  | ⟨2, _⟩ => ((dat1 (E2 m) c).arrAt_in 2 rfl _).trans ((A_eq1 (E2 m) c 2).trans (E3_of_ne m c _ (by decide)).symm)
  | ⟨3, _⟩ => ((dat1 (E2 m) c).arrAt_in 3 rfl _).trans ((A_eq1 (E2 m) c 3).trans (E3_of_ne m c _ (by decide)).symm)
  | ⟨4, _⟩ => ((dat1 (E2 m) c).arrAt_in 4 rfl _).trans ((A_eq1 (E2 m) c 4).trans (E3_of_ne m c _ (by decide)).symm)
  | ⟨5, _⟩ => ((dat1 (E2 m) c).arrAt_in 5 rfl _).trans ((A_eq1 (E2 m) c 5).trans (E3_of_ne m c _ (by decide)).symm)
  | ⟨6, _⟩ => ((dat1 (E2 m) c).arrAt_in 6 rfl _).trans ((A_eq1 (E2 m) c 6).trans (E3_of_ne m c _ (by decide)).symm)
  | ⟨7, _⟩ => (E3_main_v3 m c).symm
  | ⟨_ + 8, h⟩ => absurd h (Nat.not_lt.2 (Nat.le_add_left _ _))
/-- Off region 1's arrays nothing changes. -/
theorem hrest1 (c : Dev nD) : ∀ b, b ∉ Finset.univ.image (Pipeline.arrRef spec1) → E3 m c b = E2 m c b :=
  fun b hb => E3_of_ne m c b fun e => hb (e ▸ Finset.mem_image.mpr ⟨7, Finset.mem_univ _, rfl⟩)

section Reg1
variable (hb1 : ∀ c : Dev nD, BodyObligation (dat1 (F := F) (E2 m) c) (defs₀ (F := F)) Variants.none () Set.univ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest spec1 c (E2 m c)) := by
      rw [Pipeline.unscopedBufs_split₀ (Pipeline.pin (pcfgs (F := F)) adm) 1 winFacts₀1.arr_unscoped c (E2 m c)]
      exact sep_mono (arrays1_of_bufs c (E2 m) (E2 m c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c))
        ⊢ (unscopedBufs c (E3 m c) : sProp 𝕄) := by
      rw [Pipeline.unscopedBufs_split₀ (Pipeline.pin (pcfgs (F := F)) adm) 1 winFacts₀1.arr_unscoped c (E3 m c)]
      refine sep_mono (bufs_of_arrays1 c (E2 m) (E3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg1

/-! ## Region 2 as a segment -/

/-- At region 2's exit each of its arrays holds what the valuation after it says: the inputs what they held (an input
    array is never written), the output what the write-backs leave. -/
theorem hF2 (c : Dev nD) : ∀ w : Fin cfg2.W, (dat2 (E3 m) c).arrAt w cfg2.N = E4 m c (Pipeline.arrRef spec2 w)
  | ⟨0, _⟩ => ((dat2 (E3 m) c).arrAt_in 0 rfl _).trans ((A_eq2 (E3 m) c 0).trans (E4_of_ne m c _ (by decide)).symm)
  | ⟨1, _⟩ => ((dat2 (E3 m) c).arrAt_in 1 rfl _).trans ((A_eq2 (E3 m) c 1).trans (E4_of_ne m c _ (by decide)).symm)
  | ⟨2, _⟩ => ((dat2 (E3 m) c).arrAt_in 2 rfl _).trans ((A_eq2 (E3 m) c 2).trans (E4_of_ne m c _ (by decide)).symm)
  | ⟨3, _⟩ => ((dat2 (E3 m) c).arrAt_in 3 rfl _).trans ((A_eq2 (E3 m) c 3).trans (E4_of_ne m c _ (by decide)).symm)
  | ⟨4, _⟩ => ((dat2 (E3 m) c).arrAt_in 4 rfl _).trans ((A_eq2 (E3 m) c 4).trans (E4_of_ne m c _ (by decide)).symm)
  | ⟨5, _⟩ => ((dat2 (E3 m) c).arrAt_in 5 rfl _).trans ((A_eq2 (E3 m) c 5).trans (E4_of_ne m c _ (by decide)).symm)
  | ⟨6, _⟩ => ((dat2 (E3 m) c).arrAt_in 6 rfl _).trans ((A_eq2 (E3 m) c 6).trans (E4_of_ne m c _ (by decide)).symm)
  | ⟨7, _⟩ => (E4_main_v4 m c).symm
  | ⟨_ + 8, h⟩ => absurd h (Nat.not_lt.2 (Nat.le_add_left _ _))
/-- Off region 2's arrays nothing changes. -/
theorem hrest2 (c : Dev nD) : ∀ b, b ∉ Finset.univ.image (Pipeline.arrRef spec2) → E4 m c b = E3 m c b :=
  fun b hb => E4_of_ne m c b fun e => hb (e ▸ Finset.mem_image.mpr ⟨7, Finset.mem_univ _, rfl⟩)

section Reg2
variable (hb2 : ∀ c : Dev nD, BodyObligation (dat2 (F := F) (E3 m) c) (defs₀ (F := F)) Variants.none () Set.univ)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄)
        ⊢ iprop((pdats m 2 c).arrays ((pdats m 2 c).arrAt · 0) ∗ Pipeline.unscopedRest spec2 c (E3 m c)) := by
      rw [Pipeline.unscopedBufs_split₀ (Pipeline.pin (pcfgs (F := F)) adm) 2 winFacts₀2.arr_unscoped c (E3 m c)]
      exact sep_mono (arrays2_of_bufs c (E3 m) (E3 m c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E3 m c))
        ⊢ (unscopedBufs c (E4 m c) : sProp 𝕄) := by
      rw [Pipeline.unscopedBufs_split₀ (Pipeline.pin (pcfgs (F := F)) adm) 2 winFacts₀2.arr_unscoped c (E4 m c)]
      refine sep_mono (bufs_of_arrays2 c (E3 m) (E4 m c) _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
end Reg2

/-! ## The arguments end as launched -/

theorem E2_main_arg0 (c : Dev nD) : E2 m c main_arg0 = m ((c : Thread nD τ).loc main_arg0) :=
  (W2_arr m c 0).trans (((dat0 (E1 m) c).arrAt_in 0 rfl _).trans ((A_eq0 (E1 m) c 0).trans (V1_of m c main_arg0 (by decide))))
theorem E2_main_arg1 (c : Dev nD) : E2 m c main_arg1 = m ((c : Thread nD τ).loc main_arg1) :=
  (W2_of_ne m c main_arg1 (by decide)).trans (V1_of m c main_arg1 (by decide))
theorem E2_main_arg2 (c : Dev nD) : E2 m c main_arg2 = m ((c : Thread nD τ).loc main_arg2) :=
  (W2_of_ne m c main_arg2 (by decide)).trans (V1_of m c main_arg2 (by decide))
theorem E2_main_arg3 (c : Dev nD) : E2 m c main_arg3 = m ((c : Thread nD τ).loc main_arg3) :=
  (W2_of_ne m c main_arg3 (by decide)).trans (V1_of m c main_arg3 (by decide))
theorem E2_main_arg4 (c : Dev nD) : E2 m c main_arg4 = m ((c : Thread nD τ).loc main_arg4) :=
  (W2_arr m c 1).trans (((dat0 (E1 m) c).arrAt_in 1 rfl _).trans ((A_eq0 (E1 m) c 1).trans (V1_of m c main_arg4 (by decide))))
theorem E2_main_arg5 (c : Dev nD) : E2 m c main_arg5 = m ((c : Thread nD τ).loc main_arg5) :=
  (W2_arr m c 2).trans (((dat0 (E1 m) c).arrAt_in 2 rfl _).trans ((A_eq0 (E1 m) c 2).trans (V1_of m c main_arg5 (by decide))))
theorem E2_main_arg6 (c : Dev nD) : E2 m c main_arg6 = m ((c : Thread nD τ).loc main_arg6) :=
  (W2_arr m c 3).trans (((dat0 (E1 m) c).arrAt_in 3 rfl _).trans ((A_eq0 (E1 m) c 3).trans (V1_of m c main_arg6 (by decide))))
theorem E2_main_arg7 (c : Dev nD) : E2 m c main_arg7 = m ((c : Thread nD τ).loc main_arg7) :=
  (W2_arr m c 4).trans (((dat0 (E1 m) c).arrAt_in 4 rfl _).trans ((A_eq0 (E1 m) c 4).trans (V1_of m c main_arg7 (by decide))))
theorem E2_main_arg8 (c : Dev nD) : E2 m c main_arg8 = m ((c : Thread nD τ).loc main_arg8) :=
  (W2_arr m c 5).trans (((dat0 (E1 m) c).arrAt_in 5 rfl _).trans ((A_eq0 (E1 m) c 5).trans (V1_of m c main_arg8 (by decide))))
theorem E2_main_arg9 (c : Dev nD) : E2 m c main_arg9 = m ((c : Thread nD τ).loc main_arg9) :=
  (W2_of_ne m c main_arg9 (by decide)).trans (V1_of m c main_arg9 (by decide))
theorem E2_main_arg10 (c : Dev nD) : E2 m c main_arg10 = m ((c : Thread nD τ).loc main_arg10) :=
  (W2_of_ne m c main_arg10 (by decide)).trans (V1_of m c main_arg10 (by decide))
theorem E4_main_arg0 (c : Dev nD) : E4 m c main_arg0 = m ((c : Thread nD τ).loc main_arg0) :=
  (E4_of_ne m c main_arg0 (by decide)).trans ((E3_of_ne m c main_arg0 (by decide)).trans (E2_main_arg0 m c))
theorem E4_main_arg1 (c : Dev nD) : E4 m c main_arg1 = m ((c : Thread nD τ).loc main_arg1) :=
  (E4_of_ne m c main_arg1 (by decide)).trans ((E3_of_ne m c main_arg1 (by decide)).trans (E2_main_arg1 m c))
theorem E4_main_arg2 (c : Dev nD) : E4 m c main_arg2 = m ((c : Thread nD τ).loc main_arg2) :=
  (E4_of_ne m c main_arg2 (by decide)).trans ((E3_of_ne m c main_arg2 (by decide)).trans (E2_main_arg2 m c))
theorem E4_main_arg3 (c : Dev nD) : E4 m c main_arg3 = m ((c : Thread nD τ).loc main_arg3) :=
  (E4_of_ne m c main_arg3 (by decide)).trans ((E3_of_ne m c main_arg3 (by decide)).trans (E2_main_arg3 m c))
theorem E4_main_arg4 (c : Dev nD) : E4 m c main_arg4 = m ((c : Thread nD τ).loc main_arg4) :=
  (E4_of_ne m c main_arg4 (by decide)).trans ((E3_of_ne m c main_arg4 (by decide)).trans (E2_main_arg4 m c))
theorem E4_main_arg5 (c : Dev nD) : E4 m c main_arg5 = m ((c : Thread nD τ).loc main_arg5) :=
  (E4_of_ne m c main_arg5 (by decide)).trans ((E3_of_ne m c main_arg5 (by decide)).trans (E2_main_arg5 m c))
theorem E4_main_arg6 (c : Dev nD) : E4 m c main_arg6 = m ((c : Thread nD τ).loc main_arg6) :=
  (E4_of_ne m c main_arg6 (by decide)).trans ((E3_of_ne m c main_arg6 (by decide)).trans (E2_main_arg6 m c))
theorem E4_main_arg7 (c : Dev nD) : E4 m c main_arg7 = m ((c : Thread nD τ).loc main_arg7) :=
  (E4_of_ne m c main_arg7 (by decide)).trans ((E3_of_ne m c main_arg7 (by decide)).trans (E2_main_arg7 m c))
theorem E4_main_arg8 (c : Dev nD) : E4 m c main_arg8 = m ((c : Thread nD τ).loc main_arg8) :=
  (E4_of_ne m c main_arg8 (by decide)).trans ((E3_of_ne m c main_arg8 (by decide)).trans (E2_main_arg8 m c))
theorem E4_main_arg9 (c : Dev nD) : E4 m c main_arg9 = m ((c : Thread nD τ).loc main_arg9) :=
  (E4_of_ne m c main_arg9 (by decide)).trans ((E3_of_ne m c main_arg9 (by decide)).trans (E2_main_arg9 m c))
theorem E4_main_arg10 (c : Dev nD) : E4 m c main_arg10 = m ((c : Thread nD τ).loc main_arg10) :=
  (E4_of_ne m c main_arg10 (by decide)).trans ((E3_of_ne m c main_arg10 (by decide)).trans (E2_main_arg10 m c))
/-- The node result at the end is what region 1 left (region 2 does not write it). -/
theorem E4_main_v3 (c : Dev nD) : E4 m c main_v3 = (dat1 (E2 m) c).arrAt 7 cfg1.N :=
  (E4_of_ne m c main_v3 (by decide)).trans (E3_main_v3 m c)

/-! ## @main as segments, and the launch -/

section Launch
variable (hb0 : ∀ c : Dev nD, BodyObligation (dat0 (F := F) (E1 m) c) (defs₀ (F := F)) Variants.none () Set.univ)
  (hb1 : ∀ c : Dev nD, BodyObligation (dat1 (F := F) (E2 m) c) (defs₀ (F := F)) Variants.none () Set.univ)
  (hb2 : ∀ c : Dev nD, BodyObligation (dat2 (F := F) (E3 m) c) (defs₀ (F := F)) Variants.none () Set.univ)

include hb0 hb1 hb2

/-- @main's four items in order: the host stretch, then the three regions. -/
abbrev segs : List (Pipeline.Seg (pcfgs (F := F)) adm (pdats m) () defs₀ 𝒱₀ L lv) :=
  [ .host (hseg0 m), .region (reg0 m hb0), .region (reg1 m hb1), .region (reg2 m hb2) ]

theorem main_run (c : Dev nD) : main (F := F) c = Pipeline.Seg.run (segs m hb0 hb1 hb2) := (main_chain c).trans (by chain_rfl)

set_option backward.isDefEq.respectTransparency.types false in
/-- THE RUN: from any memory with zero counters every weakly fair execution of @main terminates, nothing faulting, and
    every final memory holds each unscoped buffer of each core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run, read at the two results and the eleven arguments: the node result is what region 1's write-backs leave,
    the edge result what region 2's leave, every argument as launched. -/
theorem run_values (ρ : Dev nD → PrngReg) : θ_run defs (onTc (τ := τ) (main (F := F))) ⟨m, fun _ => 0, ρ⟩ (fun r => ∀ c : Dev nD,
      r.2.mem ((c.tc : Thread nD τ).loc main_v3) = (dat1 (E2 m) c).arrAt 7 cfg1.N
      ∧ r.2.mem ((c.tc : Thread nD τ).loc main_v4) = (dat2 (E3 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v3 (by decide))).trans (E4_main_v3 m c),
      (h c _ (mem_uc main_v4 (by decide))).trans (E4_main_v4 m c),
      (h c _ (mem_uc main_arg0 (by decide))).trans (E4_main_arg0 m c),
      (h c _ (mem_uc main_arg1 (by decide))).trans (E4_main_arg1 m c),
      (h c _ (mem_uc main_arg2 (by decide))).trans (E4_main_arg2 m c),
      (h c _ (mem_uc main_arg3 (by decide))).trans (E4_main_arg3 m c),
      (h c _ (mem_uc main_arg4 (by decide))).trans (E4_main_arg4 m c),
      (h c _ (mem_uc main_arg5 (by decide))).trans (E4_main_arg5 m c),
      (h c _ (mem_uc main_arg6 (by decide))).trans (E4_main_arg6 m c),
      (h c _ (mem_uc main_arg7 (by decide))).trans (E4_main_arg7 m c),
      (h c _ (mem_uc main_arg8 (by decide))).trans (E4_main_arg8 m c),
      (h c _ (mem_uc main_arg9 (by decide))).trans (E4_main_arg9 m c),
      (h c _ (mem_uc main_arg10 (by decide))).trans (E4_main_arg10 m c)⟩) (run_all m hb0 hb1 hb2 ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_values m hb0 hb1 hb2 ρ)
end Launch

end Cert.Kernel.Fr

end
-- ==== Proof.KI.D0.lean ====
/-
  The first kernel region (one grid point; six whole-array inputs, four whole-array outputs): what each of its
  windows holds, as definitions over the contents `V` the region is entered with.

  The body reads p_node (16×1), e (4096×16), x (2048×128), p_edge (128×1), W_n (128×128), W_e (16×16) whole and
  stores four matrix products whole: p_nodeᵀ·eᵀ (1×4096), x·p_edge (2048×1), x·W_n (2048×128), e·W_e (4096×16).
  Each output buffer after the body is therefore ONE store covering the buffer, its payload the product of the
  loaded inputs.
-/
import proofs.«109357_g24051816857981_cont_8to1_1327_2_alg».proof.Proof.Gen.KernelIdeal.Launch
import proofs.«109357_g24051816857981_cont_8to1_1327_2_alg».proof.Proof.Gen.KernelIdeal.Skeleton
import proofs.«109357_g24051816857981_cont_8to1_1327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at the (only) point, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through, one per shape. -/
abbrev rc0_S16x1 : Rect S16x1 := Rect.unit (s := S16x1) ![0, 0] S16x1.size inb_S16x1_S16x1_0_0
abbrev rc0_S4096x16 : Rect S4096x16 := Rect.unit (s := S4096x16) ![0, 0] S4096x16.size inb_S4096x16_S4096x16_0_0
abbrev rc0_S2048x128 : Rect S2048x128 := Rect.unit (s := S2048x128) ![0, 0] S2048x128.size inb_S2048x128_S2048x128_0_0
abbrev rc0_S128x1 : Rect S128x1 := Rect.unit (s := S128x1) ![0, 0] S128x1.size inb_S128x1_S128x1_0_0
abbrev rc0_S128x128 : Rect S128x128 := Rect.unit (s := S128x128) ![0, 0] S128x128.size inb_S128x128_S128x128_0_0
abbrev rc0_S16x16 : Rect S16x16 := Rect.unit (s := S16x16) ![0, 0] S16x16.size inb_S16x16_S16x16_0_0
abbrev rc0_S1x4096 : Rect S1x4096 := Rect.unit (s := S1x4096) ![0, 0] S1x4096.size inb_S1x4096_S1x4096_0_0
abbrev rc0_S2048x1 : Rect S2048x1 := Rect.unit (s := S2048x1) ![0, 0] S2048x1.size inb_S2048x1_S2048x1_0_0

/-- Output window 6 (1×4096) after the body: one covering store of p_nodeᵀ·eᵀ. -/
def out0_6 (x4 : Vec F S16x1 .f32) (x1 : Vec F S4096x16 .f32) : Vec F S1x4096 .f32 :=
  View.canon [⟨rc0_S1x4096, k0_pay1 (View.ld x4 rc0_S16x1) (View.ld x1 rc0_S4096x16)⟩]
/-- Output window 7 (2048×1) after the body: one covering store of x·p_edge. -/
def out0_7 (x0 : Vec F S2048x128 .f32) (x5 : Vec F S128x1 .f32) : Vec F S2048x1 .f32 :=
  View.canon [⟨rc0_S2048x1, k0_pay2 (View.ld x0 rc0_S2048x128) (View.ld x5 rc0_S128x1)⟩]
/-- Output window 8 (2048×128) after the body: one covering store of x·W_n. -/
def out0_8 (x0 : Vec F S2048x128 .f32) (x2 : Vec F S128x128 .f32) : Vec F S2048x128 .f32 :=
  View.canon [⟨rc0_S2048x128, k0_pay3 (View.ld x0 rc0_S2048x128) (View.ld x2 rc0_S128x128)⟩]
/-- Output window 9 (4096×16) after the body: one covering store of e·W_e. -/
def out0_9 (x1 : Vec F S4096x16 .f32) (x3 : Vec F S16x16 .f32) : Vec F S4096x16 .f32 :=
  View.canon [⟨rc0_S4096x16, k0_pay4 (View.ld x1 rc0_S4096x16) (View.ld x3 rc0_S16x16)⟩]

/-- The offset vector of every rectangle above is zero. -/
theorem off2_zero : (![0, 0] : Fin 2 → Nat) = fun _ => 0 := funext fun a => by fin_cases a <;> rfl

/-- A covering store leaves its payload, and a whole load reads its buffer: each output is the product itself. -/
theorem out0_6_eq (x4 : Vec F S16x1 .f32) (x1 : Vec F S4096x16 .f32) : out0_6 x4 x1 = k0_pay1 x4 x1 := by
  unfold out0_6; rw [View.canon_unit_zero off2_zero]
  simp only [View.ld_unit_zero (S := S16x1) off2_zero, View.ld_unit_zero (S := S4096x16) off2_zero]
theorem out0_7_eq (x0 : Vec F S2048x128 .f32) (x5 : Vec F S128x1 .f32) : out0_7 x0 x5 = k0_pay2 x0 x5 := by
  unfold out0_7; rw [View.canon_unit_zero off2_zero]
  simp only [View.ld_unit_zero (S := S2048x128) off2_zero, View.ld_unit_zero (S := S128x1) off2_zero]
theorem out0_8_eq (x0 : Vec F S2048x128 .f32) (x2 : Vec F S128x128 .f32) : out0_8 x0 x2 = k0_pay3 x0 x2 := by
  unfold out0_8; rw [View.canon_unit_zero off2_zero]
  simp only [View.ld_unit_zero (S := S2048x128) off2_zero, View.ld_unit_zero (S := S128x128) off2_zero]
theorem out0_9_eq (x1 : Vec F S4096x16 .f32) (x3 : Vec F S16x16 .f32) : out0_9 x1 x3 = k0_pay4 x1 x3 := by
  unfold out0_9; rw [View.canon_unit_zero off2_zero]
  simp only [View.ld_unit_zero (S := S4096x16) off2_zero, View.ld_unit_zero (S := S16x16) off2_zero]

/-- The proof data of pipeline 0 on core `c`: the arrays as the region finds them; after the body each input's
    buffer at its block and each output's at its product; the invariant is the scoped rest and the generator
    register, untouched; nothing owed; full shares (the six input arrays are pairwise distinct). -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 4 t) (iblk0 V c 1 t)
    | ⟨7, _⟩ => out0_7 (iblk0 V c 0 t) (iblk0 V c 5 t)
    | ⟨8, _⟩ => out0_8 (iblk0 V c 0 t) (iblk0 V c 2 t)
    | ⟨9, _⟩ => out0_9 (iblk0 V c 1 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 4 t) (iblk0 V c 1 t) := by dsimp only [dat0]
theorem after0_7 (c : Dev nD) (t : Fin cfg0.N) : (dat0 V c).after 7 t = out0_7 (iblk0 V c 0 t) (iblk0 V c 5 t) := by dsimp only [dat0]
theorem after0_8 (c : Dev nD) (t : Fin cfg0.N) : (dat0 V c).after 8 t = out0_8 (iblk0 V c 0 t) (iblk0 V c 2 t) := by dsimp only [dat0]
theorem after0_9 (c : Dev nD) (t : Fin cfg0.N) : (dat0 V c).after 9 t = out0_9 (iblk0 V c 1 t) (iblk0 V c 3 t) := by dsimp only [dat0]

end Cert.KernelIdeal.Fr

end
-- ==== Proof.KI.R0.lean ====
/-
  Region 0: the body obligation.
-/
import proofs.«109357_g24051816857981_cont_8to1_1327_2_alg».proof.Proof.KI.D0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- Input window 0 is uncut and never idle and the body leaves its block in place, so its current staging
    buffer holds the array's block at the point, whatever the buffer held before the fetch. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1 is uncut and never idle and the body leaves its block in place, so its current staging
    buffer holds the array's block at the point, whatever the buffer held before the fetch. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2 is uncut and never idle and the body leaves its block in place, so its current staging
    buffer holds the array's block at the point, whatever the buffer held before the fetch. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3 is uncut and never idle and the body leaves its block in place, so its current staging
    buffer holds the array's block at the point, whatever the buffer held before the fetch. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4 is uncut and never idle and the body leaves its block in place, so its current staging
    buffer holds the array's block at the point, whatever the buffer held before the fetch. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input window 5 is uncut and never idle and the body leaves its block in place, so its current staging
    buffer holds the array's block at the point, whatever the buffer held before the fetch. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-! ## One whole-buffer store covers its buffer -/

/-- The rectangle of output window 6's store is the whole shape at offset zero: every index lies in it. -/
theorem cover0_6 (p : Vec F S1x4096 .f32) (y : S1x4096.Idx) :
    ∃ pc ∈ ([⟨rc0_S1x4096, p⟩] : List (View.Piece (Elt F) S1x4096 .f32)), y ∈ pc.1.set :=
  ⟨_, List.mem_singleton_self _, View.mem_set_unit_zero off2_zero inb_S1x4096_S1x4096_0_0 y⟩

/-- The rectangle of output window 7's store is the whole shape at offset zero: every index lies in it. -/
theorem cover0_7 (p : Vec F S2048x1 .f32) (y : S2048x1.Idx) :
    ∃ pc ∈ ([⟨rc0_S2048x1, p⟩] : List (View.Piece (Elt F) S2048x1 .f32)), y ∈ pc.1.set :=
  ⟨_, List.mem_singleton_self _, View.mem_set_unit_zero off2_zero inb_S2048x1_S2048x1_0_0 y⟩

/-- The rectangle of output window 8's store is the whole shape at offset zero: every index lies in it. -/
theorem cover0_8 (p : Vec F S2048x128 .f32) (y : S2048x128.Idx) :
    ∃ pc ∈ ([⟨rc0_S2048x128, p⟩] : List (View.Piece (Elt F) S2048x128 .f32)), y ∈ pc.1.set :=
  ⟨_, List.mem_singleton_self _, View.mem_set_unit_zero off2_zero inb_S2048x128_S2048x128_0_0 y⟩

/-- The rectangle of output window 9's store is the whole shape at offset zero: every index lies in it. -/
theorem cover0_9 (p : Vec F S4096x16 .f32) (y : S4096x16.Idx) :
    ∃ pc ∈ ([⟨rc0_S4096x16, p⟩] : List (View.Piece (Elt F) S4096x16 .f32)), y ∈ pc.1.set :=
  ⟨_, List.mem_singleton_self _, View.mem_set_unit_zero off2_zero inb_S4096x16_S4096x16_0_0 y⟩

/-! ## The body's triple -/

set_option maxHeartbeats 1000000 in
/-- The kernel body on whole staging memrefs — the six inputs' at read contents `x0 … x5`, the four outputs' at
    anything — runs to the continuation holding the inputs' as they were and each output's at its one covering
    store of the product of the loaded inputs. Each output buffer is loaded once before its store; the value
    loaded is read by nothing, so the buffer's earlier contents do not appear in what is left. -/
theorem sound_kernel0 (c : Dev nD) (E : Set ℕ)
    (arg0 : Memref sig .tc .vmem S2048x128 .f32) (harg0 : arg0.IsWhole)
    (arg1 : Memref sig .tc .vmem S4096x16 .f32) (harg1 : arg1.IsWhole)
    (arg2 : Memref sig .tc .vmem S128x128 .f32) (harg2 : arg2.IsWhole)
    (arg3 : Memref sig .tc .vmem S16x16 .f32) (harg3 : arg3.IsWhole)
    (arg4 : Memref sig .tc .vmem S16x1 .f32) (harg4 : arg4.IsWhole)
    (arg5 : Memref sig .tc .vmem S128x1 .f32) (harg5 : arg5.IsWhole)
    (arg6 : Memref sig .tc .vmem S1x4096 .f32) (harg6 : arg6.IsWhole)
    (arg7 : Memref sig .tc .vmem S2048x1 .f32) (harg7 : arg7.IsWhole)
    (arg8 : Memref sig .tc .vmem S2048x128 .f32) (harg8 : arg8.IsWhole)
    (arg9 : Memref sig .tc .vmem S4096x16 .f32) (harg9 : arg9.IsWhole)
    (x0 : Vec F S2048x128 .f32) (x1 : Vec F S4096x16 .f32) (x2 : Vec F S128x128 .f32) (x3 : Vec F S16x16 .f32) (x4 : Vec F S16x1 .f32) (x5 : Vec F S128x1 .f32)
    (K : PUnit → sProp 𝕄) :
    iprop(owns (c : Thread nD τ) arg0 fullShare x0
        ∗ owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ (∃ d, owns (c : Thread nD τ) arg6 fullShare d)
        ∗ (∃ d, owns (c : Thread nD τ) arg7 fullShare d)
        ∗ (∃ d, owns (c : Thread nD τ) arg8 fullShare d)
        ∗ (∃ d, owns (c : Thread nD τ) arg9 fullShare d)
        ∗ (iprop(owns (c : Thread nD τ) arg0 fullShare x0
            ∗ owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare (out0_6 x4 x1)
            ∗ owns (c : Thread nD τ) arg7 fullShare (out0_7 x0 x5)
            ∗ owns (c : Thread nD τ) arg8 fullShare (out0_8 x0 x2)
            ∗ owns (c : Thread nD τ) arg9 fullShare (out0_9 x1 x3)) -∗ K ⟨⟩))
      ⊢ wp frame (wpE (defs₀ (F := F)) Variants.none c none) E
          (cc0__prologue_kernel arg0 harg0 arg1 harg1 arg2 harg2 arg3 harg3 arg4 harg4 arg5 harg5 arg6 harg6 arg7 harg7 arg8 harg8 arg9 harg9) K := by
  simp only [cc0__prologue_kernel_eq_skeleton]; unfold cc0__prologue_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _)
  isplitl [H7]
  · iexists _; isplitr
    swap; · iexact H7
    ipureintro
    exact View.read_writes_eq_canon _ _ _ (cover0_7 _)
  isplitl [H8]
  · iexists _; isplitr
    swap; · iexact H8
    ipureintro
    exact View.read_writes_eq_canon _ _ _ (cover0_8 _)
  iexists _; isplitr
  swap; · iexact H9
  ipureintro
  exact View.read_writes_eq_canon _ _ _ (cover0_9 _)

/-! ## The body obligation at the point -/

/-- What the body is called with at point `t`: the invariant, what the core owes, and every window's current
    staging buffer at what it then holds. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns: the invariant and the debt at the next point, every buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

/-- The body at the point: the inputs' staging buffers hold their blocks, so the kernel's triple applies; the
    invariant and the core's debt are constant in the point and pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for pipeline 0, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.D1.lean ====
/-
  The node region (grid 8×8, point (i, j), j the fast axis): what each window holds, as definitions over the contents
  `V` the region is entered with. Windows: 0 the incidence rows of block i (256×4096), 1 the incidence rows of block j,
  2 the node Laplacian's tile (i, j) (256×256), 3 rows j of x·W_n (256×128), 4 the edge weights (1×4096), 5 rows i of x,
  6 the bias (1×128), 7 the output rows i (256×128), accumulated over j.
-/
import proofs.«109357_g24051816857981_cont_8to1_1327_2_alg».proof.Proof.Gen.KernelIdeal.Launch
import proofs.«109357_g24051816857981_cont_8to1_1327_2_alg».proof.Proof.Gen.KernelIdeal.Skeleton
import proofs.«109357_g24051816857981_cont_8to1_1327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-buffer rectangles the body loads and stores through, one per shape. -/
abbrev rc1_S256x4096 : Rect S256x4096 := Rect.unit (s := S256x4096) ![0, 0] S256x4096.size inb_S256x4096_S256x4096_0_0
abbrev rc1_S256x256 : Rect S256x256 := Rect.unit (s := S256x256) ![0, 0] S256x256.size inb_S256x256_S256x256_0_0
abbrev rc1_S256x128 : Rect S256x128 := Rect.unit (s := S256x128) ![0, 0] S256x128.size inb_S256x128_S256x128_0_0
abbrev rc1_S1x4096 : Rect S1x4096 := Rect.unit (s := S1x4096) ![0, 0] S1x4096.size inb_S1x4096_S1x4096_0_0
abbrev rc1_S1x128 : Rect S1x128 := Rect.unit (s := S1x128) ![0, 0] S1x128.size inb_S1x128_S1x128_0_0

/-- The output buffer after the body at a point with j = 0: one covering store of (residual + bias) + contribution,
    from the blocks of windows 0–6. -/
def out1_A (x0 : Vec F S256x4096 .f32) (x1 : Vec F S256x4096 .f32) (x2 : Vec F S256x256 .f32) (x3 : Vec F S256x128 .f32) (x4 : Vec F S1x4096 .f32)
    (x5 : Vec F S256x128 .f32) (x6 : Vec F S1x128 .f32) : Vec F S256x128 .f32 :=
  View.canon [⟨rc1_S256x128, k1_pay2 (View.ld x0 rc1_S256x4096) (View.ld x4 rc1_S1x4096) (View.ld x1 rc1_S256x4096) (View.ld x2 rc1_S256x256) (View.ld x3 rc1_S256x128) (View.ld x5 rc1_S256x128) (View.ld x6 rc1_S1x128)⟩]
/-- The output buffer after the body at a point with j ≠ 0: one covering store of (what the buffer held) + contribution. -/
def out1_B (x0 : Vec F S256x4096 .f32) (x1 : Vec F S256x4096 .f32) (x2 : Vec F S256x256 .f32) (x3 : Vec F S256x128 .f32) (x4 : Vec F S1x4096 .f32)
    (xo : Vec F S256x128 .f32) : Vec F S256x128 .f32 :=
  View.canon [⟨rc1_S256x128, k1_pay3 (View.ld x0 rc1_S256x4096) (View.ld x4 rc1_S1x4096) (View.ld x1 rc1_S256x4096) (View.ld x2 rc1_S256x256) (View.ld x3 rc1_S256x128) (View.ld xo rc1_S256x128)⟩]

/-- The offset vector of every rectangle above is zero. -/
theorem off2_zero1 : (![0, 0] : Fin 2 → Nat) = fun _ => 0 := funext fun a => by fin_cases a <;> rfl

/-- A covering store leaves its payload, and a whole load reads its buffer. -/
theorem out1_A_eq (x0 : Vec F S256x4096 .f32) (x1 : Vec F S256x4096 .f32) (x2 : Vec F S256x256 .f32) (x3 : Vec F S256x128 .f32) (x4 : Vec F S1x4096 .f32)
    (x5 : Vec F S256x128 .f32) (x6 : Vec F S1x128 .f32) : out1_A x0 x1 x2 x3 x4 x5 x6 = k1_pay2 x0 x4 x1 x2 x3 x5 x6 := by
  unfold out1_A; rw [View.canon_unit_zero off2_zero1]
  simp only [View.ld_unit_zero (S := S256x4096) off2_zero1, View.ld_unit_zero (S := S256x256) off2_zero1, View.ld_unit_zero (S := S256x128) off2_zero1,
    View.ld_unit_zero (S := S1x4096) off2_zero1, View.ld_unit_zero (S := S1x128) off2_zero1]
theorem out1_B_eq (x0 : Vec F S256x4096 .f32) (x1 : Vec F S256x4096 .f32) (x2 : Vec F S256x256 .f32) (x3 : Vec F S256x128 .f32) (x4 : Vec F S1x4096 .f32)
    (xo : Vec F S256x128 .f32) : out1_B x0 x1 x2 x3 x4 xo = k1_pay3 x0 x4 x1 x2 x3 xo := by
  unfold out1_B; rw [View.canon_unit_zero off2_zero1]
  simp only [View.ld_unit_zero (S := S256x4096) off2_zero1, View.ld_unit_zero (S := S256x256) off2_zero1, View.ld_unit_zero (S := S256x128) off2_zero1,
    View.ld_unit_zero (S := S1x4096) off2_zero1]

/-- The first branch of the body (reset: residual + bias + contribution) is taken exactly where j = 0, -/
theorem hcond1_1 : ∀ t : Fin cfg1.N, k1_cond1 (grid1.coords t) = 1#1 ↔ t.val % 8 = 0 :=
  (by decide +kernel : ∀ t : Fin grid1.N, k1_cond1 (grid1.coords t) = 1#1 ↔ t.val % 8 = 0)
/-- and the second (accumulate) exactly where j ≠ 0. -/
theorem hcond1_2 : ∀ t : Fin cfg1.N, k1_cond2 (grid1.coords t) = 1#1 ↔ ¬ t.val % 8 = 0 :=
  (by decide +kernel : ∀ t : Fin grid1.N, k1_cond2 (grid1.coords t) = 1#1 ↔ ¬ t.val % 8 = 0)

/-- THE ACCUMULATION. What the output's staging buffer holds after the body at position `n` of the grid's
    row-major order (n = 8·i + j): at j = 0 the reset, otherwise the contribution added to what position n − 1 left
    (the buffer is not written back in between: the block index (i, 0) does not move along j). -/
def outsAt1 (c : Dev nD) : (n : ℕ) → n < cfg1.N → Vec F S256x128 .f32
  | 0, hn => out1_A (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩)
  | n + 1, hn =>
    if (n + 1) % 8 = 0 then
      out1_A (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩)
    else
      out1_B (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- `outsAt1` at a point with j = 0. -/
theorem outsAt1_A (c : Dev nD) (t : Fin cfg1.N) (h0 : t.val % 8 = 0) :
    outsAt1 V c t.val t.isLt = out1_A (iblk1 V c 0 t) (iblk1 V c 1 t) (iblk1 V c 2 t) (iblk1 V c 3 t) (iblk1 V c 4 t) (iblk1 V c 5 t) (iblk1 V c 6 t) := by
  obtain ⟨n, hn⟩ := t
  cases n with
  | zero => exact rfl
  | succ n => exact (if_pos h0).trans rfl

/-- `outsAt1` at a point with j ≠ 0: over what the point before left. -/
theorem outsAt1_B (c : Dev nD) (t : Fin cfg1.N) (h0 : ¬t.val % 8 = 0) :
    outsAt1 V c t.val t.isLt = out1_B (iblk1 V c 0 t) (iblk1 V c 1 t) (iblk1 V c 2 t) (iblk1 V c 3 t) (iblk1 V c 4 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 1 on core `c`: the arrays as the region finds them; after the body each input's
    buffer at its block and the output's at `outsAt1`; the invariant is the scoped rest and the generator register;
    nothing owed. Windows 0 and 1 read ONE array (the incidence matrix, at different blocks): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outsAt1 V c t.val t.isLt
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outsAt1 V c t.val t.isLt := by dsimp only [dat1]

end Cert.KernelIdeal.Fr

end
-- ==== Proof.KI.R1.lean ====
/-
  Region 1: the body obligation.
-/
import proofs.«109357_g24051816857981_cont_8to1_1327_2_alg».proof.Proof.KI.D1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The schedule's facts the body obligation needs -/

/-- The output window is live at every grid point: one of the body's two conditionals holds there, so the body
    stores into it. -/
theorem live1_7 : ∀ t : Fin cfg1.N, cfg1.idle 7 (cfg1.grid.coords t) = false :=
  (by decide +kernel : ∀ t : Fin grid1.N, idle1 7 (grid1.coords t) = false)

/-- The same at every coordinate vector: the two conditions test the second coordinate against zero, one for
    equality and one for inequality. -/
theorem live1_7_all : ∀ i : grid1.Coords, cfg1.idle 7 i = false := by
  intro i
  show (!(k1_cond1 i == 1#1) && !(k1_cond2 i == 1#1)) = false
  unfold k1_cond1 k1_cond2
  generalize i 1 = j
  revert j
  decide

/-! ## What the body finds in each window's buffer -/

/-- Input window 0's current staging buffer holds its block at every point, fetched there or not: where it is not
    fetched its block index has not moved since the point before, and the body only reads it. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
/-- Input window 1's current staging buffer holds its block at every point, fetched there or not: where it is not
    fetched its block index has not moved since the point before, and the body only reads it. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
/-- Input window 2's current staging buffer holds its block at every point, fetched there or not: where it is not
    fetched its block index has not moved since the point before, and the body only reads it. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
/-- Input window 3's current staging buffer holds its block at every point, fetched there or not: where it is not
    fetched its block index has not moved since the point before, and the body only reads it. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
/-- Input window 4's current staging buffer holds its block at every point, fetched there or not: where it is not
    fetched its block index has not moved since the point before, and the body only reads it. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
/-- Input window 5's current staging buffer holds its block at every point, fetched there or not: where it is not
    fetched its block index has not moved since the point before, and the body only reads it. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
/-- Input window 6's current staging buffer holds its block at every point, fetched there or not: where it is not
    fetched its block index has not moved since the point before, and the body only reads it. -/
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- At a point with j ≠ 0 the output's current staging buffer holds what the body left at the point before: the point
    is not the first, the block was not written back in between (that happens after j = 7 only), the window is live
    and uncut. -/
theorem before1_7_B (c : Dev nD) (t : Fin cfg1.N) (h0 : ¬t.val % 8 = 0) (d) :
    (dat1 V c).before 7 t d = outsAt1 V c (t.val - 1) (Nat.lt_of_le_of_lt (Nat.sub_le _ _) t.isLt) := by
  have hN : t.val < 64 := lt_of_lt_of_eq t.isLt (show cfg1.N = 64 from N_1)
  rw [Dat.before_out_kept _ 7 rfl t (by omega) (Bool.eq_false_iff.mpr fun h => by have := (flush1_7 _).mp h; dsimp only at this; omega)
    live1_7_all (fun _ _ => rfl)]
  dsimp only [dat1]

/-! ## The body's triple, case by case -/

/-- One store through the whole-buffer rectangle covers the output's block. -/
theorem cover1_7 (p0 : Vec F S256x128 .f32) (y : S256x128.Idx) :
    ∃ pc ∈ ([⟨rc1_S256x128, p0⟩] : List (View.Piece (Elt F) S256x128 .f32)), y ∈ pc.1.set :=
  ⟨_, List.mem_singleton_self _, View.mem_set_unit_zero off2_zero1 inb_S256x128_S256x128_0_0 y⟩

set_option maxHeartbeats 1000000 in
/-- THE BODY AT A POINT WITH j = 0. On whole staging memrefs, the inputs' at contents `x0 … x6` and the output's at
    anything, with the first conditional taken and the second not, the body runs to the continuation holding the
    inputs' as they were and the output's at `out1_A` of them: its one store covers the buffer. -/
theorem sound_kernel1_A (c : Dev nD) (E : Set ℕ) (i : grid1.Coords) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S1x4096 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole)
    (hc1 : k1_cond1 i = 1#1) (hc2 : ¬k1_cond2 i = 1#1)
    (x0 : Vec F S256x4096 .f32) (x1 : Vec F S256x4096 .f32) (x2 : Vec F S256x256 .f32) (x3 : Vec F S256x128 .f32) (x4 : Vec F S1x4096 .f32) (x5 : Vec F S256x128 .f32) (x6 : Vec F S1x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_A x0 x1 x2 x3 x4 x5 x6)) -∗ K ⟨⟩))
      ⊢ wp frame (wpE (defs₀ (F := F)) Variants.none c none) E (cc1__node_kernel i arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

set_option maxHeartbeats 1000000 in
/-- THE BODY AT A POINT WITH j ≠ 0. On whole staging memrefs, the inputs' at contents `x0 … x6` and the output's at
    `xo` (what the point before left), with the first conditional not taken and the second taken, the body runs to the
    continuation holding the inputs' as they were and the output's at `out1_B` of them and `xo`: it reads the
    buffer, then its one store covers it. -/
theorem sound_kernel1_B (c : Dev nD) (E : Set ℕ) (i : grid1.Coords) (arg2 : Memref sig .tc .vmem S256x4096 .f32) (harg2 : arg2.IsWhole) (arg3 : Memref sig .tc .vmem S256x4096 .f32) (harg3 : arg3.IsWhole) (arg4 : Memref sig .tc .vmem S256x256 .f32) (harg4 : arg4.IsWhole) (arg5 : Memref sig .tc .vmem S256x128 .f32) (harg5 : arg5.IsWhole) (arg6 : Memref sig .tc .vmem S1x4096 .f32) (harg6 : arg6.IsWhole) (arg7 : Memref sig .tc .vmem S256x128 .f32) (harg7 : arg7.IsWhole) (arg8 : Memref sig .tc .vmem S1x128 .f32) (harg8 : arg8.IsWhole) (arg9 : Memref sig .tc .vmem S256x128 .f32) (harg9 : arg9.IsWhole)
    (hc1 : ¬k1_cond1 i = 1#1) (hc2 : k1_cond2 i = 1#1)
    (x0 : Vec F S256x4096 .f32) (x1 : Vec F S256x4096 .f32) (x2 : Vec F S256x256 .f32) (x3 : Vec F S256x128 .f32) (x4 : Vec F S1x4096 .f32) (x5 : Vec F S256x128 .f32) (x6 : Vec F S1x128 .f32) (xo : Vec F S256x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare xo
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (out1_B x0 x1 x2 x3 x4 xo)) -∗ K ⟨⟩))
      ⊢ wp frame (wpE (defs₀ (F := F)) Variants.none c none) E (cc1__node_kernel i arg2 harg2 arg3 harg3 arg4 harg4 arg5 harg5 arg6 harg6 arg7 harg7 arg8 harg8 arg9 harg9) K := by
  simp only [cc1__node_kernel_eq_skeleton]; unfold cc1__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  subst hf0; subst hf1; subst hf2; subst hf3; subst hf4; subst hf5; subst hf6; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ (dat1 V c).leavesExact 7 t)

set_option maxHeartbeats 1000000 in
/-- The body at any point: the inputs' memrefs hold their blocks; at j = 0 the output's buffer holds anything and the
    body resets it, at j ≠ 0 it holds what the point before left and the body adds to it; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).leavesExact 7 t = owns (c : Thread nD τ) (st1_7 t) fullShare ((dat1 V c).after 7 t) from by
    unfold Dat.leavesExact; rw [live1_7 t]]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  by_cases h0 : t.val % 8 = 0
  · rw [outsAt1_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_A c Set.univ (grid1.coords t) _ _ _ _ _ _ _ _ _ _ _ _ _ _ _ _ ((hcond1_1 t).mpr h0) (fun h => (hcond1_2 t).mp h h0)
      (iblk1 V c 0 t) (iblk1 V c 1 t) (iblk1 V c 2 t) (iblk1 V c 3 t) (iblk1 V c 4 t) (iblk1 V c 5 t) (iblk1 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt1_B V c t h0]
    simp only [before1_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel1_B c Set.univ (grid1.coords t) _ _ _ _ _ _ _ _ _ _ _ _ _ _ _ _ (fun h => h0 ((hcond1_1 t).mp h)) ((hcond1_2 t).mpr h0)
      (iblk1 V c 0 t) (iblk1 V c 1 t) (iblk1 V c 2 t) (iblk1 V c 3 t) (iblk1 V c 4 t) (iblk1 V c 5 t) (iblk1 V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for pipeline 1, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Fr

end
-- ==== Proof.KI.D2.lean ====
/-
  The edge region (grid 8×8, point (i, j), j the fast axis): what each window holds, as definitions over the contents
  `V` the region is entered with. Windows: 0 the incidence columns of block i (2048×512), 1 the incidence columns of block j,
  2 the edge Laplacian's tile (i, j) (512×512), 3 rows j of e·W_e (512×16), 4 the node weights (2048×1), 5 rows i of e,
  6 the bias (1×16), 7 the output rows i (512×16), accumulated over j. The body multiplies window 1's block by the
  weights and contracts window 0's block with it over the node axis.
-/
import proofs.«109357_g24051816857981_cont_8to1_1327_2_alg».proof.Proof.Gen.KernelIdeal.Launch
import proofs.«109357_g24051816857981_cont_8to1_1327_2_alg».proof.Proof.Gen.KernelIdeal.Skeleton
import proofs.«109357_g24051816857981_cont_8to1_1327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through, one per shape. -/
abbrev rc2_S2048x512 : Rect S2048x512 := Rect.unit (s := S2048x512) ![0, 0] S2048x512.size inb_S2048x512_S2048x512_0_0
abbrev rc2_S512x512 : Rect S512x512 := Rect.unit (s := S512x512) ![0, 0] S512x512.size inb_S512x512_S512x512_0_0
abbrev rc2_S512x16 : Rect S512x16 := Rect.unit (s := S512x16) ![0, 0] S512x16.size inb_S512x16_S512x16_0_0
abbrev rc2_S2048x1 : Rect S2048x1 := Rect.unit (s := S2048x1) ![0, 0] S2048x1.size inb_S2048x1_S2048x1_0_0
abbrev rc2_S1x16 : Rect S1x16 := Rect.unit (s := S1x16) ![0, 0] S1x16.size inb_S1x16_S1x16_0_0

/-- The output buffer after the body at a point with j = 0: one covering store of (residual + bias) + contribution,
    from the blocks of windows 0–6. -/
def out2_A (x0 : Vec F S2048x512 .f32) (x1 : Vec F S2048x512 .f32) (x2 : Vec F S512x512 .f32) (x3 : Vec F S512x16 .f32) (x4 : Vec F S2048x1 .f32)
    (x5 : Vec F S512x16 .f32) (x6 : Vec F S1x16 .f32) : Vec F S512x16 .f32 :=
  View.canon [⟨rc2_S512x16, k2_pay2 (View.ld x1 rc2_S2048x512) (View.ld x4 rc2_S2048x1) (View.ld x0 rc2_S2048x512) (View.ld x2 rc2_S512x512) (View.ld x3 rc2_S512x16) (View.ld x5 rc2_S512x16) (View.ld x6 rc2_S1x16)⟩]
/-- The output buffer after the body at a point with j ≠ 0: one covering store of (what the buffer held) + contribution. -/
def out2_B (x0 : Vec F S2048x512 .f32) (x1 : Vec F S2048x512 .f32) (x2 : Vec F S512x512 .f32) (x3 : Vec F S512x16 .f32) (x4 : Vec F S2048x1 .f32)
    (xo : Vec F S512x16 .f32) : Vec F S512x16 .f32 :=
  View.canon [⟨rc2_S512x16, k2_pay3 (View.ld x1 rc2_S2048x512) (View.ld x4 rc2_S2048x1) (View.ld x0 rc2_S2048x512) (View.ld x2 rc2_S512x512) (View.ld x3 rc2_S512x16) (View.ld xo rc2_S512x16)⟩]

/-- The offset vector of every rectangle above is zero. -/
theorem off2_zero2 : (![0, 0] : Fin 2 → Nat) = fun _ => 0 := funext fun a => by fin_cases a <;> rfl

/-- A covering store leaves its payload, and a whole load reads its buffer. -/
theorem out2_A_eq (x0 : Vec F S2048x512 .f32) (x1 : Vec F S2048x512 .f32) (x2 : Vec F S512x512 .f32) (x3 : Vec F S512x16 .f32) (x4 : Vec F S2048x1 .f32)
    (x5 : Vec F S512x16 .f32) (x6 : Vec F S1x16 .f32) : out2_A x0 x1 x2 x3 x4 x5 x6 = k2_pay2 x1 x4 x0 x2 x3 x5 x6 := by
  unfold out2_A; rw [View.canon_unit_zero off2_zero2]
  simp only [View.ld_unit_zero (S := S2048x512) off2_zero2, View.ld_unit_zero (S := S512x512) off2_zero2, View.ld_unit_zero (S := S512x16) off2_zero2,
    View.ld_unit_zero (S := S2048x1) off2_zero2, View.ld_unit_zero (S := S1x16) off2_zero2]
theorem out2_B_eq (x0 : Vec F S2048x512 .f32) (x1 : Vec F S2048x512 .f32) (x2 : Vec F S512x512 .f32) (x3 : Vec F S512x16 .f32) (x4 : Vec F S2048x1 .f32)
    (xo : Vec F S512x16 .f32) : out2_B x0 x1 x2 x3 x4 xo = k2_pay3 x1 x4 x0 x2 x3 xo := by
  unfold out2_B; rw [View.canon_unit_zero off2_zero2]
  simp only [View.ld_unit_zero (S := S2048x512) off2_zero2, View.ld_unit_zero (S := S512x512) off2_zero2, View.ld_unit_zero (S := S512x16) off2_zero2,
    View.ld_unit_zero (S := S2048x1) off2_zero2]

/-- The first branch of the body (reset: residual + bias + contribution) is taken exactly where j = 0, -/
theorem hcond2_1 : ∀ t : Fin cfg2.N, k2_cond1 (grid2.coords t) = 1#1 ↔ t.val % 8 = 0 :=
  (by decide +kernel : ∀ t : Fin grid2.N, k2_cond1 (grid2.coords t) = 1#1 ↔ t.val % 8 = 0)
/-- and the second (accumulate) exactly where j ≠ 0. -/
theorem hcond2_2 : ∀ t : Fin cfg2.N, k2_cond2 (grid2.coords t) = 1#1 ↔ ¬ t.val % 8 = 0 :=
  (by decide +kernel : ∀ t : Fin grid2.N, k2_cond2 (grid2.coords t) = 1#1 ↔ ¬ t.val % 8 = 0)

/-- THE ACCUMULATION. What the output's staging buffer holds after the body at position `n` of the grid's
    row-major order (n = 8·i + j): at j = 0 the reset, otherwise the contribution added to what position n − 1 left
    (the buffer is not written back in between: the block index (i, 0) does not move along j). -/
def outsAt2 (c : Dev nD) : (n : ℕ) → n < cfg2.N → Vec F S512x16 .f32
  | 0, hn => out2_A (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)
  | n + 1, hn =>
    if (n + 1) % 8 = 0 then
      out2_A (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩)
    else
      out2_B (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

/-- `outsAt2` at a point with j = 0. -/
theorem outsAt2_A (c : Dev nD) (t : Fin cfg2.N) (h0 : t.val % 8 = 0) :
    outsAt2 V c t.val t.isLt = out2_A (iblk2 V c 0 t) (iblk2 V c 1 t) (iblk2 V c 2 t) (iblk2 V c 3 t) (iblk2 V c 4 t) (iblk2 V c 5 t) (iblk2 V c 6 t) := by
  obtain ⟨n, hn⟩ := t
  cases n with
  | zero => exact rfl
  | succ n => exact (if_pos h0).trans rfl

/-- `outsAt2` at a point with j ≠ 0: over what the point before left. -/
theorem outsAt2_B (c : Dev nD) (t : Fin cfg2.N) (h0 : ¬t.val % 8 = 0) :
    outsAt2 V c t.val t.isLt = out2_B (iblk2 V c 0 t) (iblk2 V c 1 t) (iblk2 V c 2 t) (iblk2 V c 3 t) (iblk2 V c 4 t)
      (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-- The proof data of pipeline 2 on core `c`: the arrays as the region finds them; after the body each input's
    buffer at its block and the output's at `outsAt2`; the invariant is the scoped rest and the generator register;
    nothing owed. Windows 0 and 1 read ONE array (the incidence matrix, at different blocks): each holds half of it. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outsAt2 V c t.val t.isLt
  Φ _ := Pipeline.ΦA spec2 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outsAt2 V c t.val t.isLt := by dsimp only [dat2]

end Cert.KernelIdeal.Fr

end
-- ==== Proof.KI.R2.lean ====
/-
  Region 2: the body obligation.
-/
import proofs.«109357_g24051816857981_cont_8to1_1327_2_alg».proof.Proof.KI.D2

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The output window is live at every point

Its idle table is "neither branch taken"; the two branch conditions test the fast coordinate j against zero with
opposite comparisons, so one of them holds whatever j is. -/

theorem live2_7 (i : cfg2.grid.Coords) : cfg2.idle 7 i = false := by
  show (!(k2_cond1 i == 1#1) && !(k2_cond2 i == 1#1)) = false
  unfold k2_cond1 k2_cond2
  generalize i 1 = j
  revert j
  decide

/-! ## What the body finds in the input windows' buffers

An input's current buffer holds the window's block at the point, whether the point fetched it or the block index
stood still since the last fetch: the body only reads these buffers, every window is uncut and none is ever idle. -/

theorem before2_0 (c : Dev nD) (t : Fin cfg2.N) (d) : (dat2 V c).before 0 t d = iblk2 V c 0 t := by
  refine ((dat2 V c).before_in_eq_fetched 0 rfl (fun _ => rfl) (fun _ _ _ => rfl) (fun s => ?_) t d).trans ?_
  · rw [after2_0]; unfold Dat.blockOf iblk2; rw [A_eq2]; try rfl
  · unfold Dat.fetched Dat.blockOf iblk2; rw [A_eq2]; try rfl
theorem before2_1 (c : Dev nD) (t : Fin cfg2.N) (d) : (dat2 V c).before 1 t d = iblk2 V c 1 t := by
  refine ((dat2 V c).before_in_eq_fetched 1 rfl (fun _ => rfl) (fun _ _ _ => rfl) (fun s => ?_) t d).trans ?_
  · rw [after2_1]; unfold Dat.blockOf iblk2; rw [A_eq2]; try rfl
  · unfold Dat.fetched Dat.blockOf iblk2; rw [A_eq2]; try rfl
theorem before2_2 (c : Dev nD) (t : Fin cfg2.N) (d) : (dat2 V c).before 2 t d = iblk2 V c 2 t := by
  refine ((dat2 V c).before_in_eq_fetched 2 rfl (fun _ => rfl) (fun _ _ _ => rfl) (fun s => ?_) t d).trans ?_
  · rw [after2_2]; unfold Dat.blockOf iblk2; rw [A_eq2]; try rfl
  · unfold Dat.fetched Dat.blockOf iblk2; rw [A_eq2]; try rfl
theorem before2_3 (c : Dev nD) (t : Fin cfg2.N) (d) : (dat2 V c).before 3 t d = iblk2 V c 3 t := by
  refine ((dat2 V c).before_in_eq_fetched 3 rfl (fun _ => rfl) (fun _ _ _ => rfl) (fun s => ?_) t d).trans ?_
  · rw [after2_3]; unfold Dat.blockOf iblk2; rw [A_eq2]; try rfl
  · unfold Dat.fetched Dat.blockOf iblk2; rw [A_eq2]; try rfl
theorem before2_4 (c : Dev nD) (t : Fin cfg2.N) (d) : (dat2 V c).before 4 t d = iblk2 V c 4 t := by
  refine ((dat2 V c).before_in_eq_fetched 4 rfl (fun _ => rfl) (fun _ _ _ => rfl) (fun s => ?_) t d).trans ?_
  · rw [after2_4]; unfold Dat.blockOf iblk2; rw [A_eq2]; try rfl
  · unfold Dat.fetched Dat.blockOf iblk2; rw [A_eq2]; try rfl
theorem before2_5 (c : Dev nD) (t : Fin cfg2.N) (d) : (dat2 V c).before 5 t d = iblk2 V c 5 t := by
  refine ((dat2 V c).before_in_eq_fetched 5 rfl (fun _ => rfl) (fun _ _ _ => rfl) (fun s => ?_) t d).trans ?_
  · rw [after2_5]; unfold Dat.blockOf iblk2; rw [A_eq2]; try rfl
  · unfold Dat.fetched Dat.blockOf iblk2; rw [A_eq2]; try rfl
theorem before2_6 (c : Dev nD) (t : Fin cfg2.N) (d) : (dat2 V c).before 6 t d = iblk2 V c 6 t := by
  refine ((dat2 V c).before_in_eq_fetched 6 rfl (fun _ => rfl) (fun _ _ _ => rfl) (fun s => ?_) t d).trans ?_
  · rw [after2_6]; unfold Dat.blockOf iblk2; rw [A_eq2]; try rfl
  · unfold Dat.fetched Dat.blockOf iblk2; rw [A_eq2]; try rfl

/-! ## What the body finds in the output's buffer where j ≠ 0

Such a point is not the first; the point before it has j ≠ 7, so it did not write the block back; hence the buffer
still holds what the body left there. -/

theorem before2_7_B (c : Dev nD) (t : Fin cfg2.N) (h0 : ¬t.val % 8 = 0) (d) :
    (dat2 V c).before 7 t d = outsAt2 V c (t.val - 1) (Nat.lt_of_le_of_lt (Nat.sub_le _ _) t.isLt) := by
  have hfl : (cfg2.win 7).flush ⟨t.val - 1, Nat.lt_of_le_of_lt (Nat.sub_le _ _) t.isLt⟩ = false :=
    Bool.eq_false_iff.mpr fun h => by
      have h7 := (flush2_7 _).mp h
      dsimp only at h7
      omega
  rw [Dat.before_out_kept _ 7 rfl t (by omega) hfl live2_7 (fun _ _ => rfl)]
  exact after2_7 V c _

/-! ## The one store covers the output buffer -/

theorem cover2_out (p : Vec F S512x16 .f32) (y : S512x16.Idx) :
    ∃ pc ∈ ([⟨rc2_S512x16, p⟩] : List (View.Piece (Elt F) S512x16 .f32)), y ∈ pc.1.set :=
  ⟨_, List.mem_singleton_self _, View.mem_set_unit_zero off2_zero2 inb_S512x16_S512x16_0_0 y⟩

/-! ## The body's triple where j = 0

On whole buffers, the seven inputs at given contents and the output at anything, with the first branch taken and
the second not, the body runs to a state where the inputs are as they were and the output holds the reset value. -/

set_option maxHeartbeats 1000000 in
theorem sound_kernel2_A (c : Dev nD) (E : Set ℕ) (i : grid2.Coords) (a0 : Memref sig .tc .vmem S2048x512 .f32) (w0 : a0.IsWhole) (a1 : Memref sig .tc .vmem S2048x512 .f32) (w1 : a1.IsWhole) (a2 : Memref sig .tc .vmem S512x512 .f32) (w2 : a2.IsWhole) (a3 : Memref sig .tc .vmem S512x16 .f32) (w3 : a3.IsWhole) (a4 : Memref sig .tc .vmem S2048x1 .f32) (w4 : a4.IsWhole) (a5 : Memref sig .tc .vmem S512x16 .f32) (w5 : a5.IsWhole) (a6 : Memref sig .tc .vmem S1x16 .f32) (w6 : a6.IsWhole) (a7 : Memref sig .tc .vmem S512x16 .f32) (w7 : a7.IsWhole)
    (hc1 : k2_cond1 i = 1#1) (hc2 : ¬k2_cond2 i = 1#1)
    (x0 : Vec F S2048x512 .f32) (x1 : Vec F S2048x512 .f32) (x2 : Vec F S512x512 .f32) (x3 : Vec F S512x16 .f32) (x4 : Vec F S2048x1 .f32) (x5 : Vec F S512x16 .f32) (x6 : Vec F S1x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare (out2_A x0 x1 x2 x3 x4 x5 x6)) -∗ K ⟨⟩))
      ⊢ wp frame (wpE (defs₀ (F := F)) Variants.none c none) E (cc2__edge_kernel i a0 w0 a1 w1 a2 w2 a3 w3 a4 w4 a5 w5 a6 w6 a7 w7) K := by
  simp only [cc2__edge_kernel_eq_skeleton]; unfold cc2__edge_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%d7, %f7, -, H7⟩, Hk⟩
  subst e0 e1 e2 e3 e4 e5 e6
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  unfold out2_A
  exact View.read_writes_eq_canon _ _ _ (cover2_out _)

/-! ## The body's triple where j ≠ 0

Here the second branch runs: it reads the output's buffer, at given contents `xo`, before it stores; the buffers of
windows 5 and 6 are not touched and stay out of the triple. -/

set_option maxHeartbeats 1000000 in
theorem sound_kernel2_B (c : Dev nD) (E : Set ℕ) (i : grid2.Coords) (a0 : Memref sig .tc .vmem S2048x512 .f32) (w0 : a0.IsWhole) (a1 : Memref sig .tc .vmem S2048x512 .f32) (w1 : a1.IsWhole) (a2 : Memref sig .tc .vmem S512x512 .f32) (w2 : a2.IsWhole) (a3 : Memref sig .tc .vmem S512x16 .f32) (w3 : a3.IsWhole) (a4 : Memref sig .tc .vmem S2048x1 .f32) (w4 : a4.IsWhole) (a5 : Memref sig .tc .vmem S512x16 .f32) (w5 : a5.IsWhole) (a6 : Memref sig .tc .vmem S1x16 .f32) (w6 : a6.IsWhole) (a7 : Memref sig .tc .vmem S512x16 .f32) (w7 : a7.IsWhole)
    (hc1 : ¬k2_cond1 i = 1#1) (hc2 : k2_cond2 i = 1#1)
    (x0 : Vec F S2048x512 .f32) (x1 : Vec F S2048x512 .f32) (x2 : Vec F S512x512 .f32) (x3 : Vec F S512x16 .f32) (x4 : Vec F S2048x1 .f32) (xo : Vec F S512x16 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a7 fullShare xo
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a7 fullShare (out2_B x0 x1 x2 x3 x4 xo)) -∗ K ⟨⟩))
      ⊢ wp frame (wpE (defs₀ (F := F)) Variants.none c none) E (cc2__edge_kernel i a0 w0 a1 w1 a2 w2 a3 w3 a4 w4 a5 w5 a6 w6 a7 w7) K := by
  simp only [cc2__edge_kernel_eq_skeleton]; unfold cc2__edge_kernel_skel
  unfold owns
  iintro ⟨⟨%f0, %e0, H0⟩, ⟨%f1, %e1, H1⟩, ⟨%f2, %e2, H2⟩, ⟨%f3, %e3, H3⟩, ⟨%f4, %e4, H4⟩, ⟨%f7, %e7, H7⟩, Hk⟩
  subst e0 e1 e2 e3 e4 e7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H7
  ipureintro
  unfold out2_B
  exact View.read_writes_eq_canon _ _ _ (cover2_out _)

/-! ## The body obligation at a point, the windows written out -/

/-- What the body is handed at point `t`: the invariant, the core's debts, each window's current buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it hands back: the same at the next point, each buffer at what the proof data says the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

set_option maxHeartbeats 800000 in
/-- The inputs' buffers hold their blocks; the point's j decides which branch runs; where j ≠ 0 the output's buffer holds
    what the point before left; so the matching triple applies, and the invariant and the debts pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  by_cases h0 : t.val % 8 = 0
  · rw [outsAt2_A V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_A c Set.univ (grid2.coords t) _ _ _ _ _ _ _ _ _ _ _ _ _ _ _ _ ((hcond2_1 t).mpr h0) (fun h => (hcond2_2 t).mp h h0)
      (iblk2 V c 0 t) (iblk2 V c 1 t) (iblk2 V c 2 t) (iblk2 V c 3 t) (iblk2 V c 4 t) (iblk2 V c 5 t) (iblk2 V c 6 t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [outsAt2_B V c t h0]
    simp only [before2_7_B V c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel2_B c Set.univ (grid2.coords t) _ _ _ _ _ _ _ _ _ _ _ _ _ _ _ _ (fun h => h0 ((hcond2_1 t).mp h)) ((hcond2_2 t).mpr h0)
      (iblk2 V c 0 t) (iblk2 V c 1 t) (iblk2 V c 2 t) (iblk2 V c 3 t) (iblk2 V c 4 t) _ _)
    isplitl [H0]; · iexact H0
    isplitl [H1]; · iexact H1
    isplitl [H2]; · iexact H2
    isplitl [H3]; · iexact H3
    isplitl [H4]; · iexact H4
    isplitl [H7]; · iexact H7
    iintro ⟨H0, H1, H2, H3, H4, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation for pipeline 2, at every grid point. -/
theorem body_obligation2 (c : Dev nD) : BodyObligation (dat2 (F := F) V c) (defs₀ (F := F)) Variants.none () Set.univ := fun t => by
  rw [bigSep_W2, bigSep_W2]
  rw [live2_7 (cfg2.grid.coords t)]
  exact sound_body2 V c t

end Cert.KernelIdeal.Fr

end
-- ==== Proof.KI.Run.lean ====
/-
  The run of the whole program: host stretch, then the three kernel regions, each entered from what the one before
  left. Between two items every unscoped buffer of a core is held whole at a named valuation:
    launch contents → after the two reshapes of the biases → region 0's four results written
      → region 1's result (the node output) written → region 2's result (the edge output) written.
  Regions 1 and 2 each read the incidence matrix through TWO windows; the array's full share is split in two
  halves at the region's entry and joined again at its exit (both windows end holding the contents they began with).
  The body obligations of the three pipelines are hypotheses here; the run's post names the two result arrays
  and says every argument array ends as launched.
-/
import proofs.«109357_g24051816857981_cont_8to1_1327_2_alg».proof.Proof.Gen.KernelIdeal.Launch
import proofs.«109357_g24051816857981_cont_8to1_1327_2_alg».proof.Proof.Gen.KernelIdeal.Skeleton
import proofs.«109357_g24051816857981_cont_8to1_1327_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«109357_g24051816857981_cont_8to1_1327_2_alg».proof.Proof.Gen.KernelIdeal.Regions
import proofs.«109357_g24051816857981_cont_8to1_1327_2_alg».proof.Proof.KI.D0
import proofs.«109357_g24051816857981_cont_8to1_1327_2_alg».proof.Proof.KI.D1
import proofs.«109357_g24051816857981_cont_8to1_1327_2_alg».proof.Proof.KI.D2
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between items -/

/-- After the host stretch (region 0's entry), read at the TensorCore's references. -/
abbrev E1 (c : Dev nD) (b : Ref sig .tc) : Buf (Elt F) ((c : Thread nD τ).loc b) := V1 m c b

/-- At region 0's exit: its four output arrays at what the pipeline leaves, everything else as entered. -/
def W2 (c : Dev nD) : Valuation τ sig (Elt F) :=
  Pipeline.withArrays spec0 c (V1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = V1 m c (Proc.devRef .tc b) := by
  unfold W2; exact Pipeline.withArrays_of_ne spec0 c _ _ b hb
abbrev E2 (c : Dev nD) (b : Ref sig .tc) : Buf (Elt F) ((c : Thread nD τ).loc b) := W2 m c b
theorem hF0 (c : Dev nD) (w : Fin cfg0.W) : (dat0 (E1 m) c).arrAt w cfg0.N = E2 m c (Pipeline.arrRef spec0 w) :=
  (W2_arr m c w).symm
theorem hrest0 (c : Dev nD) : ∀ b, b ∉ Finset.univ.image (Pipeline.arrRef spec0) → E2 m c b = E1 m c b :=
  fun b hb => W2_of_ne m c b fun w e => hb (Finset.mem_image.mpr ⟨w, Finset.mem_univ _, e⟩)

/-- At region 1's exit: the node output written, everything else as entered. -/
def W3 (c : Dev nD) : Valuation τ sig (Elt F) :=
  Function.update (W2 m c) (Proc.devRef .tc main_v3) ((dat1 (E2 m) c).arrAt 7 cfg1.N)
abbrev E3 (c : Dev nD) (b : Ref sig .tc) : Buf (Elt F) ((c : Thread nD τ).loc b) := W3 m c b
theorem E3_main_v3 (c : Dev nD) : E3 m c main_v3 = (dat1 (E2 m) c).arrAt 7 cfg1.N := by
  unfold E3 W3; exact Function.update_self _ _ _
theorem E3_of_ne (c : Dev nD) (b : Ref sig .tc) (hb : b ≠ main_v3) : E3 m c b = E2 m c b := by
  unfold E3 W3; exact Function.update_of_ne (StableHlo.devRef_ne_of_ne hb) _ _

/-- At region 2's exit: the edge output written, everything else as entered. -/
def W4 (c : Dev nD) : Valuation τ sig (Elt F) :=
  Function.update (W3 m c) (Proc.devRef .tc main_v4) ((dat2 (E3 m) c).arrAt 7 cfg2.N)
abbrev E4 (c : Dev nD) (b : Ref sig .tc) : Buf (Elt F) ((c : Thread nD τ).loc b) := W4 m c b
theorem E4_main_v4 (c : Dev nD) : E4 m c main_v4 = (dat2 (E3 m) c).arrAt 7 cfg2.N := by
  unfold E4 W4; exact Function.update_self _ _ _
theorem E4_of_ne (c : Dev nD) (b : Ref sig .tc) (hb : b ≠ main_v4) : E4 m c b = E3 m c b := by
  unfold E4 W4; exact Function.update_of_ne (StableHlo.devRef_ne_of_ne hb) _ _

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`, at nothing. -/
abbrev R (c : Dev nD) : sProp 𝕄 := iprop((∃ r, prngReg c r) ∗ ∃ W, owes (c : Thread nD τ) (0 : CellTallies nD τ sig Unit) W)

/-- The host stretch (the two bias reshapes) as a segment over every unscoped buffer, from the launch contents. -/
abbrev hseg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-! ## Region 0 as a segment (its arrays are pairwise distinct: each held whole) -/

section Reg0
variable (hb0 : ∀ c : Dev nD, BodyObligation (dat0 (F := F) (E1 m) c) (defs₀ (F := F)) Variants.none () Set.univ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg0

/-! ## Region 1: one array behind two windows -/

section Shared1
variable (c : Dev nD) (Vd : (c : Dev nD) → (b : Ref sig .tc) → Buf (Elt F) ((c : Thread nD τ).loc b))

/-- The distinct buffers behind region 1's eight windows, one by one. -/
theorem arrBufs1_eq (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg3) ↦{fullShare} V' main_arg3) ∗ (((c : Thread nD τ).loc main_arg1) ↦{fullShare} V' main_arg1)
          ∗ (((c : Thread nD τ).loc main_v2_2) ↦{fullShare} V' main_v2_2) ∗ (((c : Thread nD τ).loc main_v2_0) ↦{fullShare} V' main_v2_0)
          ∗ (((c : Thread nD τ).loc main_arg0) ↦{fullShare} V' main_arg0) ∗ (((c : Thread nD τ).loc main_v0) ↦{fullShare} V' main_v0)
          ∗ (((c : Thread nD τ).loc main_v3) ↦{fullShare} V' main_v3)) := by
  unfold Pipeline.arrBufs
  exact bigSep_eq_bigSepL_of_eq [main_arg3, main_arg1, main_v2_2, main_v2_0, main_arg0, main_v0, main_v3] (by decide) (by decide) _

/-- The shares the eight windows hold their arrays at: the two windows on the incidence matrix a half each. -/
theorem share1_0 : (dat1 (F := F) Vd c).share 0 = fullShare.left := rfl
theorem share1_1 : (dat1 (F := F) Vd c).share 1 = fullShare.right := rfl
theorem share1_2 : (dat1 (F := F) Vd c).share 2 = fullShare := rfl
theorem share1_3 : (dat1 (F := F) Vd c).share 3 = fullShare := rfl
theorem share1_4 : (dat1 (F := F) Vd c).share 4 = fullShare := rfl
theorem share1_5 : (dat1 (F := F) Vd c).share 5 = fullShare := rfl
theorem share1_6 : (dat1 (F := F) Vd c).share 6 = fullShare := rfl
theorem share1_7 : (dat1 (F := F) Vd c).share 7 = fullShare := rfl

/-- The pipeline's arrays, window by window. -/
theorem arrays1_eq (F' : (w : Fin cfg1.W) → Buf (Elt F) ((cfg1.win w).arr.view.loc (c : Thread nD τ))) :
    ((dat1 (F := F) Vd c).arrays F' : sProp 𝕄)
      = iprop((((c : Thread nD τ).loc main_arg3) ↦{fullShare.left} F' 0) ∗ (((c : Thread nD τ).loc main_arg3) ↦{fullShare.right} F' 1)
          ∗ (((c : Thread nD τ).loc main_arg1) ↦{fullShare} F' 2) ∗ (((c : Thread nD τ).loc main_v2_2) ↦{fullShare} F' 3)
          ∗ (((c : Thread nD τ).loc main_v2_0) ↦{fullShare} F' 4) ∗ (((c : Thread nD τ).loc main_arg0) ↦{fullShare} F' 5)
          ∗ (((c : Thread nD τ).loc main_v0) ↦{fullShare} F' 6) ∗ (((c : Thread nD τ).loc main_v3) ↦{fullShare} F' 7)) := by
  unfold Dat.arrays
  rw [show (bigSep Finset.univ fun w : Fin cfg1.W =>
        ((cfg1.win w).arr.view.loc (c : Thread nD τ) ↦[(cfg1.win w).arr.view.set]{(dat1 (F := F) Vd c).share w} F' w : sProp 𝕄))
      = bigSep Finset.univ fun w : Fin cfg1.W =>
        ((cfg1.win w).arr.view.loc (c : Thread nD τ) ↦{(dat1 (F := F) Vd c).share w} F' w : sProp 𝕄)
    from bigSep_congr fun w _ => by rw [(arr_whole1 w).set_eq_univ]]
  rw [bigSep_W1, share1_0, share1_1, share1_2, share1_3, share1_4, share1_5, share1_6, share1_7]

/-- ENTRY: the buffers held whole make the pipeline's arrays, the incidence matrix's full share split in two halves. -/
theorem arrays1_of_bufs (V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) :
    (Pipeline.arrBufs (Ix := Unit) (Name := ℕ) (U := UR sig nD τ) (Lvl := ℕ) spec1 c V' : sProp 𝕄) ⊢ (dat1 (F := F) Vd c).arrays F' := by
  rw [arrBufs1_eq, arrays1_eq, hF 0, hF 1, hF 2, hF 3, hF 4, hF 5, hF 6, hF 7]
  iintro ⟨H3, H1, H22, H20, H0, Hv0, Hv3⟩
  ihave H := (pointsTo_share (PosShare.mem_left_op_right fullShare)).1 $$ H3
  icases H with ⟨Ha, Hb⟩
  isplitl [Ha]; · iexact Ha
  isplitl [Hb]; · iexact Hb
  isplitl [H1]; · iexact H1
  isplitl [H22]; · iexact H22
  isplitl [H20]; · iexact H20
  isplitl [H0]; · iexact H0
  isplitl [Hv0]; · iexact Hv0
  iexact Hv3

/-- EXIT: the pipeline's arrays make the buffers held whole again, the two halves of the incidence matrix joined. -/
theorem bufs_of_arrays1 (V' : (b : Ref sig .tc) → Buf (Elt F) ((c : Thread nD τ).loc b))
    (F' : (w : Fin cfg1.W) → Buf (Elt F) ((cfg1.win w).arr.view.loc (c : Thread nD τ)))
    (hF : ∀ w, F' w = V' (Pipeline.arrRef spec1 w)) :
    ((dat1 (F := F) Vd c).arrays F' : sProp 𝕄) ⊢ Pipeline.arrBufs (Ix := Unit) (Name := ℕ) (U := UR sig nD τ) (Lvl := ℕ) spec1 c V' := by
  rw [arrBufs1_eq, arrays1_eq, hF 0, hF 1, hF 2, hF 3, hF 4, hF 5, hF 6, hF 7]
  iintro ⟨Ha, Hb, H1, H22, H20, H0, Hv0, Hv3⟩
  isplitl [Ha Hb]
  · iapply (pointsTo_share (PosShare.mem_left_op_right fullShare)).2
    isplitl [Ha]; · iexact Ha
    iexact Hb
  isplitl [H1]; · iexact H1
  isplitl [H22]; · iexact H22
  isplitl [H20]; · iexact H20
  isplitl [H0]; · iexact H0
  isplitl [Hv0]; · iexact Hv0
  iexact Hv3
end Shared1

/-! ## Region 2: one array behind two windows -/

section Shared2
variable (c : Dev nD) (Vd : (c : Dev nD) → (b : Ref sig .tc) → Buf (Elt F) ((c : Thread nD τ).loc b))

/-- The distinct buffers behind region 2's eight windows, one by one. -/
theorem arrBufs2_eq (V' : (b : Ref sig .tc) → Buf (Elt F) ((c : Thread nD τ).loc b)) :
    (Pipeline.arrBufs (Ix := Unit) (Name := ℕ) (U := UR sig nD τ) (Lvl := ℕ) spec2 c V' : sProp 𝕄)
      = iprop((((c : Thread nD τ).loc main_arg3) ↦{fullShare} V' main_arg3) ∗ (((c : Thread nD τ).loc main_arg2) ↦{fullShare} V' main_arg2)
          ∗ (((c : Thread nD τ).loc main_v2_3) ↦{fullShare} V' main_v2_3) ∗ (((c : Thread nD τ).loc main_v2_1) ↦{fullShare} V' main_v2_1)
          ∗ (((c : Thread nD τ).loc main_arg4) ↦{fullShare} V' main_arg4) ∗ (((c : Thread nD τ).loc main_v1) ↦{fullShare} V' main_v1)
          ∗ (((c : Thread nD τ).loc main_v4) ↦{fullShare} V' main_v4)) := by
  unfold Pipeline.arrBufs
  exact bigSep_eq_bigSepL_of_eq [main_arg3, main_arg2, main_v2_3, main_v2_1, main_arg4, main_v1, main_v4] (by decide) (by decide) _

/-- The shares the eight windows hold their arrays at: the two windows on the incidence matrix a half each. -/
theorem share2_0 : (dat2 (F := F) Vd c).share 0 = fullShare.left := rfl
theorem share2_1 : (dat2 (F := F) Vd c).share 1 = fullShare.right := rfl
theorem share2_2 : (dat2 (F := F) Vd c).share 2 = fullShare := rfl
theorem share2_3 : (dat2 (F := F) Vd c).share 3 = fullShare := rfl
theorem share2_4 : (dat2 (F := F) Vd c).share 4 = fullShare := rfl
theorem share2_5 : (dat2 (F := F) Vd c).share 5 = fullShare := rfl
theorem share2_6 : (dat2 (F := F) Vd c).share 6 = fullShare := rfl
theorem share2_7 : (dat2 (F := F) Vd c).share 7 = fullShare := rfl

/-- The pipeline's arrays, window by window. -/
theorem arrays2_eq (F' : (w : Fin cfg2.W) → Buf (Elt F) ((cfg2.win w).arr.view.loc (c : Thread nD τ))) :
    ((dat2 (F := F) Vd c).arrays F' : sProp 𝕄)
      = iprop((((c : Thread nD τ).loc main_arg3) ↦{fullShare.left} F' 0) ∗ (((c : Thread nD τ).loc main_arg3) ↦{fullShare.right} F' 1)
          ∗ (((c : Thread nD τ).loc main_arg2) ↦{fullShare} F' 2) ∗ (((c : Thread nD τ).loc main_v2_3) ↦{fullShare} F' 3)
          ∗ (((c : Thread nD τ).loc main_v2_1) ↦{fullShare} F' 4) ∗ (((c : Thread nD τ).loc main_arg4) ↦{fullShare} F' 5)
          ∗ (((c : Thread nD τ).loc main_v1) ↦{fullShare} F' 6) ∗ (((c : Thread nD τ).loc main_v4) ↦{fullShare} F' 7)) := by
  unfold Dat.arrays
  rw [show (bigSep Finset.univ fun w : Fin cfg2.W =>
        ((cfg2.win w).arr.view.loc (c : Thread nD τ) ↦[(cfg2.win w).arr.view.set]{(dat2 (F := F) Vd c).share w} F' w : sProp 𝕄))
      = bigSep Finset.univ fun w : Fin cfg2.W =>
        ((cfg2.win w).arr.view.loc (c : Thread nD τ) ↦{(dat2 (F := F) Vd c).share w} F' w : sProp 𝕄)
    from bigSep_congr fun w _ => by rw [(arr_whole2 w).set_eq_univ]]
  rw [bigSep_W2, share2_0, share2_1, share2_2, share2_3, share2_4, share2_5, share2_6, share2_7]

/-- ENTRY: the buffers held whole make the pipeline's arrays, the incidence matrix's full share split in two halves. -/
theorem arrays2_of_bufs (V' : (b : Ref sig .tc) → Buf (Elt F) ((c : Thread nD τ).loc b))
    (F' : (w : Fin cfg2.W) → Buf (Elt F) ((cfg2.win w).arr.view.loc (c : Thread nD τ)))
    (hF : ∀ w, F' w = V' (Pipeline.arrRef spec2 w)) :
    (Pipeline.arrBufs (Ix := Unit) (Name := ℕ) (U := UR sig nD τ) (Lvl := ℕ) spec2 c V' : sProp 𝕄) ⊢ (dat2 (F := F) Vd c).arrays F' := by
  rw [arrBufs2_eq, arrays2_eq, hF 0, hF 1, hF 2, hF 3, hF 4, hF 5, hF 6, hF 7]
  iintro ⟨H3, H1, H22, H20, H0, Hv0, Hv3⟩
  ihave H := (pointsTo_share (PosShare.mem_left_op_right fullShare)).1 $$ H3
  icases H with ⟨Ha, Hb⟩
  isplitl [Ha]; · iexact Ha
  isplitl [Hb]; · iexact Hb
  isplitl [H1]; · iexact H1
  isplitl [H22]; · iexact H22
  isplitl [H20]; · iexact H20
  isplitl [H0]; · iexact H0
  isplitl [Hv0]; · iexact Hv0
  iexact Hv3

/-- EXIT: the pipeline's arrays make the buffers held whole again, the two halves of the incidence matrix joined. -/
theorem bufs_of_arrays2 (V' : (b : Ref sig .tc) → Buf (Elt F) ((c : Thread nD τ).loc b))
    (F' : (w : Fin cfg2.W) → Buf (Elt F) ((cfg2.win w).arr.view.loc (c : Thread nD τ)))
    (hF : ∀ w, F' w = V' (Pipeline.arrRef spec2 w)) :
    ((dat2 (F := F) Vd c).arrays F' : sProp 𝕄) ⊢ Pipeline.arrBufs (Ix := Unit) (Name := ℕ) (U := UR sig nD τ) (Lvl := ℕ) spec2 c V' := by
  rw [arrBufs2_eq, arrays2_eq, hF 0, hF 1, hF 2, hF 3, hF 4, hF 5, hF 6, hF 7]
  iintro ⟨Ha, Hb, H1, H22, H20, H0, Hv0, Hv3⟩
  isplitl [Ha Hb]
  · iapply (pointsTo_share (PosShare.mem_left_op_right fullShare)).2
    isplitl [Ha]; · iexact Ha
    iexact Hb
  isplitl [H1]; · iexact H1
  isplitl [H22]; · iexact H22
  isplitl [H20]; · iexact H20
  isplitl [H0]; · iexact H0
  isplitl [Hv0]; · iexact Hv0
  iexact Hv3
end Shared2

/-! ## Region 1 as a segment -/

/-- At region 1's exit each of its arrays holds what the valuation after it says: the inputs what they held (an input
    array is never written), the output what the write-backs leave. -/
theorem hF1 (c : Dev nD) : ∀ w : Fin cfg1.W, (dat1 (E2 m) c).arrAt w cfg1.N = E3 m c (Pipeline.arrRef spec1 w)
  | ⟨0, _⟩ => ((dat1 (E2 m) c).arrAt_in 0 rfl _).trans ((A_eq1 (E2 m) c 0).trans (E3_of_ne m c _ (by decide)).symm)
  | ⟨1, _⟩ => ((dat1 (E2 m) c).arrAt_in 1 rfl _).trans ((A_eq1 (E2 m) c 1).trans (E3_of_ne m c _ (by decide)).symm)
  | ⟨2, _⟩ => ((dat1 (E2 m) c).arrAt_in 2 rfl _).trans ((A_eq1 (E2 m) c 2).trans (E3_of_ne m c _ (by decide)).symm)
  | ⟨3, _⟩ => ((dat1 (E2 m) c).arrAt_in 3 rfl _).trans ((A_eq1 (E2 m) c 3).trans (E3_of_ne m c _ (by decide)).symm)
  | ⟨4, _⟩ => ((dat1 (E2 m) c).arrAt_in 4 rfl _).trans ((A_eq1 (E2 m) c 4).trans (E3_of_ne m c _ (by decide)).symm)
  | ⟨5, _⟩ => ((dat1 (E2 m) c).arrAt_in 5 rfl _).trans ((A_eq1 (E2 m) c 5).trans (E3_of_ne m c _ (by decide)).symm)
  | ⟨6, _⟩ => ((dat1 (E2 m) c).arrAt_in 6 rfl _).trans ((A_eq1 (E2 m) c 6).trans (E3_of_ne m c _ (by decide)).symm)
  | ⟨7, _⟩ => (E3_main_v3 m c).symm
  | ⟨_ + 8, h⟩ => absurd h (Nat.not_lt.2 (Nat.le_add_left _ _))
/-- Off region 1's arrays nothing changes. -/
theorem hrest1 (c : Dev nD) : ∀ b, b ∉ Finset.univ.image (Pipeline.arrRef spec1) → E3 m c b = E2 m c b :=
  fun b hb => E3_of_ne m c b fun e => hb (e ▸ Finset.mem_image.mpr ⟨7, Finset.mem_univ _, rfl⟩)

section Reg1
variable (hb1 : ∀ c : Dev nD, BodyObligation (dat1 (F := F) (E2 m) c) (defs₀ (F := F)) Variants.none () Set.univ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit : (unscopedBufs c (E2 m c) : sProp 𝕄)
        ⊢ iprop((pdats m 1 c).arrays ((pdats m 1 c).arrAt · 0) ∗ Pipeline.unscopedRest spec1 c (E2 m c)) := by
      rw [Pipeline.unscopedBufs_split₀ (Pipeline.pin (pcfgs (F := F)) adm) 1 winFacts₀1.arr_unscoped c (E2 m c)]
      exact sep_mono (arrays1_of_bufs c (E2 m) (E2 m c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (E2 m c))
        ⊢ (unscopedBufs c (E3 m c) : sProp 𝕄) := by
      rw [Pipeline.unscopedBufs_split₀ (Pipeline.pin (pcfgs (F := F)) adm) 1 winFacts₀1.arr_unscoped c (E3 m c)]
      refine sep_mono (bufs_of_arrays1 c (E2 m) (E3 m c) _ (hF1 m c)) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
end Reg1

/-! ## Region 2 as a segment -/

/-- At region 2's exit each of its arrays holds what the valuation after it says: the inputs what they held (an input
    array is never written), the output what the write-backs leave. -/
theorem hF2 (c : Dev nD) : ∀ w : Fin cfg2.W, (dat2 (E3 m) c).arrAt w cfg2.N = E4 m c (Pipeline.arrRef spec2 w)
  | ⟨0, _⟩ => ((dat2 (E3 m) c).arrAt_in 0 rfl _).trans ((A_eq2 (E3 m) c 0).trans (E4_of_ne m c _ (by decide)).symm)
  | ⟨1, _⟩ => ((dat2 (E3 m) c).arrAt_in 1 rfl _).trans ((A_eq2 (E3 m) c 1).trans (E4_of_ne m c _ (by decide)).symm)
  | ⟨2, _⟩ => ((dat2 (E3 m) c).arrAt_in 2 rfl _).trans ((A_eq2 (E3 m) c 2).trans (E4_of_ne m c _ (by decide)).symm)
  | ⟨3, _⟩ => ((dat2 (E3 m) c).arrAt_in 3 rfl _).trans ((A_eq2 (E3 m) c 3).trans (E4_of_ne m c _ (by decide)).symm)
  | ⟨4, _⟩ => ((dat2 (E3 m) c).arrAt_in 4 rfl _).trans ((A_eq2 (E3 m) c 4).trans (E4_of_ne m c _ (by decide)).symm)
  | ⟨5, _⟩ => ((dat2 (E3 m) c).arrAt_in 5 rfl _).trans ((A_eq2 (E3 m) c 5).trans (E4_of_ne m c _ (by decide)).symm)
  | ⟨6, _⟩ => ((dat2 (E3 m) c).arrAt_in 6 rfl _).trans ((A_eq2 (E3 m) c 6).trans (E4_of_ne m c _ (by decide)).symm)
  | ⟨7, _⟩ => (E4_main_v4 m c).symm
  | ⟨_ + 8, h⟩ => absurd h (Nat.not_lt.2 (Nat.le_add_left _ _))
/-- Off region 2's arrays nothing changes. -/
theorem hrest2 (c : Dev nD) : ∀ b, b ∉ Finset.univ.image (Pipeline.arrRef spec2) → E4 m c b = E3 m c b :=
  fun b hb => E4_of_ne m c b fun e => hb (e ▸ Finset.mem_image.mpr ⟨7, Finset.mem_univ _, rfl⟩)

section Reg2
variable (hb2 : ∀ c : Dev nD, BodyObligation (dat2 (F := F) (E3 m) c) (defs₀ (F := F)) Variants.none () Set.univ)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit : (unscopedBufs c (E3 m c) : sProp 𝕄)
        ⊢ iprop((pdats m 2 c).arrays ((pdats m 2 c).arrAt · 0) ∗ Pipeline.unscopedRest spec2 c (E3 m c)) := by
      rw [Pipeline.unscopedBufs_split₀ (Pipeline.pin (pcfgs (F := F)) adm) 2 winFacts₀2.arr_unscoped c (E3 m c)]
      exact sep_mono (arrays2_of_bufs c (E3 m) (E3 m c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (E3 m c))
        ⊢ (unscopedBufs c (E4 m c) : sProp 𝕄) := by
      rw [Pipeline.unscopedBufs_split₀ (Pipeline.pin (pcfgs (F := F)) adm) 2 winFacts₀2.arr_unscoped c (E4 m c)]
      refine sep_mono (bufs_of_arrays2 c (E3 m) (E4 m c) _ (hF2 m c)) (Entails.of_eq ?_)
      unfold Pipeline.unscopedRest
      exact bigSep_congr fun b hb => by rw [hrest2 m c b (Finset.mem_sdiff.mp hb).2]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO
end Reg2

/-! ## The arguments end as launched -/

theorem E2_main_arg0 (c : Dev nD) : E2 m c main_arg0 = m ((c : Thread nD τ).loc main_arg0) :=
  (W2_arr m c 0).trans (((dat0 (E1 m) c).arrAt_in 0 rfl _).trans ((A_eq0 (E1 m) c 0).trans (V1_of m c main_arg0 (by decide))))
theorem E2_main_arg1 (c : Dev nD) : E2 m c main_arg1 = m ((c : Thread nD τ).loc main_arg1) :=
  (W2_of_ne m c main_arg1 (by decide)).trans (V1_of m c main_arg1 (by decide))
theorem E2_main_arg2 (c : Dev nD) : E2 m c main_arg2 = m ((c : Thread nD τ).loc main_arg2) :=
  (W2_of_ne m c main_arg2 (by decide)).trans (V1_of m c main_arg2 (by decide))
theorem E2_main_arg3 (c : Dev nD) : E2 m c main_arg3 = m ((c : Thread nD τ).loc main_arg3) :=
  (W2_of_ne m c main_arg3 (by decide)).trans (V1_of m c main_arg3 (by decide))
theorem E2_main_arg4 (c : Dev nD) : E2 m c main_arg4 = m ((c : Thread nD τ).loc main_arg4) :=
  (W2_arr m c 1).trans (((dat0 (E1 m) c).arrAt_in 1 rfl _).trans ((A_eq0 (E1 m) c 1).trans (V1_of m c main_arg4 (by decide))))
theorem E2_main_arg5 (c : Dev nD) : E2 m c main_arg5 = m ((c : Thread nD τ).loc main_arg5) :=
  (W2_arr m c 2).trans (((dat0 (E1 m) c).arrAt_in 2 rfl _).trans ((A_eq0 (E1 m) c 2).trans (V1_of m c main_arg5 (by decide))))
theorem E2_main_arg6 (c : Dev nD) : E2 m c main_arg6 = m ((c : Thread nD τ).loc main_arg6) :=
  (W2_arr m c 3).trans (((dat0 (E1 m) c).arrAt_in 3 rfl _).trans ((A_eq0 (E1 m) c 3).trans (V1_of m c main_arg6 (by decide))))
theorem E2_main_arg7 (c : Dev nD) : E2 m c main_arg7 = m ((c : Thread nD τ).loc main_arg7) :=
  (W2_arr m c 4).trans (((dat0 (E1 m) c).arrAt_in 4 rfl _).trans ((A_eq0 (E1 m) c 4).trans (V1_of m c main_arg7 (by decide))))
theorem E2_main_arg8 (c : Dev nD) : E2 m c main_arg8 = m ((c : Thread nD τ).loc main_arg8) :=
  (W2_arr m c 5).trans (((dat0 (E1 m) c).arrAt_in 5 rfl _).trans ((A_eq0 (E1 m) c 5).trans (V1_of m c main_arg8 (by decide))))
theorem E2_main_arg9 (c : Dev nD) : E2 m c main_arg9 = m ((c : Thread nD τ).loc main_arg9) :=
  (W2_of_ne m c main_arg9 (by decide)).trans (V1_of m c main_arg9 (by decide))
theorem E2_main_arg10 (c : Dev nD) : E2 m c main_arg10 = m ((c : Thread nD τ).loc main_arg10) :=
  (W2_of_ne m c main_arg10 (by decide)).trans (V1_of m c main_arg10 (by decide))
theorem E4_main_arg0 (c : Dev nD) : E4 m c main_arg0 = m ((c : Thread nD τ).loc main_arg0) :=
  (E4_of_ne m c main_arg0 (by decide)).trans ((E3_of_ne m c main_arg0 (by decide)).trans (E2_main_arg0 m c))
theorem E4_main_arg1 (c : Dev nD) : E4 m c main_arg1 = m ((c : Thread nD τ).loc main_arg1) :=
  (E4_of_ne m c main_arg1 (by decide)).trans ((E3_of_ne m c main_arg1 (by decide)).trans (E2_main_arg1 m c))
theorem E4_main_arg2 (c : Dev nD) : E4 m c main_arg2 = m ((c : Thread nD τ).loc main_arg2) :=
  (E4_of_ne m c main_arg2 (by decide)).trans ((E3_of_ne m c main_arg2 (by decide)).trans (E2_main_arg2 m c))
theorem E4_main_arg3 (c : Dev nD) : E4 m c main_arg3 = m ((c : Thread nD τ).loc main_arg3) :=
  (E4_of_ne m c main_arg3 (by decide)).trans ((E3_of_ne m c main_arg3 (by decide)).trans (E2_main_arg3 m c))
theorem E4_main_arg4 (c : Dev nD) : E4 m c main_arg4 = m ((c : Thread nD τ).loc main_arg4) :=
  (E4_of_ne m c main_arg4 (by decide)).trans ((E3_of_ne m c main_arg4 (by decide)).trans (E2_main_arg4 m c))
theorem E4_main_arg5 (c : Dev nD) : E4 m c main_arg5 = m ((c : Thread nD τ).loc main_arg5) :=
  (E4_of_ne m c main_arg5 (by decide)).trans ((E3_of_ne m c main_arg5 (by decide)).trans (E2_main_arg5 m c))
theorem E4_main_arg6 (c : Dev nD) : E4 m c main_arg6 = m ((c : Thread nD τ).loc main_arg6) :=
  (E4_of_ne m c main_arg6 (by decide)).trans ((E3_of_ne m c main_arg6 (by decide)).trans (E2_main_arg6 m c))
theorem E4_main_arg7 (c : Dev nD) : E4 m c main_arg7 = m ((c : Thread nD τ).loc main_arg7) :=
  (E4_of_ne m c main_arg7 (by decide)).trans ((E3_of_ne m c main_arg7 (by decide)).trans (E2_main_arg7 m c))
theorem E4_main_arg8 (c : Dev nD) : E4 m c main_arg8 = m ((c : Thread nD τ).loc main_arg8) :=
  (E4_of_ne m c main_arg8 (by decide)).trans ((E3_of_ne m c main_arg8 (by decide)).trans (E2_main_arg8 m c))
theorem E4_main_arg9 (c : Dev nD) : E4 m c main_arg9 = m ((c : Thread nD τ).loc main_arg9) :=
  (E4_of_ne m c main_arg9 (by decide)).trans ((E3_of_ne m c main_arg9 (by decide)).trans (E2_main_arg9 m c))
theorem E4_main_arg10 (c : Dev nD) : E4 m c main_arg10 = m ((c : Thread nD τ).loc main_arg10) :=
  (E4_of_ne m c main_arg10 (by decide)).trans ((E3_of_ne m c main_arg10 (by decide)).trans (E2_main_arg10 m c))
/-- The node result at the end is what region 1 left (region 2 does not write it). -/
theorem E4_main_v3 (c : Dev nD) : E4 m c main_v3 = (dat1 (E2 m) c).arrAt 7 cfg1.N :=
  (E4_of_ne m c main_v3 (by decide)).trans (E3_main_v3 m c)

/-! ## @main as segments, and the launch -/

section Launch
variable (hb0 : ∀ c : Dev nD, BodyObligation (dat0 (F := F) (E1 m) c) (defs₀ (F := F)) Variants.none () Set.univ)
  (hb1 : ∀ c : Dev nD, BodyObligation (dat1 (F := F) (E2 m) c) (defs₀ (F := F)) Variants.none () Set.univ)
  (hb2 : ∀ c : Dev nD, BodyObligation (dat2 (F := F) (E3 m) c) (defs₀ (F := F)) Variants.none () Set.univ)

include hb0 hb1 hb2

/-- @main's four items in order: the host stretch, then the three regions. -/
abbrev segs : List (Pipeline.Seg (pcfgs (F := F)) adm (pdats m) () defs₀ 𝒱₀ L lv) :=
  [ .host (hseg0 m), .region (reg0 m hb0), .region (reg1 m hb1), .region (reg2 m hb2) ]

theorem main_run (c : Dev nD) : main (F := F) c = Pipeline.Seg.run (segs m hb0 hb1 hb2) := (main_chain c).trans (by chain_rfl)

set_option backward.isDefEq.respectTransparency.types false in
/-- THE RUN: from any memory with zero counters every weakly fair execution of @main terminates, nothing faulting, and
    every final memory holds each unscoped buffer of each core at the last valuation. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m hb0 hb1 hb2)
    (fun c Q => by rw [main_run m hb0 hb1 hb2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The run, read at the two results and the eleven arguments: the node result is what region 1's write-backs leave,
    the edge result what region 2's leave, every argument as launched. -/
theorem run_values (ρ : Dev nD → PrngReg) : θ_run defs (onTc (τ := τ) (main (F := F))) ⟨m, fun _ => 0, ρ⟩ (fun r => ∀ c : Dev nD,
      r.2.mem ((c.tc : Thread nD τ).loc main_v3) = (dat1 (E2 m) c).arrAt 7 cfg1.N
      ∧ r.2.mem ((c.tc : Thread nD τ).loc main_v4) = (dat2 (E3 m) c).arrAt 7 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v3 (by decide))).trans (E4_main_v3 m c),
      (h c _ (mem_uc main_v4 (by decide))).trans (E4_main_v4 m c),
      (h c _ (mem_uc main_arg0 (by decide))).trans (E4_main_arg0 m c),
      (h c _ (mem_uc main_arg1 (by decide))).trans (E4_main_arg1 m c),
      (h c _ (mem_uc main_arg2 (by decide))).trans (E4_main_arg2 m c),
      (h c _ (mem_uc main_arg3 (by decide))).trans (E4_main_arg3 m c),
      (h c _ (mem_uc main_arg4 (by decide))).trans (E4_main_arg4 m c),
      (h c _ (mem_uc main_arg5 (by decide))).trans (E4_main_arg5 m c),
      (h c _ (mem_uc main_arg6 (by decide))).trans (E4_main_arg6 m c),
      (h c _ (mem_uc main_arg7 (by decide))).trans (E4_main_arg7 m c),
      (h c _ (mem_uc main_arg8 (by decide))).trans (E4_main_arg8 m c),
      (h c _ (mem_uc main_arg9 (by decide))).trans (E4_main_arg9 m c),
      (h c _ (mem_uc main_arg10 (by decide))).trans (E4_main_arg10 m c)⟩) (run_all m hb0 hb1 hb2 ρ)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_values m hb0 hb1 hb2 ρ)
end Launch

end Cert.KernelIdeal.Fr

end
-- ==== Proof.Spec.lean ====
/-
  What the program computes, as functions of its argument arrays over the extended reals.

  With N = 2048 nodes, E = 4096 edges, incidence T (N×E), features x (N×128) and e (E×16):
    φₑ k   = Σ_d p_node[d] · e[k, d]                       (edge weights)
    φᵥ n   = Σ_d x[n, d] · p_edge[d]                        (node weights)
    xW, eW = x · W_n,  e · W_e
    nodes[n, d] = (x[n, d] + b_n[d]) + Σ_{n'} ((Σ_k (T[n,k]·φₑ k)·T[n',k]) · L_v[n,n']) · xW[n', d]
    edges[k, d] = (e[k, d] + b_e[d]) + Σ_{k'} ((Σ_n T[n,k]·(T[n,k']·φᵥ n)) · L_e[k,k']) · eW[k', d]
  Every product and sum is in the order the kernel forms it; sums over 2048 (4096) run over the whole axis, the
  kernel's eight blocks of 256 (512) being one regrouping of a finite sum (`sum_blocks`).
-/
import Idealize.ShloMosaic.Lib.ValueIdx
import Idealize.ShloMosaic.PureOps.Ideal

noncomputable section

namespace Cert.Spec

open Idealize.ShloMosaic Idealize.ShloMosaic.ValueIdx

/-- A rank-2 array of extended reals. -/
abbrev Arr (a b : Nat) : Type := (⟨2, ![a, b]⟩ : Shape).Idx → EReal

/-- Edge weights: φₑ k = Σ_d p_node[d, 0] · e[k, d]. -/
def phiE (pn : Arr 16 1) (e : Arr 4096 16) (k : Fin 4096) : EReal := ∑ d : Fin 16, pn (ix2 d 0) * e (ix2 k d)
/-- Node weights: φᵥ n = Σ_d x[n, d] · p_edge[d, 0]. -/
def phiV (x : Arr 2048 128) (pe : Arr 128 1) (n : Fin 2048) : EReal := ∑ d : Fin 128, x (ix2 n d) * pe (ix2 d 0)
/-- x · W_n. -/
def xW (x : Arr 2048 128) (Wn : Arr 128 128) (n : Fin 2048) (d : Fin 128) : EReal := ∑ k : Fin 128, x (ix2 n k) * Wn (ix2 k d)
/-- e · W_e. -/
def eW (e : Arr 4096 16) (We : Arr 16 16) (k : Fin 4096) (d : Fin 16) : EReal := ∑ j : Fin 16, e (ix2 k j) * We (ix2 j d)

/-- (T diag(φₑ) Tᵀ)[n, n']. -/
def nodeProp (inc : Arr 2048 4096) (phie : Fin 4096 → EReal) (n n' : Fin 2048) : EReal :=
  ∑ k : Fin 4096, (inc (ix2 n k) * phie k) * inc (ix2 n' k)
/-- (Tᵀ diag(φᵥ) T)[k, k'], each term as the kernel multiplies it. -/
def edgeProp (inc : Arr 2048 4096) (phiv : Fin 2048 → EReal) (k k' : Fin 4096) : EReal :=
  ∑ n : Fin 2048, inc (ix2 n k) * (inc (ix2 n k') * phiv n)

/-- The node result from the propagation's ingredients (any `phie`, `xw`, `bn`). -/
def nodesOf (x : Arr 2048 128) (L : Arr 2048 2048) (inc : Arr 2048 4096) (xw : Fin 2048 → Fin 128 → EReal)
    (phie : Fin 4096 → EReal) (bn : Fin 128 → EReal) (n : Fin 2048) (d : Fin 128) : EReal :=
  (x (ix2 n d) + bn d) + ∑ n' : Fin 2048, (nodeProp inc phie n n' * L (ix2 n n')) * xw n' d
/-- The edge result from the propagation's ingredients. -/
def edgesOf (e : Arr 4096 16) (Le : Arr 4096 4096) (inc : Arr 2048 4096) (ew : Fin 4096 → Fin 16 → EReal)
    (phiv : Fin 2048 → EReal) (be : Fin 16 → EReal) (k : Fin 4096) (d : Fin 16) : EReal :=
  (e (ix2 k d) + be d) + ∑ k' : Fin 4096, (edgeProp inc phiv k k' * Le (ix2 k k')) * ew k' d

/-- The node result of the whole program, from the eleven arguments. -/
def nodes (x : Arr 2048 128) (L : Arr 2048 2048) (inc : Arr 2048 4096) (e : Arr 4096 16) (Wn : Arr 128 128) (pn : Arr 16 1)
    (bn : (⟨1, ![128]⟩ : Shape).Idx → EReal) (n : Fin 2048) (d : Fin 128) : EReal :=
  nodesOf x L inc (xW x Wn) (phiE pn e) (fun d => bn (ix1 d)) n d
/-- The edge result of the whole program. -/
def edges (x : Arr 2048 128) (Le : Arr 4096 4096) (inc : Arr 2048 4096) (e : Arr 4096 16) (We : Arr 16 16) (pe : Arr 128 1)
    (be : (⟨1, ![16]⟩ : Shape).Idx → EReal) (k : Fin 4096) (d : Fin 16) : EReal :=
  edgesOf e Le inc (eW e We) (phiV x pe) (fun d => be (ix1 d)) k d

/-- A sum over `a · b` consecutive positions is the sum over `a` blocks of the sums over each block's `b` positions
    (in any commutative additive monoid; no finiteness is used). -/
theorem sum_blocks {M : Type} [AddCommMonoid M] (a b : Nat) (f : Fin (a * b) → M) :
    ∑ n : Fin (a * b), f n = ∑ j : Fin a, ∑ s : Fin b, f ⟨j.val * b + s.val, by
      have hj := j.isLt; have hs := s.isLt
      calc j.val * b + s.val < j.val * b + b := by omega
        _ = (j.val + 1) * b := by ring
        _ ≤ a * b := Nat.mul_le_mul_right b hj⟩ := by
  rw [← Finset.sum_product', Finset.univ_product_univ]
  refine (Fintype.sum_equiv finProdFinEquiv _ _ fun x => ?_).symm
  congr 1; apply Fin.ext
  show x.1.val * b + x.2.val = x.2.val + b * x.1.val
  ring

end Cert.Spec

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.LibLastAxisDot.lean ====
/-
  The matrix product that contracts the LAST axis of both operands, read at an entry.

  For the dimension numbers of an `M×K` by `N×K` product (`DotDims.transposedRhs M K N`: contract axis 1 of both
  operands, no batch axis — a product with the transposed right operand) the result's entry `(p, q)` is, over the
  extended reals, `∑ k : Fin K, lhs (p, k) * rhs (q, k)`, for a `tpu.matmul` into the zero accumulator. The sum over
  the product's own one-axis contraction index is re-indexed to a sum over `Fin K`, and the two operand indices are
  computed once, for every `M`, `K`, `N`.
-/
import Idealize.ShloMosaic.Lib.ValueIdx
import Idealize.ShloMosaic.PureOps.Ideal.Laws

noncomputable section

/-! ## The product that contracts the last axis of both operands, read at an entry

For the dimension numbers of an `M×K` by `N×K` product (contract axis 1 of both, no batch axis) the result's entry
`(p, q)` is `∑ k, lhs (p, k) * rhs (q, k)`. -/

namespace Cert.Lib.LastAxisDot

open Idealize.ShloMosaic Idealize.ShloMosaic.ValueIdx

variable {M K N : Nat}

/-- The contraction index is its one coordinate, a number below `K`. -/
abbrev kEquiv (M K N : Nat) : (DotDims.transposedRhs M K N).contr.Idx ≃ Fin K :=
  contrEquiv1 (DotDims.transposedRhs M K N) K rfl rfl

/-- The left operand's row coordinate is the result's row. -/
theorem lhs_axis0 (j : (⟨2, ![M, N]⟩ : Shape).Idx) (c : (DotDims.transposedRhs M K N).contr.Idx) :
    ((DotDims.transposedRhs M K N).lhsIdx j c 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column coordinate is the contraction position. -/
theorem lhs_axis1 (j : (⟨2, ![M, N]⟩ : Shape).Idx) (c : (DotDims.transposedRhs M K N).contr.Idx) :
    ((DotDims.transposedRhs M K N).lhsIdx j c 1).val = (c ⟨0, Nat.one_pos⟩).val :=
  (DotDims.transposedRhs M K N).lhsIdx_val_of_single rfl j c

/-- The right operand's row coordinate is the result's column. -/
theorem rhs_axis0 (j : (⟨2, ![M, N]⟩ : Shape).Idx) (c : (DotDims.transposedRhs M K N).contr.Idx) :
    ((DotDims.transposedRhs M K N).rhsIdx j c 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column coordinate is the contraction position. -/
theorem rhs_axis1 (j : (⟨2, ![M, N]⟩ : Shape).Idx) (c : (DotDims.transposedRhs M K N).contr.Idx) :
    ((DotDims.transposedRhs M K N).rhsIdx j c 1).val = (c ⟨0, Nat.one_pos⟩).val :=
  (DotDims.transposedRhs M K N).rhsIdx_val_of_single rfl j c

/-- At result entry `(p, q)` and contraction position `k` the left operand is read at `(p, k)`. -/
theorem lhsIdx_eq (p : Fin M) (q : Fin N) (k : Fin K) :
    (DotDims.transposedRhs M K N).lhsIdx (ix2 p q) ((kEquiv M K N).symm k) = ix2 p k := by
  have hk := contrEquiv1_symm_val (DotDims.transposedRhs M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(q, k)`. -/
theorem rhsIdx_eq (p : Fin M) (q : Fin N) (k : Fin K) :
    (DotDims.transposedRhs M K N).rhsIdx (ix2 p q) ((kEquiv M K N).symm k) = ix2 q k := by
  have hk := contrEquiv1_symm_val (DotDims.transposedRhs M K N) K rfl rfl k
  exact funext fun a => Fin.ext (by
    match a with
    | ⟨0, _⟩ => exact rhs_axis0 _ _
    | ⟨1, _⟩ => exact (rhs_axis1 _ _).trans hk)

/-- A `tpu.matmul` with these dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply, ← Equiv.sum_comp (kEquiv M K N).symm]
  refine Finset.sum_congr rfl fun k _ => ?_
  rw [lhsIdx_eq, rhsIdx_eq]

end Cert.Lib.LastAxisDot

end
-- ==== Proof.Val1.lean ====
/-
  The node region's result (2048×128), entry by entry: residual plus bias plus the propagated features, the sum over all 2048 source nodes assembled from the eight column blocks the grid's fast axis walks.
-/
import proofs.«109357_g24051816857981_cont_8to1_1327_2_alg».proof.Proof.KI.D1
import proofs.«109357_g24051816857981_cont_8to1_1327_2_alg».proof.Proof.Spec
import proofs.«109357_g24051816857981_cont_8to1_1327_2_alg».proof.Proof.LibPlainDot
import proofs.«109357_g24051816857981_cont_8to1_1327_2_alg».proof.Proof.LibLastAxisDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! Everything the theorem at the end of this module is assembled from lives in one sub-namespace. -/
namespace NodeRegion

/-! ## The body's payloads at an entry -/

/-- The printed record of the first product is the product contracting both last axes, -/
theorem dotT_eq : dot_S256x4096_S256x4096_S256x256_1_1_0_0_n_n = DotDims.transposedRhs 256 4096 256 := rfl
/-- and that of the second the plain product. -/
theorem dotP_eq : dot_S256x256_S256x128_S256x128_1_0_0_1_n_n = DotDims.plain 256 256 128 := rfl

/-- The edge weights broadcast over the rows, at an entry. -/
theorem bcast_phi (x4 : Vec Ideal S1x4096 .f32) (p : Fin 256) (k : Fin 4096) :
    broadcastTo S256x4096 x4 broadcasts_S1x4096_S256x4096 (ix2 p k) = x4 (ix2 0 k) := by
  refine broadcastTo_apply x4 broadcasts_S1x4096_S256x4096 (ix2 p k) (ix2 0 k) fun a => ?_
  match a with
  | ⟨0, _⟩ => rfl
  | ⟨1, _⟩ => rfl

/-- The bias broadcast over the rows, at an entry. -/
theorem bcast_bias (x6 : Vec Ideal S1x128 .f32) (p : Fin 256) (q : Fin 128) :
    broadcastTo S256x128 x6 broadcasts_S1x128_S256x128 (ix2 p q) = x6 (ix2 0 q) := by
  refine broadcastTo_apply x6 broadcasts_S1x128_S256x128 (ix2 p q) (ix2 0 q) fun a => ?_
  match a with
  | ⟨0, _⟩ => rfl
  | ⟨1, _⟩ => rfl

/-- One point's contribution at entry `(p, q)` of the output block. -/
def contrib (x0 : Vec Ideal S256x4096 .f32) (x4 : Vec Ideal S1x4096 .f32) (x1 : Vec Ideal S256x4096 .f32) (x2 : Vec Ideal S256x256 .f32)
    (x3 : Vec Ideal S256x128 .f32) (p : Fin 256) (q : Fin 128) : EReal :=
  ∑ s : Fin 256, ((∑ k : Fin 4096, (x0 (ix2 p k) * x4 (ix2 0 k)) * x1 (ix2 s k)) * x2 (ix2 p s)) * x3 (ix2 s q)

theorem pay1_apply (x0 : Vec Ideal S256x4096 .f32) (x4 : Vec Ideal S1x4096 .f32) (x1 : Vec Ideal S256x4096 .f32) (x2 : Vec Ideal S256x256 .f32)
    (x3 : Vec Ideal S256x128 .f32) (p : Fin 256) (q : Fin 128) :
    k1_pay1 x0 x4 x1 x2 x3 (ix2 p q) = contrib x0 x4 x1 x2 x3 p q := by
  unfold k1_pay1 contrib
  rw [shapeCast_self x4, shapeCast_self x3]
  refine (Cert.Lib.PlainDot.matmul_zero_apply (M := 256) (K := 256) (N := 128) none _ x3 p q).trans ?_
  refine Finset.sum_congr rfl fun s _ => ?_
  refine congrArg (· * x3 (ix2 s q)) ?_
  rw [mulf_apply]
  refine congrArg (· * x2 (ix2 p s)) ?_
  refine (Cert.Lib.LastAxisDot.matmul_zero_apply (M := 256) (K := 4096) (N := 256) none _ x1 p s).trans ?_
  refine Finset.sum_congr rfl fun k _ => ?_
  refine congrArg (· * x1 (ix2 s k)) ?_
  rw [mulf_apply, bcast_phi]

theorem pay2_apply (x0 : Vec Ideal S256x4096 .f32) (x4 : Vec Ideal S1x4096 .f32) (x1 : Vec Ideal S256x4096 .f32) (x2 : Vec Ideal S256x256 .f32)
    (x3 : Vec Ideal S256x128 .f32) (x5 : Vec Ideal S256x128 .f32) (x6 : Vec Ideal S1x128 .f32) (p : Fin 256) (q : Fin 128) :
    k1_pay2 x0 x4 x1 x2 x3 x5 x6 (ix2 p q) = (x5 (ix2 p q) + x6 (ix2 0 q)) + contrib x0 x4 x1 x2 x3 p q := by
  unfold k1_pay2
  rw [shapeCast_self x6, addf_apply, addf_apply, bcast_bias, pay1_apply]

theorem pay3_apply (x0 : Vec Ideal S256x4096 .f32) (x4 : Vec Ideal S1x4096 .f32) (x1 : Vec Ideal S256x4096 .f32) (x2 : Vec Ideal S256x256 .f32)
    (x3 : Vec Ideal S256x128 .f32) (xo : Vec Ideal S256x128 .f32) (p : Fin 256) (q : Fin 128) :
    k1_pay3 x0 x4 x1 x2 x3 xo (ix2 p q) = xo (ix2 p q) + contrib x0 x4 x1 x2 x3 p q := by
  unfold k1_pay3
  rw [shapeCast_self xo, addf_apply, pay1_apply]

/-! ## The blocks the body reads, as entries of the region's entry arrays -/

/-- The region's entry arrays at their literal types: incidence, Laplacian, x·W_n, edge weights, x, bias. -/
abbrev arrT (c : Dev nD) : S2048x4096.Idx → EReal := V c main_arg3
abbrev arrL (c : Dev nD) : S2048x2048.Idx → EReal := V c main_arg1
abbrev arrXW (c : Dev nD) : S2048x128.Idx → EReal := V c main_v2_2
abbrev arrPhi (c : Dev nD) : S1x4096.Idx → EReal := V c main_v2_0
abbrev arrX (c : Dev nD) : S2048x128.Idx → EReal := V c main_arg0
abbrev arrB (c : Dev nD) : S1x128.Idx → EReal := V c main_v0

/-- The seven input blocks at a grid point, at their literal types. -/
abbrev blk0 (c : Dev nD) (t : Fin cfg1.N) : Vec Ideal S256x4096 .f32 := iblk1 (F := Ideal) V c 0 t
abbrev blk1 (c : Dev nD) (t : Fin cfg1.N) : Vec Ideal S256x4096 .f32 := iblk1 (F := Ideal) V c 1 t
abbrev blk2 (c : Dev nD) (t : Fin cfg1.N) : Vec Ideal S256x256 .f32 := iblk1 (F := Ideal) V c 2 t
abbrev blk3 (c : Dev nD) (t : Fin cfg1.N) : Vec Ideal S256x128 .f32 := iblk1 (F := Ideal) V c 3 t
abbrev blk4 (c : Dev nD) (t : Fin cfg1.N) : Vec Ideal S1x4096 .f32 := iblk1 (F := Ideal) V c 4 t
abbrev blk5 (c : Dev nD) (t : Fin cfg1.N) : Vec Ideal S256x128 .f32 := iblk1 (F := Ideal) V c 5 t
abbrev blk6 (c : Dev nD) (t : Fin cfg1.N) : Vec Ideal S1x128 .f32 := iblk1 (F := Ideal) V c 6 t

/-- Row `p` of the `i`-th of the eight blocks of 256 rows (`i` read modulo 8, so that the function is total). -/
def row (i : ℕ) (p : Fin 256) : Fin 2048 :=
  ⟨i % 8 * 256 + p.val, by have := p.isLt; have := Nat.mod_lt i (show 0 < 8 by decide); omega⟩

/-- The printed index maps over the 64 grid points: point `t` is `(i, j) = (t / 8, t % 8)`. -/
theorem idx1 : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = t.val % 8
    ∧ win1_3.index t (0 : Fin 2) = t.val % 8 ∧ win1_3.index t (1 : Fin 2) = 0
    ∧ win1_4.index t (0 : Fin 2) = 0 ∧ win1_4.index t (1 : Fin 2) = 0
    ∧ win1_5.index t (0 : Fin 2) = t.val / 8 ∧ win1_5.index t (1 : Fin 2) = 0
    ∧ win1_6.index t (0 : Fin 2) = 0 ∧ win1_6.index t (1 : Fin 2) = 0
    ∧ win1_7.index t (0 : Fin 2) = t.val / 8 ∧ win1_7.index t (1 : Fin 2) = 0 :=
  (by decide +kernel : ∀ t : Fin grid1.N, _)

theorem blk0_apply (c : Dev nD) (t : Fin cfg1.N) (p : Fin 256) (k : Fin 4096) :
    blk0 V c t (ix2 p k) = arrT V c (ix2 (row (t.val / 8) p) k) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 0).blk t).view.read (Elt Ideal) (V c main_arg3) (ix2 p k) = _
  rw [View.read_apply]
  refine congrArg (V c main_arg3) (funext fun a => Fin.ext ?_)
  match a with
  | ⟨0, _⟩ => show win1_0.index t (0 : Fin 2) * 256 + 1 * p.val = t.val / 8 % 8 * 256 + p.val; omega
  | ⟨1, _⟩ => show win1_0.index t (1 : Fin 2) * 4096 + 1 * k.val = k.val; omega

theorem blk1_apply (c : Dev nD) (t : Fin cfg1.N) (s : Fin 256) (k : Fin 4096) :
    blk1 V c t (ix2 s k) = arrT V c (ix2 (row (t.val % 8) s) k) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 1).blk t).view.read (Elt Ideal) (V c main_arg3) (ix2 s k) = _
  rw [View.read_apply]
  refine congrArg (V c main_arg3) (funext fun a => Fin.ext ?_)
  match a with
  | ⟨0, _⟩ => show win1_1.index t (0 : Fin 2) * 256 + 1 * s.val = t.val % 8 % 8 * 256 + s.val; omega
  | ⟨1, _⟩ => show win1_1.index t (1 : Fin 2) * 4096 + 1 * k.val = k.val; omega

theorem blk2_apply (c : Dev nD) (t : Fin cfg1.N) (p : Fin 256) (s : Fin 256) :
    blk2 V c t (ix2 p s) = arrL V c (ix2 (row (t.val / 8) p) (row (t.val % 8) s)) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 2).blk t).view.read (Elt Ideal) (V c main_arg1) (ix2 p s) = _
  rw [View.read_apply]
  refine congrArg (V c main_arg1) (funext fun a => Fin.ext ?_)
  match a with
  | ⟨0, _⟩ => show win1_2.index t (0 : Fin 2) * 256 + 1 * p.val = t.val / 8 % 8 * 256 + p.val; omega
  | ⟨1, _⟩ => show win1_2.index t (1 : Fin 2) * 256 + 1 * s.val = t.val % 8 % 8 * 256 + s.val; omega

theorem blk3_apply (c : Dev nD) (t : Fin cfg1.N) (s : Fin 256) (q : Fin 128) :
    blk3 V c t (ix2 s q) = arrXW V c (ix2 (row (t.val % 8) s) q) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 3).blk t).view.read (Elt Ideal) (V c main_v2_2) (ix2 s q) = _
  rw [View.read_apply]
  refine congrArg (V c main_v2_2) (funext fun a => Fin.ext ?_)
  match a with
  | ⟨0, _⟩ => show win1_3.index t (0 : Fin 2) * 256 + 1 * s.val = t.val % 8 % 8 * 256 + s.val; omega
  | ⟨1, _⟩ => show win1_3.index t (1 : Fin 2) * 128 + 1 * q.val = q.val; omega

theorem blk4_apply (c : Dev nD) (t : Fin cfg1.N) (z : Fin 1) (k : Fin 4096) :
    blk4 V c t (ix2 z k) = arrPhi V c (ix2 z k) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 4).blk t).view.read (Elt Ideal) (V c main_v2_0) (ix2 z k) = _
  rw [View.read_apply]
  refine congrArg (V c main_v2_0) (funext fun a => Fin.ext ?_)
  match a with
  | ⟨0, _⟩ => show win1_4.index t (0 : Fin 2) * 1 + 1 * z.val = z.val; omega
  | ⟨1, _⟩ => show win1_4.index t (1 : Fin 2) * 4096 + 1 * k.val = k.val; omega

theorem blk5_apply (c : Dev nD) (t : Fin cfg1.N) (p : Fin 256) (q : Fin 128) :
    blk5 V c t (ix2 p q) = arrX V c (ix2 (row (t.val / 8) p) q) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 5).blk t).view.read (Elt Ideal) (V c main_arg0) (ix2 p q) = _
  rw [View.read_apply]
  refine congrArg (V c main_arg0) (funext fun a => Fin.ext ?_)
  match a with
  | ⟨0, _⟩ => show win1_5.index t (0 : Fin 2) * 256 + 1 * p.val = t.val / 8 % 8 * 256 + p.val; omega
  | ⟨1, _⟩ => show win1_5.index t (1 : Fin 2) * 128 + 1 * q.val = q.val; omega

theorem blk6_apply (c : Dev nD) (t : Fin cfg1.N) (z : Fin 1) (q : Fin 128) :
    blk6 V c t (ix2 z q) = arrB V c (ix2 z q) := by
  have hN : t.val < 64 := lt_of_lt_of_eq t.isLt (show cfg1.N = 64 from N_1)
  obtain ⟨h00, h01, h10, h11, h20, h21, h30, h31, h40, h41, h50, h51, h60, h61, h70, h71⟩ := idx1 t
  show ((cfg1.win 6).blk t).view.read (Elt Ideal) (V c main_v0) (ix2 z q) = _
  rw [View.read_apply]
  refine congrArg (V c main_v0) (funext fun a => Fin.ext ?_)
  match a with
  | ⟨0, _⟩ => show win1_6.index t (0 : Fin 2) * 1 + 1 * z.val = z.val; omega
  | ⟨1, _⟩ => show win1_6.index t (1 : Fin 2) * 128 + 1 * q.val = q.val; omega

/-! ## The accumulation along a row of the grid -/

/-- The contribution of the `j`-th block of 256 source nodes to entry `(p, q)` of the `i`-th block of rows. -/
def cterm (c : Dev nD) (i j : ℕ) (p : Fin 256) (q : Fin 128) : EReal :=
  ∑ s : Fin 256, ((∑ k : Fin 4096, (arrT V c (ix2 (row i p) k) * arrPhi V c (ix2 0 k)) * arrT V c (ix2 (row j s) k))
      * arrL V c (ix2 (row i p) (row j s))) * arrXW V c (ix2 (row j s) q)

/-- One point's contribution, read off the region's entry arrays. -/
theorem contrib_blocks (c : Dev nD) (t : Fin cfg1.N) (p : Fin 256) (q : Fin 128) :
    contrib (blk0 V c t) (blk4 V c t) (blk1 V c t) (blk2 V c t) (blk3 V c t) p q = cterm V c (t.val / 8) (t.val % 8) p q := by
  unfold contrib cterm
  refine Finset.sum_congr rfl fun s _ => ?_
  rw [blk2_apply V c t p s, blk3_apply V c t s q]
  refine congrArg (fun z => z * arrL V c (ix2 (row (t.val / 8) p) (row (t.val % 8) s)) * arrXW V c (ix2 (row (t.val % 8) s) q)) ?_
  refine Finset.sum_congr rfl fun k _ => ?_
  rw [blk0_apply V c t p k, blk4_apply V c t 0 k, blk1_apply V c t s k]

/-- At the first point of a row of the grid the buffer holds residual plus bias plus the first contribution. -/
theorem outs_first (c : Dev nD) (t : Fin cfg1.N) (h0 : t.val % 8 = 0) (p : Fin 256) (q : Fin 128) :
    (outsAt1 (F := Ideal) V c t.val t.isLt : Vec Ideal S256x128 .f32) (ix2 p q)
      = (arrX V c (ix2 (row (t.val / 8) p) q) + arrB V c (ix2 0 q)) + ∑ j ∈ Finset.range (t.val % 8 + 1), cterm V c (t.val / 8) j p q := by
  rw [outsAt1_A V c t h0, out1_A_eq]
  refine (pay2_apply (blk0 V c t) (blk4 V c t) (blk1 V c t) (blk2 V c t) (blk3 V c t) (blk5 V c t) (blk6 V c t) p q).trans ?_
  rw [contrib_blocks V c t p q, blk5_apply V c t p q, blk6_apply V c t 0 q, h0, Finset.sum_range_one]

/-- After point `n = 8·i + j` the buffer holds residual plus bias plus the contributions of blocks `0 … j`. -/
theorem outs_inv (c : Dev nD) : ∀ (n : ℕ) (hn : n < cfg1.N) (p : Fin 256) (q : Fin 128),
    (outsAt1 (F := Ideal) V c n hn : Vec Ideal S256x128 .f32) (ix2 p q)
      = (arrX V c (ix2 (row (n / 8) p) q) + arrB V c (ix2 0 q)) + ∑ j ∈ Finset.range (n % 8 + 1), cterm V c (n / 8) j p q := by
  intro n
  induction n with
  | zero => intro hn p q; exact outs_first V c ⟨0, hn⟩ rfl p q
  | succ m ih =>
    intro hn p q
    by_cases h0 : (m + 1) % 8 = 0
    · exact outs_first V c ⟨m + 1, hn⟩ h0 p q
    · rw [outsAt1_B V c ⟨m + 1, hn⟩ h0, out1_B_eq]
      refine (pay3_apply (blk0 V c ⟨m + 1, hn⟩) (blk4 V c ⟨m + 1, hn⟩) (blk1 V c ⟨m + 1, hn⟩) (blk2 V c ⟨m + 1, hn⟩) (blk3 V c ⟨m + 1, hn⟩)
        (outsAt1 (F := Ideal) V c m (Nat.lt_of_succ_lt hn)) p q).trans ?_
      rw [ih (Nat.lt_of_succ_lt hn) p q, contrib_blocks V c ⟨m + 1, hn⟩ p q]
      show _ + cterm V c ((m + 1) / 8) ((m + 1) % 8) p q = _
      have e1 : m / 8 = (m + 1) / 8 := by omega
      have e2 : (m + 1) % 8 = m % 8 + 1 := by omega
      rw [e1, e2, Finset.sum_range_succ _ (m % 8 + 1), add_assoc]

/-! ## From the eight row blocks to the array -/

/-- The eight blocks of 256 source nodes make up the sum over all 2048: the specification at row `p` of block `i`. -/
theorem nodes_blocks (c : Dev nD) (i : ℕ) (p : Fin 256) (q : Fin 128) :
    Cert.Spec.nodesOf (arrX V c) (arrL V c) (arrT V c) (fun a b => arrXW V c (ix2 a b)) (fun a => arrPhi V c (ix2 0 a))
        (fun b => arrB V c (ix2 0 b)) (row i p) q
      = (arrX V c (ix2 (row i p) q) + arrB V c (ix2 0 q)) + ∑ j ∈ Finset.range 8, cterm V c i j p q := by
  unfold Cert.Spec.nodesOf
  refine congrArg (fun z => (arrX V c (ix2 (row i p) q) + arrB V c (ix2 0 q)) + z) ?_
  rw [Finset.sum_range]
  refine (Cert.Spec.sum_blocks 8 256 (fun n' : Fin (8 * 256) =>
    (Cert.Spec.nodeProp (arrT V c) (fun a => arrPhi V c (ix2 0 a)) (row i p) n' * arrL V c (ix2 (row i p) n')) * arrXW V c (ix2 n' q))).trans ?_
  refine Finset.sum_congr rfl fun j _ => ?_
  unfold cterm
  refine Finset.sum_congr rfl fun s _ => ?_
  have key : ∀ a b : Fin 2048, a.val = b.val →
      (Cert.Spec.nodeProp (arrT V c) (fun a => arrPhi V c (ix2 0 a)) (row i p) a * arrL V c (ix2 (row i p) a)) * arrXW V c (ix2 a q)
        = (Cert.Spec.nodeProp (arrT V c) (fun a => arrPhi V c (ix2 0 a)) (row i p) b * arrL V c (ix2 (row i p) b)) * arrXW V c (ix2 b q) :=
    fun a b h => by rw [Fin.ext h]
  refine (key _ (row j.val s) ?_).trans rfl
  show j.val * 256 + s.val = j.val % 8 * 256 + s.val
  have := j.isLt
  omega

/-- The result as one function of the index. -/
def G (c : Dev nD) : S2048x128.Idx → EReal := fun i =>
  Cert.Spec.nodesOf (arrX V c) (arrL V c) (arrT V c) (fun a b => arrXW V c (ix2 a b)) (fun a => arrPhi V c (ix2 0 a))
    (fun b => arrB V c (ix2 0 b)) (i 0) (i 1)

/-- Entry `(p, q)` of the output block at point `t` is entry `(256·(t / 8) + p, q)` of the array. -/
theorem emb_out (t : Fin cfg1.N) (p : Fin 256) (q : Fin 128) :
    ((cfg1.win 7).blk t).view.emb (ix2 p q) = ix2 (row (t.val / 8) p) q := by
  have hN : t.val < 64 := lt_of_lt_of_eq t.isLt (show cfg1.N = 64 from N_1)
  obtain ⟨h00, h01, h10, h11, h20, h21, h30, h31, h40, h41, h50, h51, h60, h61, h70, h71⟩ := idx1 t
  refine funext fun a => Fin.ext ?_
  match a with
  | ⟨0, _⟩ => show win1_7.index t (0 : Fin 2) * 256 + 1 * p.val = t.val / 8 % 8 * 256 + p.val; omega
  | ⟨1, _⟩ => show win1_7.index t (1 : Fin 2) * 128 + 1 * q.val = q.val; omega

/-- What a point that writes the output block back writes is its block of `G`. -/
theorem flushed_eq (c : Dev nD) (t : Fin cfg1.N) (hf : (cfg1.win 7).flush t = true) :
    (dat1 (F := Ideal) V c).flushed 7 t = ((cfg1.win 7).blk t).view.read (Elt Ideal) (G V c) := by
  have h7 : t.val % 8 = 7 := (flush1_7 t).mp hf
  funext y
  obtain ⟨p, q, rfl⟩ : ∃ (p : Fin 256) (q : Fin 128), y = ix2 p q := ⟨y 0, y 1, eq_ix2 y⟩
  rw [View.read_apply, emb_out]
  show (dat1 (F := Ideal) V c).after 7 t (ix2 p q) = _
  rw [after1_7]
  refine (outs_inv V c t.val t.isLt p q).trans ?_
  rw [h7]
  exact (nodes_blocks V c (t.val / 8) p q).symm

/-- Every row of the array lies in the block written back at the last point of its row of the grid. -/
theorem cover_out (i : S2048x128.Idx) :
    ∃ t : Fin cfg1.N, (cfg1.win 7).flush t = true ∧ i ∈ ((cfg1.win 7).blk t).view.set := by
  have h0 : (i 0).val < 2048 := (i 0).isLt
  have h1 : (i 1).val < 128 := (i 1).isLt
  have hN : cfg1.N = 64 := N_1
  obtain ⟨t, ht⟩ : ∃ t : Fin cfg1.N, t.val = 8 * ((i 0).val / 256) + 7 := ⟨⟨8 * ((i 0).val / 256) + 7, by rw [hN]; omega⟩, rfl⟩
  obtain ⟨h00, h01, h10, h11, h20, h21, h30, h31, h40, h41, h50, h51, h60, h61, h70, h71⟩ := idx1 t
  refine ⟨t, (flush1_7 t).mpr (by omega), ?_⟩
  show i ∈ ((View.whole main_v3).slice (win1_7.rect t)).set
  rw [View.set_slice_whole, Rect.mem_set_unit]
  intro a
  match a with
  | ⟨0, _⟩ => show win1_7.index t (0 : Fin 2) * 256 ≤ (i 0).val ∧ (i 0).val < win1_7.index t (0 : Fin 2) * 256 + 256; omega
  | ⟨1, _⟩ => show win1_7.index t (1 : Fin 2) * 128 ≤ (i 1).val ∧ (i 1).val < win1_7.index t (1 : Fin 2) * 128 + 128; omega

/-- The output array after the 64 points. -/
theorem final_out (c : Dev nD) : (dat1 (F := Ideal) V c).arrAt 7 cfg1.N = G V c :=
  (dat1 (F := Ideal) V c).arrAt_eq_of_cover 7 (G V c) (flushed_eq V c) cover_out

end NodeRegion

/-- After the 64 grid points the output array holds `nodesOf` of the region's entry arrays. -/
theorem arr1_7 (c : Dev nD) (n : Fin 2048) (d : Fin 128) :
    ((dat1 (F := Ideal) V c).arrAt 7 cfg1.N : S2048x128.Idx → EReal) (ix2 n d)
      = Cert.Spec.nodesOf (V c main_arg0) (V c main_arg1) (V c main_arg3) (fun a b => (V c main_v2_2 : S2048x128.Idx → EReal) (ix2 a b))
          (fun a => (V c main_v2_0 : S1x4096.Idx → EReal) (ix2 0 a)) (fun b => (V c main_v0 : S1x128.Idx → EReal) (ix2 0 b)) n d := by
  rw [NodeRegion.final_out V c]
  rfl

end Cert.KernelIdeal.Val

end
-- ==== Proof.Val2a.lean ====
/-
  The edge kernel's payloads read at one entry of the 512×16 output block: the incidence columns of block j scaled by
  the node weights, contracted over the 2048 nodes with the incidence columns of block i, multiplied entrywise by the
  Laplacian tile and then by the rows of e·W_e; at j = 0 added to residual plus bias, otherwise to the running buffer.
-/
import proofs.«109357_g24051816857981_cont_8to1_1327_2_alg».proof.Proof.Gen.KernelIdeal.Skeleton
import proofs.«109357_g24051816857981_cont_8to1_1327_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val.EdgeRegion

open Cert.KernelIdeal Cert.KernelIdeal.Gen
open Idealize.ShloMosaic Idealize.ShloMosaic.ValueIdx

/-! ## The product that contracts the row axis of both operands: (Aᵀ·B)[r, s] = Σ_n A[n, r] · B[n, s] -/

/-- The left operand's row coordinate is the contraction position. -/
theorem dT_lhs_axis0 (j : S512x512.Idx) (c : dot_S2048x512_S2048x512_S512x512_0_0_1_1_n_n.contr.Idx) :
    (dot_S2048x512_S2048x512_S512x512_0_0_1_1_n_n.lhsIdx j c 0).val = (c ⟨0, Nat.one_pos⟩).val :=
  dot_S2048x512_S2048x512_S512x512_0_0_1_1_n_n.lhsIdx_val_of_single rfl j c

/-- The left operand's column coordinate is the result's row. -/
theorem dT_lhs_axis1 (j : S512x512.Idx) (c : dot_S2048x512_S2048x512_S512x512_0_0_1_1_n_n.contr.Idx) :
    (dot_S2048x512_S2048x512_S512x512_0_0_1_1_n_n.lhsIdx j c 1).val = (j 0).val := by
  unfold DotDims.lhsIdx
  rw [dif_neg (show ¬(1 : Fin S2048x512.rank) ∈ dot_S2048x512_S2048x512_S512x512_0_0_1_1_n_n.lhsBatch from List.not_mem_nil),
    dif_pos (show (1 : Fin S2048x512.rank) ∈ dot_S2048x512_S2048x512_S512x512_0_0_1_1_n_n.lhsNonContracting from List.mem_singleton.2 rfl)]
  rfl

/-- The right operand's row coordinate is the contraction position. -/
theorem dT_rhs_axis0 (j : S512x512.Idx) (c : dot_S2048x512_S2048x512_S512x512_0_0_1_1_n_n.contr.Idx) :
    (dot_S2048x512_S2048x512_S512x512_0_0_1_1_n_n.rhsIdx j c 0).val = (c ⟨0, Nat.one_pos⟩).val :=
  dot_S2048x512_S2048x512_S512x512_0_0_1_1_n_n.rhsIdx_val_of_single rfl j c

/-- The right operand's column coordinate is the result's column. -/
theorem dT_rhs_axis1 (j : S512x512.Idx) (c : dot_S2048x512_S2048x512_S512x512_0_0_1_1_n_n.contr.Idx) :
    (dot_S2048x512_S2048x512_S512x512_0_0_1_1_n_n.rhsIdx j c 1).val = (j 1).val := by
  unfold DotDims.rhsIdx
  rw [dif_neg (show ¬(1 : Fin S2048x512.rank) ∈ dot_S2048x512_S2048x512_S512x512_0_0_1_1_n_n.rhsBatch from List.not_mem_nil),
    dif_pos (show (1 : Fin S2048x512.rank) ∈ dot_S2048x512_S2048x512_S512x512_0_0_1_1_n_n.rhsNonContracting from List.mem_singleton.2 rfl)]
  rfl

/-- The contraction index of that product is its one coordinate, a node number. -/
abbrev dT_kEquiv : dot_S2048x512_S2048x512_S512x512_0_0_1_1_n_n.contr.Idx ≃ Fin 2048 :=
  contrEquiv1 dot_S2048x512_S2048x512_S512x512_0_0_1_1_n_n 2048 rfl rfl

/-- At result entry (r, s) and node n the left operand is read at (n, r). -/
theorem dT_lhsIdx_eq (r s : Fin 512) (n : Fin 2048) :
    dot_S2048x512_S2048x512_S512x512_0_0_1_1_n_n.lhsIdx (ix2 r s) (dT_kEquiv.symm n) = ix2 n r := by
  have hk := contrEquiv1_symm_val dot_S2048x512_S2048x512_S512x512_0_0_1_1_n_n 2048 rfl rfl n
  exact funext fun a => Fin.ext (by
    match a with
    | ⟨0, _⟩ => exact (dT_lhs_axis0 _ _).trans hk
    | ⟨1, _⟩ => exact dT_lhs_axis1 _ _)

/-- At result entry (r, s) and node n the right operand is read at (n, s). -/
theorem dT_rhsIdx_eq (r s : Fin 512) (n : Fin 2048) :
    dot_S2048x512_S2048x512_S512x512_0_0_1_1_n_n.rhsIdx (ix2 r s) (dT_kEquiv.symm n) = ix2 n s := by
  have hk := contrEquiv1_symm_val dot_S2048x512_S2048x512_S512x512_0_0_1_1_n_n 2048 rfl rfl n
  exact funext fun a => Fin.ext (by
    match a with
    | ⟨0, _⟩ => exact (dT_rhs_axis0 _ _).trans hk
    | ⟨1, _⟩ => exact dT_rhs_axis1 _ _)

/-- That product into the zero accumulator, at entry (r, s): the sum over the nodes. -/
theorem dT_matmul_zero_apply (prec : Option ContractPrecision)
    (lhs : FVec Ideal S2048x512 .f32) (rhs : FVec Ideal S2048x512 .f32) (r s : Fin 512) :
    FloatOps.matmul dot_S2048x512_S2048x512_S512x512_0_0_1_1_n_n prec lhs rhs (constant S512x512 .f32 0x00000000#32) (ix2 r s)
      = ∑ n : Fin 2048, lhs (ix2 n r) * rhs (ix2 n s) := by
  rw [Ideal.matmul_constant_zero_apply, ← Equiv.sum_comp dT_kEquiv.symm]
  refine Finset.sum_congr rfl fun n _ => ?_
  rw [dT_lhsIdx_eq, dT_rhsIdx_eq]

/-- The second product's dimension numbers are the plain ones. -/
theorem dP_eq : dot_S512x512_S512x16_S512x16_1_0_0_1_n_n = DotDims.plain 512 512 16 := rfl

/-! ## The column of node weights broadcast over the 512 columns -/

/-- A [2048, 1] column broadcast to [2048, 512] reads, at (n, s), the column at n. -/
theorem col_bcast_apply (v : FVec Ideal S2048x1 .f32) (n : Fin 2048) (s : Fin 512) :
    broadcastTo S2048x512 v broadcasts_S2048x1_S2048x512 (ix2 n s) = v (ix2 n (0 : Fin 1)) := by
  refine broadcastTo_apply v broadcasts_S2048x1_S2048x512 (ix2 n s) (ix2 n (0 : Fin 1)) fun ax => ?_
  match ax with
  | ⟨0, _⟩ => rfl
  | ⟨1, _⟩ => rfl

/-! ## The payloads at an entry -/

/-- The contribution of one grid point at entry (p, q) of the output block: v5 the incidence columns of block i,
    v0 those of block j, v1 the node weights, v7 the Laplacian tile, v9 the rows of e·W_e. -/
theorem pay1_apply (v0 : FVec Ideal S2048x512 .f32) (v1 : FVec Ideal S2048x1 .f32) (v5 : FVec Ideal S2048x512 .f32)
    (v7 : FVec Ideal S512x512 .f32) (v9 : FVec Ideal S512x16 .f32) (p : Fin 512) (q : Fin 16) :
    k2_pay1 (F := Ideal) v0 v1 v5 v7 v9 (ix2 p q)
      = ∑ s : Fin 512, ((∑ n : Fin 2048, v5 (ix2 n p) * (v0 (ix2 n s) * v1 (ix2 n (0 : Fin 1)))) * v7 (ix2 p s)) * v9 (ix2 s q) := by
  unfold k2_pay1
  rw [shapeCast_self, shapeCast_self]
  refine (Cert.Lib.PlainDot.matmul_zero_apply (M := 512) (K := 512) (N := 16) none _ _ p q).trans ?_
  refine Finset.sum_congr rfl fun s _ => ?_
  rw [mulf_apply]
  refine congrArg (fun z => z * v7 (ix2 p s) * v9 (ix2 s q)) ?_
  refine (dT_matmul_zero_apply none _ _ p s).trans ?_
  refine Finset.sum_congr rfl fun n _ => ?_
  rw [mulf_apply, col_bcast_apply]

/-- The reset point's payload at (p, q): (residual + bias) + contribution. -/
theorem pay2_apply (v0 : FVec Ideal S2048x512 .f32) (v1 : FVec Ideal S2048x1 .f32) (v5 : FVec Ideal S2048x512 .f32)
    (v7 : FVec Ideal S512x512 .f32) (v9 : FVec Ideal S512x16 .f32) (v18 : FVec Ideal S512x16 .f32) (v19 : FVec Ideal S1x16 .f32)
    (p : Fin 512) (q : Fin 16) :
    k2_pay2 (F := Ideal) v0 v1 v5 v7 v9 v18 v19 (ix2 p q)
      = (v18 (ix2 p q) + v19 (ix2 (0 : Fin 1) q)) + k2_pay1 (F := Ideal) v0 v1 v5 v7 v9 (ix2 p q) := by
  unfold k2_pay2
  rw [shapeCast_self, addf_apply, addf_apply, broadcastTo_1b_ab_apply]

/-- An accumulating point's payload at (p, q): (what the buffer held) + contribution. -/
theorem pay3_apply (v0 : FVec Ideal S2048x512 .f32) (v1 : FVec Ideal S2048x1 .f32) (v5 : FVec Ideal S2048x512 .f32)
    (v7 : FVec Ideal S512x512 .f32) (v9 : FVec Ideal S512x16 .f32) (v18 : FVec Ideal S512x16 .f32)
    (p : Fin 512) (q : Fin 16) :
    k2_pay3 (F := Ideal) v0 v1 v5 v7 v9 v18 (ix2 p q)
      = v18 (ix2 p q) + k2_pay1 (F := Ideal) v0 v1 v5 v7 v9 (ix2 p q) := by
  unfold k2_pay3
  rw [shapeCast_self, addf_apply]

end Cert.KernelIdeal.Val.EdgeRegion

end
-- ==== Proof.Val2.lean ====
/-
  The edge region's result (4096×16), entry by entry: residual plus bias plus the propagated features, the sum over all 4096 source edges assembled from the eight column blocks the grid's fast axis walks.
-/
import proofs.«109357_g24051816857981_cont_8to1_1327_2_alg».proof.Proof.KI.D2
import proofs.«109357_g24051816857981_cont_8to1_1327_2_alg».proof.Proof.Spec
import proofs.«109357_g24051816857981_cont_8to1_1327_2_alg».proof.Proof.LibPlainDot
import proofs.«109357_g24051816857981_cont_8to1_1327_2_alg».proof.Proof.Val2a
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)
open Cert.KernelIdeal.Val.EdgeRegion

variable (V : (c : Dev nD) → (b : Ref sig .tc) → Buf (Elt Ideal) ((c : Thread nD τ).loc b))

/-! ## The region-entry arrays, each at its literal type -/

/-- The incidence matrix T (2048×4096). -/
abbrev incA (c : Dev nD) : S2048x4096.Idx → EReal := V c main_arg3
/-- The edge Laplacian L_e (4096×4096). -/
abbrev leA (c : Dev nD) : S4096x4096.Idx → EReal := V c main_arg2
/-- e·W_e (4096×16). -/
abbrev ewA (c : Dev nD) : S4096x16.Idx → EReal := V c main_v2_3
/-- The node weights φᵥ (2048×1). -/
abbrev phA (c : Dev nD) : S2048x1.Idx → EReal := V c main_v2_1
/-- The edge features e (4096×16). -/
abbrev eA (c : Dev nD) : S4096x16.Idx → EReal := V c main_arg4
/-- The bias (1×16). -/
abbrev bA (c : Dev nD) : S1x16.Idx → EReal := V c main_v1

/-! ## The index maps over the 64 grid points: point t is (i, j) = (t / 8, t % 8) -/

theorem idx2 : ∀ t : Fin cfg2.N,
    win2_0.index t (0 : Fin 2) = 0 ∧ win2_0.index t (1 : Fin 2) = t.val / 8
    ∧ win2_1.index t (0 : Fin 2) = 0 ∧ win2_1.index t (1 : Fin 2) = t.val % 8
    ∧ win2_2.index t (0 : Fin 2) = t.val / 8 ∧ win2_2.index t (1 : Fin 2) = t.val % 8
    ∧ win2_3.index t (0 : Fin 2) = t.val % 8 ∧ win2_3.index t (1 : Fin 2) = 0
    ∧ win2_4.index t (0 : Fin 2) = 0 ∧ win2_4.index t (1 : Fin 2) = 0
    ∧ win2_5.index t (0 : Fin 2) = t.val / 8 ∧ win2_5.index t (1 : Fin 2) = 0
    ∧ win2_6.index t (0 : Fin 2) = 0 ∧ win2_6.index t (1 : Fin 2) = 0
    ∧ win2_7.index t (0 : Fin 2) = t.val / 8 ∧ win2_7.index t (1 : Fin 2) = 0 :=
  (by decide +kernel : ∀ t : Fin grid2.N, _)

/-! ## The blocks read back as entries of the region-entry arrays -/

/-- Window 0 at point t: the incidence columns of block t / 8. -/
theorem blk0_apply (c : Dev nD) (t : Fin cfg2.N) (n : Fin 2048) (r : Fin 512) (K : Fin 4096) (hK : K.val = 512 * (t.val / 8) + r.val) :
    (iblk2 V c 0 t : FVec Ideal S2048x512 .f32) (ix2 n r) = (V c main_arg3 : S2048x4096.Idx → EReal) (ix2 n K) := by
  show (V c main_arg3 : S2048x4096.Idx → EReal) (((cfg2.win 0).blk t).view.emb (ix2 n r)) = _
  refine congrArg _ (funext fun a => Fin.ext ?_)
  obtain ⟨e00, e01, -⟩ := idx2 t
  match a with
  | ⟨0, _⟩ => show win2_0.index t (0 : Fin 2) * 2048 + 1 * n.val = n.val; rw [e00]; omega
  | ⟨1, _⟩ => show win2_0.index t (1 : Fin 2) * 512 + 1 * r.val = K.val; rw [e01, hK]; omega

/-- Window 1 at point t: the incidence columns of block t % 8. -/
theorem blk1_apply (c : Dev nD) (t : Fin cfg2.N) (n : Fin 2048) (s : Fin 512) (K : Fin 4096) (hK : K.val = (t.val % 8) * 512 + s.val) :
    (iblk2 V c 1 t : FVec Ideal S2048x512 .f32) (ix2 n s) = (V c main_arg3 : S2048x4096.Idx → EReal) (ix2 n K) := by
  show (V c main_arg3 : S2048x4096.Idx → EReal) (((cfg2.win 1).blk t).view.emb (ix2 n s)) = _
  refine congrArg _ (funext fun a => Fin.ext ?_)
  obtain ⟨-, -, e10, e11, -⟩ := idx2 t
  match a with
  | ⟨0, _⟩ => show win2_1.index t (0 : Fin 2) * 2048 + 1 * n.val = n.val; rw [e10]; omega
  | ⟨1, _⟩ => show win2_1.index t (1 : Fin 2) * 512 + 1 * s.val = K.val; rw [e11, hK]; omega

/-- Window 2 at point t: tile (t / 8, t % 8) of the edge Laplacian. -/
theorem blk2_apply (c : Dev nD) (t : Fin cfg2.N) (p s : Fin 512) (k K : Fin 4096) (hk : k.val = 512 * (t.val / 8) + p.val)
    (hK : K.val = (t.val % 8) * 512 + s.val) :
    (iblk2 V c 2 t : FVec Ideal S512x512 .f32) (ix2 p s) = (V c main_arg2 : S4096x4096.Idx → EReal) (ix2 k K) := by
  show (V c main_arg2 : S4096x4096.Idx → EReal) (((cfg2.win 2).blk t).view.emb (ix2 p s)) = _
  refine congrArg _ (funext fun a => Fin.ext ?_)
  obtain ⟨-, -, -, -, e20, e21, -⟩ := idx2 t
  match a with
  | ⟨0, _⟩ => show win2_2.index t (0 : Fin 2) * 512 + 1 * p.val = k.val; rw [e20, hk]; omega
  | ⟨1, _⟩ => show win2_2.index t (1 : Fin 2) * 512 + 1 * s.val = K.val; rw [e21, hK]; omega

/-- Window 3 at point t: rows of block t % 8 of e·W_e. -/
theorem blk3_apply (c : Dev nD) (t : Fin cfg2.N) (s : Fin 512) (q : Fin 16) (K : Fin 4096) (hK : K.val = (t.val % 8) * 512 + s.val) :
    (iblk2 V c 3 t : FVec Ideal S512x16 .f32) (ix2 s q) = (V c main_v2_3 : S4096x16.Idx → EReal) (ix2 K q) := by
  show (V c main_v2_3 : S4096x16.Idx → EReal) (((cfg2.win 3).blk t).view.emb (ix2 s q)) = _
  refine congrArg _ (funext fun a => Fin.ext ?_)
  obtain ⟨-, -, -, -, -, -, e30, e31, -⟩ := idx2 t
  match a with
  | ⟨0, _⟩ => show win2_3.index t (0 : Fin 2) * 512 + 1 * s.val = K.val; rw [e30, hK]; omega
  | ⟨1, _⟩ => show win2_3.index t (1 : Fin 2) * 16 + 1 * q.val = q.val; rw [e31]; omega

/-- Window 4 at every point: the whole column of node weights. -/
theorem blk4_apply (c : Dev nD) (t : Fin cfg2.N) (n : Fin 2048) :
    (iblk2 V c 4 t : FVec Ideal S2048x1 .f32) (ix2 n (0 : Fin 1)) = (V c main_v2_1 : S2048x1.Idx → EReal) (ix2 n 0) := by
  show (V c main_v2_1 : S2048x1.Idx → EReal) (((cfg2.win 4).blk t).view.emb (ix2 n (0 : Fin 1))) = _
  refine congrArg _ (funext fun a => Fin.ext ?_)
  obtain ⟨-, -, -, -, -, -, -, -, e40, e41, -⟩ := idx2 t
  match a with
  | ⟨0, _⟩ => show win2_4.index t (0 : Fin 2) * 2048 + 1 * n.val = n.val; rw [e40]; omega
  | ⟨1, _⟩ => show win2_4.index t (1 : Fin 2) * 1 + 1 * 0 = 0; rw [e41]

/-- Window 5 at point t: rows of block t / 8 of e. -/
theorem blk5_apply (c : Dev nD) (t : Fin cfg2.N) (p : Fin 512) (q : Fin 16) (k : Fin 4096) (hk : k.val = 512 * (t.val / 8) + p.val) :
    (iblk2 V c 5 t : FVec Ideal S512x16 .f32) (ix2 p q) = (V c main_arg4 : S4096x16.Idx → EReal) (ix2 k q) := by
  show (V c main_arg4 : S4096x16.Idx → EReal) (((cfg2.win 5).blk t).view.emb (ix2 p q)) = _
  refine congrArg _ (funext fun a => Fin.ext ?_)
  obtain ⟨-, -, -, -, -, -, -, -, -, -, e50, e51, -⟩ := idx2 t
  match a with
  | ⟨0, _⟩ => show win2_5.index t (0 : Fin 2) * 512 + 1 * p.val = k.val; rw [e50, hk]; omega
  | ⟨1, _⟩ => show win2_5.index t (1 : Fin 2) * 16 + 1 * q.val = q.val; rw [e51]; omega

/-- Window 6 at every point: the whole bias row. -/
theorem blk6_apply (c : Dev nD) (t : Fin cfg2.N) (q : Fin 16) :
    (iblk2 V c 6 t : FVec Ideal S1x16 .f32) (ix2 (0 : Fin 1) q) = (V c main_v1 : S1x16.Idx → EReal) (ix2 0 q) := by
  show (V c main_v1 : S1x16.Idx → EReal) (((cfg2.win 6).blk t).view.emb (ix2 (0 : Fin 1) q)) = _
  refine congrArg _ (funext fun a => Fin.ext ?_)
  obtain ⟨-, -, -, -, -, -, -, -, -, -, -, -, e60, e61, -⟩ := idx2 t
  match a with
  | ⟨0, _⟩ => show win2_6.index t (0 : Fin 2) * 1 + 1 * 0 = 0; rw [e60]
  | ⟨1, _⟩ => show win2_6.index t (1 : Fin 2) * 16 + 1 * q.val = q.val; rw [e61]; omega

/-! ## One grid point's contribution, and the running sum along a row of the grid -/

/-- The summand of the result's row k, column d, at source edge k'. -/
def summand (c : Dev nD) (k : Fin 4096) (d : Fin 16) (k' : Fin 4096) : EReal :=
  (Cert.Spec.edgeProp (incA V c) (fun a => phA V c (ix2 a 0)) k k' * leA V c (ix2 k k')) * ewA V c (ix2 k' d)

/-- The part of the sum over the 512 source edges of column block j' (zero past the eight blocks). -/
def blockSum (c : Dev nD) (k : Fin 4096) (d : Fin 16) (j' : Nat) : EReal :=
  if h : j' < 8 then ∑ s : Fin 512, summand V c k d ⟨j' * 512 + s.val, by have := s.isLt; omega⟩ else 0

/-- The body's contribution at point t, entry (p, q) of the block, is the block sum of column block t % 8 for
    the array's row k = 512·(t / 8) + p. -/
theorem point_contrib (c : Dev nD) (t : Fin cfg2.N) (p : Fin 512) (q : Fin 16) (k : Fin 4096)
    (hk : k.val = 512 * (t.val / 8) + p.val) :
    k2_pay1 (F := Ideal) (iblk2 V c 1 t) (iblk2 V c 4 t) (iblk2 V c 0 t) (iblk2 V c 2 t) (iblk2 V c 3 t) (ix2 p q)
      = blockSum V c k q (t.val % 8) := by
  refine (pay1_apply (iblk2 V c 1 t) (iblk2 V c 4 t) (iblk2 V c 0 t) (iblk2 V c 2 t) (iblk2 V c 3 t) p q).trans ?_
  unfold blockSum
  rw [dif_pos (Nat.mod_lt _ (by decide))]
  refine Finset.sum_congr rfl fun s _ => ?_
  unfold summand Cert.Spec.edgeProp
  refine congrArg₂ (fun x y : EReal => x * y) (congrArg₂ (fun x y : EReal => x * y) (Finset.sum_congr rfl fun n _ => ?_)
    (blk2_apply V c t p s k _ hk rfl)) (blk3_apply V c t s q _ rfl)
  exact congrArg₂ (fun x y : EReal => x * y) (blk0_apply V c t n p k hk)
    (congrArg₂ (fun x y : EReal => x * y) (blk1_apply V c t n s _ rfl) (blk4_apply V c t n))

/-- At a point with j = 0 the buffer holds (residual + bias) + that point's contribution. -/
theorem reset_apply (c : Dev nD) (t : Fin cfg2.N) (h0 : t.val % 8 = 0) (p : Fin 512) (q : Fin 16) (k : Fin 4096)
    (hk : k.val = 512 * (t.val / 8) + p.val) :
    (outsAt2 V c t.val t.isLt : FVec Ideal S512x16 .f32) (ix2 p q)
      = (eA V c (ix2 k q) + bA V c (ix2 0 q))
        + blockSum V c k q (t.val % 8) := by
  rw [outsAt2_A V c t h0, out2_A_eq]
  refine (pay2_apply (iblk2 V c 1 t) (iblk2 V c 4 t) (iblk2 V c 0 t) (iblk2 V c 2 t) (iblk2 V c 3 t) (iblk2 V c 5 t) (iblk2 V c 6 t) p q).trans ?_
  exact congrArg₂ (fun x y : EReal => x + y)
    (congrArg₂ (fun x y : EReal => x + y) (blk5_apply V c t p q k hk) (blk6_apply V c t q)) (point_contrib V c t p q k hk)

/-- At a point with j ≠ 0 the buffer holds what the point before left plus that point's contribution. -/
theorem step_apply (c : Dev nD) (t : Fin cfg2.N) (h0 : ¬t.val % 8 = 0) (p : Fin 512) (q : Fin 16) (k : Fin 4096)
    (hk : k.val = 512 * (t.val / 8) + p.val) :
    (outsAt2 V c t.val t.isLt : FVec Ideal S512x16 .f32) (ix2 p q)
      = (outsAt2 V c (t.val - 1) (Nat.lt_of_le_of_lt (Nat.sub_le _ _) t.isLt) : FVec Ideal S512x16 .f32) (ix2 p q)
        + blockSum V c k q (t.val % 8) := by
  rw [outsAt2_B V c t h0, out2_B_eq]
  refine (pay3_apply (iblk2 V c 1 t) (iblk2 V c 4 t) (iblk2 V c 0 t) (iblk2 V c 2 t) (iblk2 V c 3 t)
    (outsAt2 V c (t.val - 1) (Nat.lt_of_le_of_lt (Nat.sub_le _ _) t.isLt)) p q).trans ?_
  exact congrArg (fun y : EReal => (outsAt2 V c (t.val - 1) (Nat.lt_of_le_of_lt (Nat.sub_le _ _) t.isLt) : FVec Ideal S512x16 .f32) (ix2 p q) + y)
    (point_contrib V c t p q k hk)

/-- The buffer at two names of one point. -/
theorem outsAt2_same (c : Dev nD) (u n : Nat) (hu : u < cfg2.N) (hn : n < cfg2.N) (e : u = n) :
    outsAt2 V c u hu = outsAt2 V c n hn := by subst e; rfl

/-- THE RUNNING SUM: after point 8·i + j the buffer's entry (p, q) holds residual plus bias plus the block sums of
    column blocks 0 … j, for the array's row k = 512·i + p. -/
theorem row_inv (c : Dev nD) (i : Fin 8) (p : Fin 512) (q : Fin 16) (k : Fin 4096) (hk : k.val = 512 * i.val + p.val) :
    ∀ (j : Nat) (hj : j < 8) (h : 8 * i.val + j < cfg2.N),
      (outsAt2 V c (8 * i.val + j) h : FVec Ideal S512x16 .f32) (ix2 p q)
        = (eA V c (ix2 k q) + bA V c (ix2 0 q))
          + ∑ j' ∈ Finset.range (j + 1), blockSum V c k q j'
  | 0, hj, h => by
    have h0 : (⟨8 * i.val + 0, h⟩ : Fin cfg2.N).val % 8 = 0 := by show (8 * i.val + 0) % 8 = 0; omega
    have hk' : k.val = 512 * ((⟨8 * i.val + 0, h⟩ : Fin cfg2.N).val / 8) + p.val := by
      show k.val = 512 * ((8 * i.val + 0) / 8) + p.val; omega
    refine (reset_apply V c ⟨8 * i.val + 0, h⟩ h0 p q k hk').trans ?_
    rw [Finset.sum_range_one]
    show _ + blockSum V c k q ((8 * i.val + 0) % 8) = _
    rw [show (8 * i.val + 0) % 8 = 0 by omega]
  | j + 1, hj, h => by
    have hne : ¬(⟨8 * i.val + (j + 1), h⟩ : Fin cfg2.N).val % 8 = 0 := by show ¬(8 * i.val + (j + 1)) % 8 = 0; omega
    have hk' : k.val = 512 * ((⟨8 * i.val + (j + 1), h⟩ : Fin cfg2.N).val / 8) + p.val := by
      show k.val = 512 * ((8 * i.val + (j + 1)) / 8) + p.val; omega
    refine (step_apply V c ⟨8 * i.val + (j + 1), h⟩ hne p q k hk').trans ?_
    rw [Finset.sum_range_succ]
    refine Eq.trans ?_ (add_assoc _ _ _)
    show (outsAt2 V c (8 * i.val + (j + 1) - 1) _ : FVec Ideal S512x16 .f32) (ix2 p q) + blockSum V c k q ((8 * i.val + (j + 1)) % 8) = _
    rw [show (8 * i.val + (j + 1)) % 8 = j + 1 by omega,
      outsAt2_same V c (8 * i.val + (j + 1) - 1) (8 * i.val + j) _ (by omega) (by omega),
      row_inv c i p q k hk j (by omega) (by omega)]

/-! ## From the eight row blocks to the array -/

/-- The result as one function of the array index. -/
def G2 (c : Dev nD) : S4096x16.Idx → EReal := fun i =>
  Cert.Spec.edgesOf (eA V c) (leA V c) (incA V c) (fun a b => ewA V c (ix2 a b)) (fun a => phA V c (ix2 a 0)) (fun b => bA V c (ix2 0 b))
    ⟨(i 0).val, idx2_lt0 i⟩ ⟨(i 1).val, idx2_lt1 i⟩

/-- `G2` at an index whose coordinates are (k, d). -/
theorem G2_apply (c : Dev nD) (i : S4096x16.Idx) (k : Fin 4096) (d : Fin 16) (h0 : (i 0).val = k.val) (h1 : (i 1).val = d.val) :
    G2 V c i = Cert.Spec.edgesOf (eA V c) (leA V c) (incA V c) (fun a b => ewA V c (ix2 a b)) (fun a => phA V c (ix2 a 0))
      (fun b => bA V c (ix2 0 b)) k d := by
  have e0 : (⟨(i 0).val, idx2_lt0 i⟩ : Fin 4096) = k := Fin.ext h0
  have e1 : (⟨(i 1).val, idx2_lt1 i⟩ : Fin 16) = d := Fin.ext h1
  unfold G2
  rw [e0, e1]

/-- The sum over all 4096 source edges is the sum of the eight block sums. -/
theorem edgesOf_eq_blocks (c : Dev nD) (k : Fin 4096) (d : Fin 16) :
    Cert.Spec.edgesOf (eA V c) (leA V c) (incA V c) (fun a b => ewA V c (ix2 a b)) (fun a => phA V c (ix2 a 0))
      (fun b => bA V c (ix2 0 b)) k d
      = (eA V c (ix2 k d) + bA V c (ix2 0 d)) + ∑ j' ∈ Finset.range 8, blockSum V c k d j' := by
  unfold Cert.Spec.edgesOf
  refine congrArg (fun y : EReal => (eA V c (ix2 k d) + bA V c (ix2 0 d)) + y) ?_
  rw [Finset.sum_range]
  refine (Cert.Spec.sum_blocks 8 512 (fun k' : Fin (8 * 512) => summand V c k d k')).trans ?_
  refine Finset.sum_congr rfl fun j' _ => ?_
  unfold blockSum
  rw [dif_pos j'.isLt]

/-- What a point with j = 7 writes back is its block of `G2`. -/
theorem flushed7_eq (c : Dev nD) (t : Fin cfg2.N) (hf : (cfg2.win 7).flush t = true) :
    (dat2 (F := Ideal) V c).flushed 7 t = ((cfg2.win 7).blk t).view.read (Elt Ideal) (G2 V c) := by
  have h7 : t.val % 8 = 7 := (flush2_7 t).mp hf
  have hN : cfg2.N = 64 := N_2
  have htl : t.val < cfg2.N := t.isLt
  have hi : t.val / 8 < 8 := by omega
  show (cfg2.win 7).cut (grid2.coords t) ((dat2 (F := Ideal) V c).after 7 t) = _
  rw [after2_7]
  funext y
  obtain ⟨p, q, rfl⟩ : ∃ (p : Fin 512) (q : Fin 16), y = ix2 p q := ⟨y 0, y 1, eq_ix2 y⟩
  obtain ⟨-, -, -, -, -, -, -, -, -, -, -, -, -, -, e70, e71⟩ := idx2 t
  obtain ⟨k, hk⟩ : ∃ k : Fin 4096, k.val = 512 * (t.val / 8) + p.val := ⟨⟨512 * (t.val / 8) + p.val, by have := p.isLt; omega⟩, rfl⟩
  show (outsAt2 V c t.val t.isLt : FVec Ideal S512x16 .f32) (ix2 p q) = G2 V c (((cfg2.win 7).blk t).view.emb (ix2 p q))
  rw [G2_apply V c _ k q
      (by show win2_7.index t (0 : Fin 2) * 512 + 1 * p.val = k.val; rw [e70, hk]; omega)
      (by show win2_7.index t (1 : Fin 2) * 16 + 1 * q.val = q.val; rw [e71]; omega),
    edgesOf_eq_blocks,
    outsAt2_same V c t.val (8 * (t.val / 8) + 7) t.isLt (by omega) (by omega)]
  exact row_inv V c ⟨t.val / 8, hi⟩ p q k hk 7 (by decide) (by show 8 * (t.val / 8) + 7 < cfg2.N; omega)

/-- Every entry of the array lies in the block some point with j = 7 writes back: row r in that of point 8·(r / 512) + 7. -/
theorem cover7 (i : S4096x16.Idx) :
    ∃ t : Fin cfg2.N, (cfg2.win 7).flush t = true ∧ i ∈ ((cfg2.win 7).blk t).view.set := by
  have hN : cfg2.N = 64 := N_2
  have h0 : (i 0).val < 4096 := idx2_lt0 i
  have h1 : (i 1).val < 16 := idx2_lt1 i
  obtain ⟨t, ht⟩ : ∃ t : Fin cfg2.N, t.val = 8 * ((i 0).val / 512) + 7 := ⟨⟨8 * ((i 0).val / 512) + 7, by omega⟩, rfl⟩
  refine ⟨t, (flush2_7 t).mpr (by omega), ?_⟩
  obtain ⟨-, -, -, -, -, -, -, -, -, -, -, -, -, -, e70, e71⟩ := idx2 t
  show i ∈ ((View.whole main_v4).slice (win2_7.rect t)).set
  rw [View.set_slice_whole, Rect.mem_set_unit]
  intro a
  match a with
  | ⟨0, _⟩ =>
    show win2_7.index t (0 : Fin 2) * 512 ≤ (i 0).val ∧ (i 0).val < win2_7.index t (0 : Fin 2) * 512 + 512
    rw [e70]; omega
  | ⟨1, _⟩ =>
    show win2_7.index t (1 : Fin 2) * 16 ≤ (i 1).val ∧ (i 1).val < win2_7.index t (1 : Fin 2) * 16 + 16
    rw [e71]; omega

/-- After the 64 grid points the output array holds `edgesOf` of the region's entry arrays. -/
theorem arr2_7 (c : Dev nD) (k : Fin 4096) (d : Fin 16) :
    ((dat2 (F := Ideal) V c).arrAt 7 cfg2.N : S4096x16.Idx → EReal) (ix2 k d)
      = Cert.Spec.edgesOf (V c main_arg4) (V c main_arg2) (V c main_arg3) (fun a b => (V c main_v2_3 : S4096x16.Idx → EReal) (ix2 a b))
          (fun a => (V c main_v2_1 : S2048x1.Idx → EReal) (ix2 a 0)) (fun b => (V c main_v1 : S1x16.Idx → EReal) (ix2 0 b)) k d := by
  have hfin := (dat2 (F := Ideal) V c).arrAt_eq_of_cover 7 (G2 V c) (flushed7_eq V c) cover7
  exact (congrFun hfin (ix2 k d)).trans (G2_apply V c (ix2 k d) k d rfl rfl)

end Cert.KernelIdeal.Val

end
-- ==== Proof.Val0.lean ====
/-
  Region 0's four results, entry by entry, as the specification's sums of the entry arrays.
-/
import proofs.«109357_g24051816857981_cont_8to1_1327_2_alg».proof.Proof.KI.D0
import proofs.«109357_g24051816857981_cont_8to1_1327_2_alg».proof.Proof.Spec
import proofs.«109357_g24051816857981_cont_8to1_1327_2_alg».proof.Proof.LibPlainDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-! ## The one grid point -/

/-- The grid has one point, so two points that write back are never distinct. -/
theorem one_point (w : Fin cfg0.W) : ∀ t t' : Fin cfg0.N, (cfg0.win w).flush t = true → (cfg0.win w).flush t' = true → t ≠ t' →
      Disjoint ((cfg0.win w).blk t).view.set ((cfg0.win w).blk t').view.set :=
  fun t t' _ _ hne => absurd ((fin_N0 t).trans (fin_N0 t').symm) hne

/-! ## Every window is its whole array: an entry of the block sits at the same entry of the array

On each axis the block index is 0 and the block's size the array's, so the array coordinate of the block's
coordinate `y a` is `0 * size + 1 * y a`. -/

theorem emb0_0 (t : Fin cfg0.N) (y : S2048x128.Idx) : ((cfg0.win 0).blk t).view.emb y = y := by
  funext a; apply Fin.ext
  match a with
  | ⟨0, _⟩ => show 0 * 2048 + 1 * (y 0).val = (y 0).val; omega
  | ⟨1, _⟩ => show 0 * 128 + 1 * (y 1).val = (y 1).val; omega
theorem emb0_1 (t : Fin cfg0.N) (y : S4096x16.Idx) : ((cfg0.win 1).blk t).view.emb y = y := by
  funext a; apply Fin.ext
  match a with
  | ⟨0, _⟩ => show 0 * 4096 + 1 * (y 0).val = (y 0).val; omega
  | ⟨1, _⟩ => show 0 * 16 + 1 * (y 1).val = (y 1).val; omega
theorem emb0_2 (t : Fin cfg0.N) (y : S128x128.Idx) : ((cfg0.win 2).blk t).view.emb y = y := by
  funext a; apply Fin.ext
  match a with
  | ⟨0, _⟩ => show 0 * 128 + 1 * (y 0).val = (y 0).val; omega
  | ⟨1, _⟩ => show 0 * 128 + 1 * (y 1).val = (y 1).val; omega
theorem emb0_3 (t : Fin cfg0.N) (y : S16x16.Idx) : ((cfg0.win 3).blk t).view.emb y = y := by
  funext a; apply Fin.ext
  match a with
  | ⟨0, _⟩ => show 0 * 16 + 1 * (y 0).val = (y 0).val; omega
  | ⟨1, _⟩ => show 0 * 16 + 1 * (y 1).val = (y 1).val; omega
theorem emb0_4 (t : Fin cfg0.N) (y : S16x1.Idx) : ((cfg0.win 4).blk t).view.emb y = y := by
  funext a; apply Fin.ext
  match a with
  | ⟨0, _⟩ => show 0 * 16 + 1 * (y 0).val = (y 0).val; omega
  | ⟨1, _⟩ => show 0 * 1 + 1 * (y 1).val = (y 1).val; omega
theorem emb0_5 (t : Fin cfg0.N) (y : S128x1.Idx) : ((cfg0.win 5).blk t).view.emb y = y := by
  funext a; apply Fin.ext
  match a with
  | ⟨0, _⟩ => show 0 * 128 + 1 * (y 0).val = (y 0).val; omega
  | ⟨1, _⟩ => show 0 * 1 + 1 * (y 1).val = (y 1).val; omega
theorem emb0_6 (t : Fin cfg0.N) (y : S1x4096.Idx) : ((cfg0.win 6).blk t).view.emb y = y := by
  funext a; apply Fin.ext
  match a with
  | ⟨0, _⟩ => show 0 * 1 + 1 * (y 0).val = (y 0).val; omega
  | ⟨1, _⟩ => show 0 * 4096 + 1 * (y 1).val = (y 1).val; omega
theorem emb0_7 (t : Fin cfg0.N) (y : S2048x1.Idx) : ((cfg0.win 7).blk t).view.emb y = y := by
  funext a; apply Fin.ext
  match a with
  | ⟨0, _⟩ => show 0 * 2048 + 1 * (y 0).val = (y 0).val; omega
  | ⟨1, _⟩ => show 0 * 1 + 1 * (y 1).val = (y 1).val; omega
theorem emb0_8 (t : Fin cfg0.N) (y : S2048x128.Idx) : ((cfg0.win 8).blk t).view.emb y = y := by
  funext a; apply Fin.ext
  match a with
  | ⟨0, _⟩ => show 0 * 2048 + 1 * (y 0).val = (y 0).val; omega
  | ⟨1, _⟩ => show 0 * 128 + 1 * (y 1).val = (y 1).val; omega
theorem emb0_9 (t : Fin cfg0.N) (y : S4096x16.Idx) : ((cfg0.win 9).blk t).view.emb y = y := by
  funext a; apply Fin.ext
  match a with
  | ⟨0, _⟩ => show 0 * 4096 + 1 * (y 0).val = (y 0).val; omega
  | ⟨1, _⟩ => show 0 * 16 + 1 * (y 1).val = (y 1).val; omega

/-! ## The input blocks are the argument arrays -/

theorem iblk0_0 (c : Dev nD) (t : Fin cfg0.N) : (iblk0 (F := Ideal) V c 0 t : S2048x128.Idx → EReal) = V c main_arg0 := by
  funext y
  show V c main_arg0 (((cfg0.win 0).blk t).view.emb y) = V c main_arg0 y
  rw [emb0_0]
theorem iblk0_1 (c : Dev nD) (t : Fin cfg0.N) : (iblk0 (F := Ideal) V c 1 t : S4096x16.Idx → EReal) = V c main_arg4 := by
  funext y
  show V c main_arg4 (((cfg0.win 1).blk t).view.emb y) = V c main_arg4 y
  rw [emb0_1]
theorem iblk0_2 (c : Dev nD) (t : Fin cfg0.N) : (iblk0 (F := Ideal) V c 2 t : S128x128.Idx → EReal) = V c main_arg5 := by
  funext y
  show V c main_arg5 (((cfg0.win 2).blk t).view.emb y) = V c main_arg5 y
  rw [emb0_2]
theorem iblk0_3 (c : Dev nD) (t : Fin cfg0.N) : (iblk0 (F := Ideal) V c 3 t : S16x16.Idx → EReal) = V c main_arg6 := by
  funext y
  show V c main_arg6 (((cfg0.win 3).blk t).view.emb y) = V c main_arg6 y
  rw [emb0_3]
theorem iblk0_4 (c : Dev nD) (t : Fin cfg0.N) : (iblk0 (F := Ideal) V c 4 t : S16x1.Idx → EReal) = V c main_arg7 := by
  funext y
  show V c main_arg7 (((cfg0.win 4).blk t).view.emb y) = V c main_arg7 y
  rw [emb0_4]
theorem iblk0_5 (c : Dev nD) (t : Fin cfg0.N) : (iblk0 (F := Ideal) V c 5 t : S128x1.Idx → EReal) = V c main_arg8 := by
  funext y
  show V c main_arg8 (((cfg0.win 5).blk t).view.emb y) = V c main_arg8 y
  rw [emb0_5]

/-! ## The product contracting the left operand's axis 0 with the right operand's axis 1

For p_node (16×1) and e (4096×16) the result (1×4096) at `(0, k)` is `∑ d, p_node (d, 0) * e (k, d)`: the left
operand's axis 0 and the right operand's axis 1 carry the contraction position, the left operand's axis 1 is the
result's axis 0 and the right operand's axis 0 the result's axis 1. -/

/-- The contraction index is its one coordinate, a number below 16. -/
abbrev kEquivT : dot_S16x1_S4096x16_S1x4096_0_1_1_0_n_n.contr.Idx ≃ Fin 16 :=
  contrEquiv1 dot_S16x1_S4096x16_S1x4096_0_1_1_0_n_n 16 rfl rfl

/-- The left operand's axis 0 is the contraction position. -/
theorem lhsT_axis0 (j : S1x4096.Idx) (c : dot_S16x1_S4096x16_S1x4096_0_1_1_0_n_n.contr.Idx) :
    (dot_S16x1_S4096x16_S1x4096_0_1_1_0_n_n.lhsIdx j c 0).val = (c ⟨0, Nat.one_pos⟩).val :=
  dot_S16x1_S4096x16_S1x4096_0_1_1_0_n_n.lhsIdx_val_of_single rfl j c

/-- The left operand's axis 1 is the result's axis 0. -/
theorem lhsT_axis1 (j : S1x4096.Idx) (c : dot_S16x1_S4096x16_S1x4096_0_1_1_0_n_n.contr.Idx) :
    (dot_S16x1_S4096x16_S1x4096_0_1_1_0_n_n.lhsIdx j c 1).val = (j 0).val := by
  unfold DotDims.lhsIdx
  rw [dif_neg (show ¬(1 : Fin S16x1.rank) ∈ dot_S16x1_S4096x16_S1x4096_0_1_1_0_n_n.lhsBatch from List.not_mem_nil),
    dif_pos (show (1 : Fin S16x1.rank) ∈ dot_S16x1_S4096x16_S1x4096_0_1_1_0_n_n.lhsNonContracting from List.mem_singleton.2 rfl)]
  rfl

/-- The right operand's axis 0 is the result's axis 1. -/
theorem rhsT_axis0 (j : S1x4096.Idx) (c : dot_S16x1_S4096x16_S1x4096_0_1_1_0_n_n.contr.Idx) :
    (dot_S16x1_S4096x16_S1x4096_0_1_1_0_n_n.rhsIdx j c 0).val = (j 1).val := by
  unfold DotDims.rhsIdx
  rw [dif_neg (show ¬(0 : Fin S4096x16.rank) ∈ dot_S16x1_S4096x16_S1x4096_0_1_1_0_n_n.rhsBatch from List.not_mem_nil),
    dif_pos (show (0 : Fin S4096x16.rank) ∈ dot_S16x1_S4096x16_S1x4096_0_1_1_0_n_n.rhsNonContracting from List.mem_singleton.2 rfl)]
  rfl

/-- The right operand's axis 1 is the contraction position. -/
theorem rhsT_axis1 (j : S1x4096.Idx) (c : dot_S16x1_S4096x16_S1x4096_0_1_1_0_n_n.contr.Idx) :
    (dot_S16x1_S4096x16_S1x4096_0_1_1_0_n_n.rhsIdx j c 1).val = (c ⟨0, Nat.one_pos⟩).val :=
  dot_S16x1_S4096x16_S1x4096_0_1_1_0_n_n.rhsIdx_val_of_single rfl j c

/-- At result entry `(0, k)` and contraction position `d` the left operand is read at `(d, 0)`. -/
theorem lhsIdxT_eq (k : Fin 4096) (d : Fin 16) :
    dot_S16x1_S4096x16_S1x4096_0_1_1_0_n_n.lhsIdx (ix2 (0 : Fin 1) k) (kEquivT.symm d) = ix2 d (0 : Fin 1) := by
  have hd := contrEquiv1_symm_val dot_S16x1_S4096x16_S1x4096_0_1_1_0_n_n 16 rfl rfl d
  exact funext fun a => Fin.ext (by
    match a with
    | ⟨0, _⟩ => exact (lhsT_axis0 _ _).trans hd
    | ⟨1, _⟩ => exact lhsT_axis1 _ _)

/-- At result entry `(0, k)` and contraction position `d` the right operand is read at `(k, d)`. -/
theorem rhsIdxT_eq (k : Fin 4096) (d : Fin 16) :
    dot_S16x1_S4096x16_S1x4096_0_1_1_0_n_n.rhsIdx (ix2 (0 : Fin 1) k) (kEquivT.symm d) = ix2 k d := by
  have hd := contrEquiv1_symm_val dot_S16x1_S4096x16_S1x4096_0_1_1_0_n_n 16 rfl rfl d
  exact funext fun a => Fin.ext (by
    match a with
    | ⟨0, _⟩ => exact rhsT_axis0 _ _
    | ⟨1, _⟩ => exact (rhsT_axis1 _ _).trans hd)

/-! ## The four payloads at an entry -/

/-- The product with these dimension numbers into the zero accumulator, at entry `(0, k)`. -/
theorem matmulT_zero_apply (prec : Option ContractPrecision) (lhs : FVec Ideal S16x1 .f32) (rhs : FVec Ideal S4096x16 .f32)
    (k : Fin 4096) :
    FloatOps.matmul dot_S16x1_S4096x16_S1x4096_0_1_1_0_n_n prec lhs rhs (constant S1x4096 .f32 0x00000000#32) (ix2 (0 : Fin 1) k)
      = ∑ d : Fin 16, lhs (ix2 d (0 : Fin 1)) * rhs (ix2 k d) := by
  rw [Ideal.matmul_constant_zero_apply, ← Equiv.sum_comp kEquivT.symm]
  refine Finset.sum_congr rfl fun d _ => ?_
  rw [lhsIdxT_eq, rhsIdxT_eq]

/-- p_nodeᵀ·eᵀ at `(0, k)`. -/
theorem pay1_apply (x4 : Vec Ideal S16x1 .f32) (x1 : Vec Ideal S4096x16 .f32) (k : Fin 4096) :
    k0_pay1 x4 x1 (ix2 (0 : Fin 1) k) = ∑ d : Fin 16, x4 (ix2 d (0 : Fin 1)) * x1 (ix2 k d) := by
  unfold k0_pay1
  exact matmulT_zero_apply none x4 x1 k

/-- x·p_edge at `(n, 0)`. -/
theorem pay2_apply (x0 : Vec Ideal S2048x128 .f32) (x5 : Vec Ideal S128x1 .f32) (n : Fin 2048) :
    k0_pay2 x0 x5 (ix2 n (0 : Fin 1)) = ∑ d : Fin 128, x0 (ix2 n d) * x5 (ix2 d (0 : Fin 1)) := by
  unfold k0_pay2
  exact Cert.Lib.PlainDot.matmul_zero_apply none x0 x5 n 0

/-- x·W_n at `(n, d)`. -/
theorem pay3_apply (x0 : Vec Ideal S2048x128 .f32) (x2 : Vec Ideal S128x128 .f32) (n : Fin 2048) (d : Fin 128) :
    k0_pay3 x0 x2 (ix2 n d) = ∑ k : Fin 128, x0 (ix2 n k) * x2 (ix2 k d) := by
  unfold k0_pay3
  exact Cert.Lib.PlainDot.matmul_zero_apply none x0 x2 n d

/-- e·W_e at `(k, d)`. -/
theorem pay4_apply (x1 : Vec Ideal S4096x16 .f32) (x3 : Vec Ideal S16x16 .f32) (k : Fin 4096) (d : Fin 16) :
    k0_pay4 x1 x3 (ix2 k d) = ∑ j : Fin 16, x1 (ix2 k j) * x3 (ix2 j d) := by
  unfold k0_pay4
  exact Cert.Lib.PlainDot.matmul_zero_apply none x1 x3 k d

/-! ## The four results

Each output array after the region is what the one point wrote back: the body's product of the input blocks, which
are the argument arrays. -/

/-- Result 0 (1×4096): the edge weights. -/
theorem arr0_6 (c : Dev nD) (k : Fin 4096) :
    ((dat0 (F := Ideal) V c).arrAt 6 cfg0.N : S1x4096.Idx → EReal) (ix2 0 k)
      = Cert.Spec.phiE (V c main_arg7) (V c main_arg4) k := by
  have h := (dat0 (F := Ideal) V c).arrAt_emb_eq_flushed 6 (one_point 6) t0_0 (flush0_6 t0_0) (ix2 (0 : Fin 1) k)
  rw [emb0_6] at h
  refine h.trans ?_
  show (dat0 (F := Ideal) V c).after 6 t0_0 (ix2 (0 : Fin 1) k) = _
  rw [after0_6, out0_6_eq, iblk0_4, iblk0_1, pay1_apply]
  rfl

/-- Result 1 (2048×1): the node weights. -/
theorem arr0_7 (c : Dev nD) (n : Fin 2048) :
    ((dat0 (F := Ideal) V c).arrAt 7 cfg0.N : S2048x1.Idx → EReal) (ix2 n 0)
      = Cert.Spec.phiV (V c main_arg0) (V c main_arg8) n := by
  have h := (dat0 (F := Ideal) V c).arrAt_emb_eq_flushed 7 (one_point 7) t0_0 (flush0_7 t0_0) (ix2 n (0 : Fin 1))
  rw [emb0_7] at h
  refine h.trans ?_
  show (dat0 (F := Ideal) V c).after 7 t0_0 (ix2 n (0 : Fin 1)) = _
  rw [after0_7, out0_7_eq, iblk0_0, iblk0_5, pay2_apply]
  rfl

/-- Result 2 (2048×128): x · W_n. -/
theorem arr0_8 (c : Dev nD) (n : Fin 2048) (d : Fin 128) :
    ((dat0 (F := Ideal) V c).arrAt 8 cfg0.N : S2048x128.Idx → EReal) (ix2 n d)
      = Cert.Spec.xW (V c main_arg0) (V c main_arg5) n d := by
  have h := (dat0 (F := Ideal) V c).arrAt_emb_eq_flushed 8 (one_point 8) t0_0 (flush0_8 t0_0) (ix2 n d)
  rw [emb0_8] at h
  refine h.trans ?_
  show (dat0 (F := Ideal) V c).after 8 t0_0 (ix2 n d) = _
  rw [after0_8, out0_8_eq, iblk0_0, iblk0_2, pay3_apply]
  rfl

/-- Result 3 (4096×16): e · W_e. -/
theorem arr0_9 (c : Dev nD) (k : Fin 4096) (d : Fin 16) :
    ((dat0 (F := Ideal) V c).arrAt 9 cfg0.N : S4096x16.Idx → EReal) (ix2 k d)
      = Cert.Spec.eW (V c main_arg4) (V c main_arg6) k d := by
  have h := (dat0 (F := Ideal) V c).arrAt_emb_eq_flushed 9 (one_point 9) t0_0 (flush0_9 t0_0) (ix2 k d)
  rw [emb0_9] at h
  refine h.trans ?_
  show (dat0 (F := Ideal) V c).after 9 t0_0 (ix2 k d) = _
  rw [after0_9, out0_9_eq, iblk0_1, iblk0_3, pay4_apply]
  rfl

end Cert.KernelIdeal.Val

end
-- ==== Proof.Bridge.lean ====
/-
  The two results of the kernel program as the specification of the LAUNCH memory: region 1 (region 2) is entered
  with the incidence matrix, the Laplacian and the features as launched, the biases reshaped to a row by the host
  stretch, and region 0's products in place; so what it leaves is `Spec.nodes` (`Spec.edges`) of the arguments.
-/
import proofs.«109357_g24051816857981_cont_8to1_1327_2_alg».proof.Proof.KI.Run
import proofs.«109357_g24051816857981_cont_8to1_1327_2_alg».proof.Proof.Val0
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.ShloMosaic.Pipeline (Dat Cfg Window)

variable (m : (ℓ : Loc nD τ sig) → Buf (Elt Ideal) ℓ)

/-! ## The arrays the host stretch does not write -/

/-- The host stretch writes the two bias rows only: every other array enters region 0 as launched. -/
theorem E1_of (c : Dev nD) (r : Ref sig .tc) (h : r ∉ (hostOps0_W : List (Ref sig .tc))) :
    E1 m c r = m ((c.tc : Thread nD τ).loc r) :=
  (V1_of m c r h).trans rfl

/-- Region 1 writes the node result only. -/
theorem E3_eq_E2 (c : Dev nD) (r : Ref sig .tc) (h : r ≠ main_v3) : E3 m c r = E2 m c r := E3_of_ne m c r h

/-! ## Region 0's four results, read after the region, are the specification's sums of the launch arrays -/

/-- x · W_n, as region 1 finds it. -/
theorem E2_xw (c : Dev nD) (a : Fin 2048) (b : Fin 128) :
    (E2 m c main_v2_2 : S2048x128.Idx → EReal) (ix2 a b) = Cert.Spec.xW (m ((c.tc : Thread nD τ).loc main_arg0)) (m ((c.tc : Thread nD τ).loc main_arg5)) a b := by
  have h : E2 m c main_v2_2 = (dat0 (E1 m) c).arrAt 8 cfg0.N := W2_arr m c 8
  rw [h, arr0_8 (E1 m) c a b, E1_of m c main_arg0 (by decide), E1_of m c main_arg5 (by decide)]

/-- The edge weights, as region 1 finds them. -/
theorem E2_phie (c : Dev nD) (a : Fin 4096) :
    (E2 m c main_v2_0 : S1x4096.Idx → EReal) (ix2 0 a) = Cert.Spec.phiE (m ((c.tc : Thread nD τ).loc main_arg7)) (m ((c.tc : Thread nD τ).loc main_arg4)) a := by
  have h : E2 m c main_v2_0 = (dat0 (E1 m) c).arrAt 6 cfg0.N := W2_arr m c 6
  rw [h, arr0_6 (E1 m) c a, E1_of m c main_arg7 (by decide), E1_of m c main_arg4 (by decide)]

/-- e · W_e, as region 2 finds it. -/
theorem E2_ew (c : Dev nD) (a : Fin 4096) (b : Fin 16) :
    (E2 m c main_v2_3 : S4096x16.Idx → EReal) (ix2 a b) = Cert.Spec.eW (m ((c.tc : Thread nD τ).loc main_arg4)) (m ((c.tc : Thread nD τ).loc main_arg6)) a b := by
  have h : E2 m c main_v2_3 = (dat0 (E1 m) c).arrAt 9 cfg0.N := W2_arr m c 9
  rw [h, arr0_9 (E1 m) c a b, E1_of m c main_arg4 (by decide), E1_of m c main_arg6 (by decide)]

/-- The node weights, as region 2 finds them. -/
theorem E2_phiv (c : Dev nD) (a : Fin 2048) :
    (E2 m c main_v2_1 : S2048x1.Idx → EReal) (ix2 a 0) = Cert.Spec.phiV (m ((c.tc : Thread nD τ).loc main_arg0)) (m ((c.tc : Thread nD τ).loc main_arg8)) a := by
  have h : E2 m c main_v2_1 = (dat0 (E1 m) c).arrAt 7 cfg0.N := W2_arr m c 7
  rw [h, arr0_7 (E1 m) c a, E1_of m c main_arg0 (by decide), E1_of m c main_arg8 (by decide)]

/-! ## The bias rows: the host stretch's reshapes of the launch's bias vectors -/

/-- The node bias row (1×128) at column `b` is the launch's bias vector at `b`: region 0 does not write it, and the
    host stretch made it by adding a leading unit axis. -/
theorem E2_bn (c : Dev nD) (b : Fin 128) :
    (E2 m c main_v0 : S1x128.Idx → EReal) (ix2 0 b) = (m ((c.tc : Thread nD τ).loc main_arg9)) (ix1 b) := by
  have e : (V1 m c main_v0 : S1x128.Idx → EReal)
      = shapeCast S1x128 (m ((c.tc : Thread nD τ).loc main_arg9)) shapeCasts_S128_S1x128 := by
    dsimp only [V1, V0, hostOps0]; after_results; rfl
  have h : E2 m c main_v0 = V1 m c main_v0 := W2_of_ne m c main_v0 (by decide)
  rw [h, e]
  exact shapeCast_a_1a_apply _ _ 0 b

/-- The edge bias row (1×16), likewise. -/
theorem E2_be (c : Dev nD) (b : Fin 16) :
    (E2 m c main_v1 : S1x16.Idx → EReal) (ix2 0 b) = (m ((c.tc : Thread nD τ).loc main_arg10)) (ix1 b) := by
  have e : (V1 m c main_v1 : S1x16.Idx → EReal)
      = shapeCast S1x16 (m ((c.tc : Thread nD τ).loc main_arg10)) shapeCasts_S16_S1x16 := by
    dsimp only [V1, V0, hostOps0]; after_results; rfl
  have h : E2 m c main_v1 = V1 m c main_v1 := W2_of_ne m c main_v1 (by decide)
  rw [h, e]
  exact shapeCast_a_1a_apply _ _ 0 b

/-- Region 1's ingredients are the specification's: the entry arrays are the launch's, the projected features and the
    edge weights are region 0's products, the bias row is the reshaped bias. -/
theorem nodes_ingredients (c : Dev nD) (n : Fin 2048) (d : Fin 128) :
    Cert.Spec.nodesOf (E2 m c main_arg0) (E2 m c main_arg1) (E2 m c main_arg3) (fun a b => (E2 m c main_v2_2 : S2048x128.Idx → EReal) (ix2 a b))
        (fun a => (E2 m c main_v2_0 : S1x4096.Idx → EReal) (ix2 0 a)) (fun b => (E2 m c main_v0 : S1x128.Idx → EReal) (ix2 0 b)) n d
      = Cert.Spec.nodes (m ((c.tc : Thread nD τ).loc main_arg0)) (m ((c.tc : Thread nD τ).loc main_arg1)) (m ((c.tc : Thread nD τ).loc main_arg3)) (m ((c.tc : Thread nD τ).loc main_arg4))
          (m ((c.tc : Thread nD τ).loc main_arg5)) (m ((c.tc : Thread nD τ).loc main_arg7)) (m ((c.tc : Thread nD τ).loc main_arg9)) n d := by
  unfold Cert.Spec.nodes
  have hxw : (fun a b => (E2 m c main_v2_2 : S2048x128.Idx → EReal) (ix2 a b))
      = Cert.Spec.xW (m ((c.tc : Thread nD τ).loc main_arg0)) (m ((c.tc : Thread nD τ).loc main_arg5)) := funext fun a => funext fun b => E2_xw m c a b
  have hphi : (fun a => (E2 m c main_v2_0 : S1x4096.Idx → EReal) (ix2 0 a))
      = Cert.Spec.phiE (m ((c.tc : Thread nD τ).loc main_arg7)) (m ((c.tc : Thread nD τ).loc main_arg4)) := funext fun a => E2_phie m c a
  have hb : (fun b => (E2 m c main_v0 : S1x128.Idx → EReal) (ix2 0 b))
      = fun b => (m ((c.tc : Thread nD τ).loc main_arg9)) (ix1 b) := funext fun b => E2_bn m c b
  rw [hxw, hphi, hb, E2_main_arg0 m c, E2_main_arg1 m c, E2_main_arg3 m c]

/-- Region 2's ingredients are the specification's (region 1 wrote only the node result in between). -/
theorem edges_ingredients (c : Dev nD) (k : Fin 4096) (d : Fin 16) :
    Cert.Spec.edgesOf (E3 m c main_arg4) (E3 m c main_arg2) (E3 m c main_arg3) (fun a b => (E3 m c main_v2_3 : S4096x16.Idx → EReal) (ix2 a b))
        (fun a => (E3 m c main_v2_1 : S2048x1.Idx → EReal) (ix2 a 0)) (fun b => (E3 m c main_v1 : S1x16.Idx → EReal) (ix2 0 b)) k d
      = Cert.Spec.edges (m ((c.tc : Thread nD τ).loc main_arg0)) (m ((c.tc : Thread nD τ).loc main_arg2)) (m ((c.tc : Thread nD τ).loc main_arg3)) (m ((c.tc : Thread nD τ).loc main_arg4))
          (m ((c.tc : Thread nD τ).loc main_arg6)) (m ((c.tc : Thread nD τ).loc main_arg8)) (m ((c.tc : Thread nD τ).loc main_arg10)) k d := by
  unfold Cert.Spec.edges
  have hew : (fun a b => (E3 m c main_v2_3 : S4096x16.Idx → EReal) (ix2 a b))
      = Cert.Spec.eW (m ((c.tc : Thread nD τ).loc main_arg4)) (m ((c.tc : Thread nD τ).loc main_arg6)) := funext fun a => funext fun b => by
    rw [E3_eq_E2 m c main_v2_3 (by decide)]; exact E2_ew m c a b
  have hphi : (fun a => (E3 m c main_v2_1 : S2048x1.Idx → EReal) (ix2 a 0))
      = Cert.Spec.phiV (m ((c.tc : Thread nD τ).loc main_arg0)) (m ((c.tc : Thread nD τ).loc main_arg8)) := funext fun a => by
    rw [E3_eq_E2 m c main_v2_1 (by decide)]; exact E2_phiv m c a
  have hb : (fun b => (E3 m c main_v1 : S1x16.Idx → EReal) (ix2 0 b))
      = fun b => (m ((c.tc : Thread nD τ).loc main_arg10)) (ix1 b) := funext fun b => by
    rw [E3_eq_E2 m c main_v1 (by decide)]; exact E2_be m c b
  rw [hew, hphi, hb, E3_eq_E2 m c main_arg4 (by decide), E3_eq_E2 m c main_arg2 (by decide), E3_eq_E2 m c main_arg3 (by decide),
    E2_main_arg4 m c, E2_main_arg2 m c, E2_main_arg3 m c]

end Cert.KernelIdeal.Val

end
-- ==== Proof.Ref.lean ====
/-
  The reference's two results, read entry by entry, are the specification's `nodes` and `edges` of its arguments.
-/
import proofs.«109357_g24051816857981_cont_8to1_1327_2_alg».proof.Proof.Gen.ReferenceIdeal.Read
import proofs.«109357_g24051816857981_cont_8to1_1327_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

noncomputable section

namespace Cert.RefValue

open Idealize.ShloMosaic Idealize.ShloMosaic.ValueIdx Cert.ReferenceIdeal

/-! ### Index bookkeeping: each composed index function of the reference, at explicit coordinates. -/

private theorem lidx0 (n : Fin 2048) (k : Fin 4096) (d : Fin 16) :
    Read.lidx_main_v0 (Read.idx_main_v1 (Read.idx_main_v2 (Read.idx_main_v3 (ix2 n k)))) d = ix2 k d :=
  funext fun a => Fin.ext (by
    match a with
    | ⟨0, _⟩ => show k.val / 1 = k.val; exact Nat.div_one _
    | ⟨1, _⟩ => rfl)

private theorem ridx0 (n : Fin 2048) (k : Fin 4096) (d : Fin 16) :
    Read.ridx_main_v0 (Read.idx_main_v1 (Read.idx_main_v2 (Read.idx_main_v3 (ix2 n k)))) d = ix2 d (0 : Fin 1) :=
  funext fun a => Fin.ext (by
    match a with
    | ⟨0, _⟩ => rfl
    | ⟨1, _⟩ => rfl)

private theorem idx5 (k : Fin 4096) (n : Fin 2048) : Read.idx_main_v5 (ix2 k n) = ix2 n k :=
  funext fun a => Fin.ext (by
    match a with
    | ⟨0, _⟩ => rfl
    | ⟨1, _⟩ => rfl)

private theorem lidx6 (n n' : Fin 2048) (k : Fin 4096) : Read.lidx_main_v6 (ix2 n n') k = ix2 n k :=
  funext fun a => Fin.ext (by
    match a with
    | ⟨0, _⟩ => rfl
    | ⟨1, _⟩ => rfl)

private theorem ridx6 (n n' : Fin 2048) (k : Fin 4096) : Read.ridx_main_v6 (ix2 n n') k = ix2 k n' :=
  funext fun a => Fin.ext (by
    match a with
    | ⟨0, _⟩ => rfl
    | ⟨1, _⟩ => rfl)

private theorem lidx8 (n : Fin 2048) (d : Fin 128) (k : Fin 128) : Read.lidx_main_v8 (ix2 n d) k = ix2 n k :=
  funext fun a => Fin.ext (by
    match a with
    | ⟨0, _⟩ => rfl
    | ⟨1, _⟩ => rfl)

private theorem ridx8 (n : Fin 2048) (d : Fin 128) (k : Fin 128) : Read.ridx_main_v8 (ix2 n d) k = ix2 k d :=
  funext fun a => Fin.ext (by
    match a with
    | ⟨0, _⟩ => rfl
    | ⟨1, _⟩ => rfl)

private theorem lidx9 (n : Fin 2048) (d : Fin 128) (n' : Fin 2048) : Read.lidx_main_v9 (ix2 n d) n' = ix2 n n' :=
  funext fun a => Fin.ext (by
    match a with
    | ⟨0, _⟩ => rfl
    | ⟨1, _⟩ => rfl)

private theorem ridx9 (n : Fin 2048) (d : Fin 128) (n' : Fin 2048) : Read.ridx_main_v9 (ix2 n d) n' = ix2 n' d :=
  funext fun a => Fin.ext (by
    match a with
    | ⟨0, _⟩ => rfl
    | ⟨1, _⟩ => rfl)

private theorem idx11 (n : Fin 2048) (d : Fin 128) : Read.idx_main_v10 (Read.idx_main_v11 (ix2 n d)) = ix1 d :=
  funext fun a => Fin.ext (by
    match a with
    | ⟨0, _⟩ => rfl)

private theorem lidx13 (k : Fin 4096) (n : Fin 2048) (d : Fin 128) :
    Read.lidx_main_v13 (Read.idx_main_v14 (Read.idx_main_v16 (Read.idx_main_v17 (ix2 k n)))) d = ix2 n d :=
  funext fun a => Fin.ext (by
    match a with
    | ⟨0, _⟩ => show n.val / 1 = n.val; exact Nat.div_one _
    | ⟨1, _⟩ => rfl)

private theorem ridx13 (k : Fin 4096) (n : Fin 2048) (d : Fin 128) :
    Read.ridx_main_v13 (Read.idx_main_v14 (Read.idx_main_v16 (Read.idx_main_v17 (ix2 k n)))) d = ix2 d (0 : Fin 1) :=
  funext fun a => Fin.ext (by
    match a with
    | ⟨0, _⟩ => rfl
    | ⟨1, _⟩ => rfl)

private theorem idx15 (k : Fin 4096) (n : Fin 2048) : Read.idx_main_v15 (ix2 k n) = ix2 n k :=
  funext fun a => Fin.ext (by
    match a with
    | ⟨0, _⟩ => rfl
    | ⟨1, _⟩ => rfl)

private theorem lidx19 (k k' : Fin 4096) (n : Fin 2048) : Read.lidx_main_v19 (ix2 k k') n = ix2 k n :=
  funext fun a => Fin.ext (by
    match a with
    | ⟨0, _⟩ => rfl
    | ⟨1, _⟩ => rfl)

private theorem ridx19 (k k' : Fin 4096) (n : Fin 2048) : Read.ridx_main_v19 (ix2 k k') n = ix2 n k' :=
  funext fun a => Fin.ext (by
    match a with
    | ⟨0, _⟩ => rfl
    | ⟨1, _⟩ => rfl)

private theorem lidx21 (k : Fin 4096) (d : Fin 16) (j : Fin 16) : Read.lidx_main_v21 (ix2 k d) j = ix2 k j :=
  funext fun a => Fin.ext (by
    match a with
    | ⟨0, _⟩ => rfl
    | ⟨1, _⟩ => rfl)

private theorem ridx21 (k : Fin 4096) (d : Fin 16) (j : Fin 16) : Read.ridx_main_v21 (ix2 k d) j = ix2 j d :=
  funext fun a => Fin.ext (by
    match a with
    | ⟨0, _⟩ => rfl
    | ⟨1, _⟩ => rfl)

private theorem lidx22 (k : Fin 4096) (d : Fin 16) (k' : Fin 4096) : Read.lidx_main_v22 (ix2 k d) k' = ix2 k k' :=
  funext fun a => Fin.ext (by
    match a with
    | ⟨0, _⟩ => rfl
    | ⟨1, _⟩ => rfl)

private theorem ridx22 (k : Fin 4096) (d : Fin 16) (k' : Fin 4096) : Read.ridx_main_v22 (ix2 k d) k' = ix2 k' d :=
  funext fun a => Fin.ext (by
    match a with
    | ⟨0, _⟩ => rfl
    | ⟨1, _⟩ => rfl)

private theorem idx24 (k : Fin 4096) (d : Fin 16) : Read.idx_main_v23 (Read.idx_main_v24 (ix2 k d)) = ix1 d :=
  funext fun a => Fin.ext (by
    match a with
    | ⟨0, _⟩ => rfl)

/-! ### The node branch, stage by stage. -/

/-- The broadcast edge weight at (n, k) is φₑ k: the reference's Σ_d e[k,d]·p[d] with each product commuted. -/
theorem phiE_at (x4 : (⟨S4096x16, .f32⟩ : BufTy).Contents (Elt Ideal)) (x7 : (⟨S16x1, .f32⟩ : BufTy).Contents (Elt Ideal))
    (n : Fin 2048) (k : Fin 4096) :
    Read.val_main_v3 (F := Ideal) x4 x7 (ix2 n k) = Cert.Spec.phiE x7 x4 k := by
  rw [Read.val_main_v3_apply, Read.val_main_v2_apply, Read.val_main_v1_apply, Read.val_main_v0_apply]
  unfold Cert.Spec.phiE
  refine Finset.sum_congr rfl fun d _ => ?_
  rw [lidx0, ridx0, mul_comm]

/-- The node propagation matrix T diag(φₑ) Tᵀ at (n, n'). -/
theorem nodeProp_at (x3 : (⟨S2048x4096, .f32⟩ : BufTy).Contents (Elt Ideal)) (x4 : (⟨S4096x16, .f32⟩ : BufTy).Contents (Elt Ideal))
    (x7 : (⟨S16x1, .f32⟩ : BufTy).Contents (Elt Ideal)) (n n' : Fin 2048) :
    Read.val_main_v6 (F := Ideal) x3 x4 x7 (ix2 n n') = Cert.Spec.nodeProp x3 (Cert.Spec.phiE x7 x4) n n' := by
  rw [Read.val_main_v6_apply]
  unfold Cert.Spec.nodeProp
  refine Finset.sum_congr rfl fun k _ => ?_
  rw [lidx6, ridx6, Read.val_main_v4_apply, Read.val_main_v5_apply, phiE_at, idx5, Ideal.mulf_def]

/-- x · W_n at (n', d). -/
theorem xW_at (x0 : (⟨S2048x128, .f32⟩ : BufTy).Contents (Elt Ideal)) (x5 : (⟨S128x128, .f32⟩ : BufTy).Contents (Elt Ideal))
    (n : Fin 2048) (d : Fin 128) :
    Read.val_main_v8 (F := Ideal) x0 x5 (ix2 n d) = Cert.Spec.xW x0 x5 n d := by
  rw [Read.val_main_v8_apply]
  unfold Cert.Spec.xW
  refine Finset.sum_congr rfl fun k _ => ?_
  rw [lidx8, ridx8]

/-- The propagated node features at (n, d). -/
theorem nodeSum_at (x0 : (⟨S2048x128, .f32⟩ : BufTy).Contents (Elt Ideal)) (x1 : (⟨S2048x2048, .f32⟩ : BufTy).Contents (Elt Ideal))
    (x3 : (⟨S2048x4096, .f32⟩ : BufTy).Contents (Elt Ideal)) (x4 : (⟨S4096x16, .f32⟩ : BufTy).Contents (Elt Ideal))
    (x5 : (⟨S128x128, .f32⟩ : BufTy).Contents (Elt Ideal)) (x7 : (⟨S16x1, .f32⟩ : BufTy).Contents (Elt Ideal))
    (n : Fin 2048) (d : Fin 128) :
    Read.val_main_v9 (F := Ideal) x0 x1 x3 x4 x5 x7 (ix2 n d)
      = ∑ n' : Fin 2048, (Cert.Spec.nodeProp x3 (Cert.Spec.phiE x7 x4) n n' * x1 (ix2 n n')) * Cert.Spec.xW x0 x5 n' d := by
  rw [Read.val_main_v9_apply]
  refine Finset.sum_congr rfl fun n' _ => ?_
  rw [lidx9, ridx9, Read.val_main_v7_apply, nodeProp_at, xW_at, Ideal.mulf_def]

/-! ### The edge branch, stage by stage. -/

/-- The broadcast node weight at (k, n) is φᵥ n. -/
theorem phiV_at (x0 : (⟨S2048x128, .f32⟩ : BufTy).Contents (Elt Ideal)) (x8 : (⟨S128x1, .f32⟩ : BufTy).Contents (Elt Ideal))
    (k : Fin 4096) (n : Fin 2048) :
    Read.val_main_v17 (F := Ideal) x0 x8 (ix2 k n) = Cert.Spec.phiV x0 x8 n := by
  rw [Read.val_main_v17_apply, Read.val_main_v16_apply, Read.val_main_v14_apply, Read.val_main_v13_apply]
  unfold Cert.Spec.phiV
  refine Finset.sum_congr rfl fun d _ => ?_
  rw [lidx13, ridx13]

/-- The edge propagation matrix Tᵀ diag(φᵥ) T at (k, k'): the reference's term (T[n,k]·φᵥ n)·T[n,k'] reassociated and commuted. -/
theorem edgeProp_at (x0 : (⟨S2048x128, .f32⟩ : BufTy).Contents (Elt Ideal)) (x3 : (⟨S2048x4096, .f32⟩ : BufTy).Contents (Elt Ideal))
    (x8 : (⟨S128x1, .f32⟩ : BufTy).Contents (Elt Ideal)) (k k' : Fin 4096) :
    Read.val_main_v19 (F := Ideal) x0 x3 x8 (ix2 k k') = Cert.Spec.edgeProp x3 (Cert.Spec.phiV x0 x8) k k' := by
  rw [Read.val_main_v19_apply]
  unfold Cert.Spec.edgeProp
  refine Finset.sum_congr rfl fun n _ => ?_
  rw [lidx19, ridx19, Read.val_main_v18_apply, Read.val_main_v15_apply, phiV_at, idx15, Ideal.mulf_def, mul_assoc,
    mul_comm (Cert.Spec.phiV x0 x8 n)]

/-- e · W_e at (k', d). -/
theorem eW_at (x4 : (⟨S4096x16, .f32⟩ : BufTy).Contents (Elt Ideal)) (x6 : (⟨S16x16, .f32⟩ : BufTy).Contents (Elt Ideal))
    (k : Fin 4096) (d : Fin 16) :
    Read.val_main_v21 (F := Ideal) x4 x6 (ix2 k d) = Cert.Spec.eW x4 x6 k d := by
  rw [Read.val_main_v21_apply]
  unfold Cert.Spec.eW
  refine Finset.sum_congr rfl fun j _ => ?_
  rw [lidx21, ridx21]

/-- The propagated edge features at (k, d). -/
theorem edgeSum_at (x0 : (⟨S2048x128, .f32⟩ : BufTy).Contents (Elt Ideal)) (x2 : (⟨S4096x4096, .f32⟩ : BufTy).Contents (Elt Ideal))
    (x3 : (⟨S2048x4096, .f32⟩ : BufTy).Contents (Elt Ideal)) (x4 : (⟨S4096x16, .f32⟩ : BufTy).Contents (Elt Ideal))
    (x6 : (⟨S16x16, .f32⟩ : BufTy).Contents (Elt Ideal)) (x8 : (⟨S128x1, .f32⟩ : BufTy).Contents (Elt Ideal))
    (k : Fin 4096) (d : Fin 16) :
    Read.val_main_v22 (F := Ideal) x0 x2 x3 x4 x6 x8 (ix2 k d)
      = ∑ k' : Fin 4096, (Cert.Spec.edgeProp x3 (Cert.Spec.phiV x0 x8) k k' * x2 (ix2 k k')) * Cert.Spec.eW x4 x6 k' d := by
  rw [Read.val_main_v22_apply]
  refine Finset.sum_congr rfl fun k' _ => ?_
  rw [lidx22, ridx22, Read.val_main_v20_apply, edgeProp_at, eW_at, Ideal.mulf_def]

/-- The reference's node result at entry (n, d) is the specification's. -/
theorem ref_nodes (x0 : (⟨S2048x128, .f32⟩ : BufTy).Contents (Elt Ideal)) (x1 : (⟨S2048x2048, .f32⟩ : BufTy).Contents (Elt Ideal))
    (x3 : (⟨S2048x4096, .f32⟩ : BufTy).Contents (Elt Ideal)) (x4 : (⟨S4096x16, .f32⟩ : BufTy).Contents (Elt Ideal))
    (x5 : (⟨S128x128, .f32⟩ : BufTy).Contents (Elt Ideal)) (x7 : (⟨S16x1, .f32⟩ : BufTy).Contents (Elt Ideal))
    (x9 : (⟨S128, .f32⟩ : BufTy).Contents (Elt Ideal)) (n : Fin 2048) (d : Fin 128) :
    Cert.ReferenceIdeal.Read.val_main_v26 (F := Ideal) x0 x1 x3 x4 x5 x7 x9 (ix2 n d) = Cert.Spec.nodes x0 x1 x3 x4 x5 x7 x9 n d := by
  -- the reference forms x + (S + b); the specification (x + b) + S
  rw [Read.val_main_v26_apply, Read.val_main_v12_apply, nodeSum_at, Read.val_main_v11_apply, Read.val_main_v10_apply, idx11,
    Ideal.addf_def, Ideal.addf_def, add_comm _ (x9 (ix1 d)), ← add_assoc]
  rfl

/-- The reference's edge result at entry (k, d) is the specification's. -/
theorem ref_edges (x0 : (⟨S2048x128, .f32⟩ : BufTy).Contents (Elt Ideal)) (x2 : (⟨S4096x4096, .f32⟩ : BufTy).Contents (Elt Ideal))
    (x3 : (⟨S2048x4096, .f32⟩ : BufTy).Contents (Elt Ideal)) (x4 : (⟨S4096x16, .f32⟩ : BufTy).Contents (Elt Ideal))
    (x6 : (⟨S16x16, .f32⟩ : BufTy).Contents (Elt Ideal)) (x8 : (⟨S128x1, .f32⟩ : BufTy).Contents (Elt Ideal))
    (x10 : (⟨S16, .f32⟩ : BufTy).Contents (Elt Ideal)) (k : Fin 4096) (d : Fin 16) :
    Cert.ReferenceIdeal.Read.val_main_v27 (F := Ideal) x0 x2 x3 x4 x6 x8 x10 (ix2 k d) = Cert.Spec.edges x0 x2 x3 x4 x6 x8 x10 k d := by
  -- the reference forms e + (S + b); the specification (e + b) + S
  rw [Read.val_main_v27_apply, Read.val_main_v25_apply, edgeSum_at, Read.val_main_v24_apply, Read.val_main_v23_apply, idx24,
    Ideal.addf_def, Ideal.addf_def, add_comm _ (x10 (ix1 d)), ← add_assoc]
  rfl

end Cert.RefValue

end
-- ==== Proof.lean ====
/-
  The certificate: a fused kernel for one residual graph layer with node and edge propagation —
    nodes = x + b_n + ((T diag(e·p_node) Tᵀ) ⊙ L_v)(x W_n),   edges = e + b_e + ((Tᵀ diag(x·p_edge) T) ⊙ L_e)(e W_e) —
  in three kernel regions (the four small products; the node chain on an 8×8 grid, accumulating the eight column
  blocks of the propagation matrix into the output block; the edge chain likewise), against the plain jnp reference.
  Over the extended reals the two programs are ONE function of the arguments: the kernel never forms the 2048×2048
  (4096×4096) propagation matrix but contracts each of its tiles at once, which regroups the reference's sum over the
  source nodes (edges) into eight consecutive blocks; products and sums are otherwise in the same order up to
  commutativity and associativity. No distributive law, hence no finiteness, is used: the precondition is never opened.
  The frames: each region's body obligation, the launch over the four items of @main with the incidence matrix's
  share split between the two windows that read it; the reference's frame is its run with the results dropped.
-/
import proofs.«109357_g24051816857981_cont_8to1_1327_2_alg».proof.Defs
import proofs.«109357_g24051816857981_cont_8to1_1327_2_alg».proof.Proof.Gen.Kernel
import proofs.«109357_g24051816857981_cont_8to1_1327_2_alg».proof.Proof.Gen.KernelIdeal
import proofs.«109357_g24051816857981_cont_8to1_1327_2_alg».proof.Proof.Gen.ReferenceIdeal
import proofs.«109357_g24051816857981_cont_8to1_1327_2_alg».proof.Proof.Gen.Pre_finite_inputs
import proofs.«109357_g24051816857981_cont_8to1_1327_2_alg».proof.Proof.Gen.ReferenceIdeal.Run
import proofs.«109357_g24051816857981_cont_8to1_1327_2_alg».proof.Proof.Gen.ReferenceIdeal.Read
import proofs.«109357_g24051816857981_cont_8to1_1327_2_alg».proof.Proof.K.R0
import proofs.«109357_g24051816857981_cont_8to1_1327_2_alg».proof.Proof.K.R1
import proofs.«109357_g24051816857981_cont_8to1_1327_2_alg».proof.Proof.K.R2
import proofs.«109357_g24051816857981_cont_8to1_1327_2_alg».proof.Proof.K.Run
import proofs.«109357_g24051816857981_cont_8to1_1327_2_alg».proof.Proof.KI.R0
import proofs.«109357_g24051816857981_cont_8to1_1327_2_alg».proof.Proof.KI.R1
import proofs.«109357_g24051816857981_cont_8to1_1327_2_alg».proof.Proof.KI.R2
import proofs.«109357_g24051816857981_cont_8to1_1327_2_alg».proof.Proof.KI.Run
import proofs.«109357_g24051816857981_cont_8to1_1327_2_alg».proof.Proof.Val1
import proofs.«109357_g24051816857981_cont_8to1_1327_2_alg».proof.Proof.Val2
import proofs.«109357_g24051816857981_cont_8to1_1327_2_alg».proof.Proof.Bridge
import proofs.«109357_g24051816857981_cont_8to1_1327_2_alg».proof.Proof.Ref
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ =>
  Cert.Kernel.Fr.frame m (fun c => Cert.Kernel.Fr.body_obligation0 _ c) (fun c => Cert.Kernel.Fr.body_obligation1 _ c)
    (fun c => Cert.Kernel.Fr.body_obligation2 _ c) ρ

/-- The idealized kernel runs and leaves its arguments unchanged. -/
theorem frame_ki : Cert.frame_KernelIdeal := fun m ρ _ =>
  Cert.KernelIdeal.Fr.frame m (fun c => Cert.KernelIdeal.Fr.body_obligation0 _ c) (fun c => Cert.KernelIdeal.Fr.body_obligation1 _ c)
    (fun c => Cert.KernelIdeal.Fr.body_obligation2 _ c) ρ

/-- The reference runs and leaves its arguments unchanged: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

open Cert.KernelIdeal Cert.KernelIdeal.Fr Cert.KernelIdeal.Val in
/-- Both programs end with the specification's node and edge arrays of their (agreeing) arguments. -/
theorem algebraic : Cert.algebraic_KernelIdeal_ReferenceIdeal := by
  intro m ρ m' ρ' _ hagree
  refine ⟨fun c => (dat1 (F := Ideal) (E2 m) c).arrAt 7 cfg1.N, fun c => (dat2 (F := Ideal) (E3 m) c).arrAt 7 cfg2.N,
    Cert.KernelIdeal.Fr.run_values m (fun c => body_obligation0 _ c) (fun c => body_obligation1 _ c) (fun c => body_obligation2 _ c) ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v26_eq, (hagree c).1, (hagree c).2.1, (hagree c).2.2.2.1, (hagree c).2.2.2.2.1,
      (hagree c).2.2.2.2.2.1, (hagree c).2.2.2.2.2.2.2.1, (hagree c).2.2.2.2.2.2.2.2.2.1]
    funext i
    obtain ⟨n, d, rfl⟩ : ∃ (n : Fin 2048) (d : Fin 128), i = ix2 n d := ⟨i 0, i 1, eq_ix2 i⟩
    exact (Cert.RefValue.ref_nodes _ _ _ _ _ _ _ n d).trans
      ((arr1_7 (E2 m) c n d).trans (nodes_ingredients m c n d)).symm
  · rw [Cert.ReferenceIdeal.Read.val_main_v27_eq, (hagree c).1, (hagree c).2.2.1, (hagree c).2.2.2.1, (hagree c).2.2.2.2.1,
      (hagree c).2.2.2.2.2.2.1, (hagree c).2.2.2.2.2.2.2.2.1, (hagree c).2.2.2.2.2.2.2.2.2.2]
    funext i
    obtain ⟨k, d, rfl⟩ : ∃ (k : Fin 4096) (d : Fin 16), i = ix2 k d := ⟨i 0, i 1, eq_ix2 i⟩
    exact (Cert.RefValue.ref_edges _ _ _ _ _ _ _ k d).trans
      ((arr2_7 (E3 m) c k d).trans (edges_ingredients m c k d)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
